-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S8192x512 .f32) (main_arg1 : IVec S8192x8192 32) (main_arg2 : FVec F S512x256 .f32) (main_arg3 : FVec F S256x1 .f32) (main_arg4 : FVec F S256x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S1x256 : Shape := ⟨2, ![1, 256]⟩
abbrev S8192x256 : Shape := ⟨2, ![8192, 256]⟩
abbrev S8192x1 : Shape := ⟨2, ![8192, 1]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩
abbrev S1x8192 : Shape := ⟨2, ![1, 8192]⟩
abbrev S1x1024 : Shape := ⟨2, ![1, 1024]⟩
abbrev S1024x1024 : Shape := ⟨2, ![1024, 1024]⟩

abbrev nBuf : Space → Nat
  | .hbm => 12
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S256x1, .f32⟩
  | .hbm, ⟨4, _⟩ => ⟨S256x1, .f32⟩
  | .hbm, ⟨5, _⟩ => ⟨S1x256, .f32⟩
  | .hbm, ⟨6, _⟩ => ⟨S1x256, .f32⟩
  | .hbm, ⟨7, _⟩ => ⟨S8192x256, .bf16⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x1024, .i32⟩
  | .local _ .vmem, ⟨16, _⟩ => ⟨S1024x1024, .i32⟩
  | .local _ .vmem, ⟨17, _⟩ => ⟨S8192x256, .bf16⟩
  | .local _ .vmem, ⟨18, _⟩ => ⟨S1024x256, .f32⟩
  | .local _ .vmem, ⟨19, _⟩ => ⟨S1024x256, .f32⟩
  | .local _ .vmem, ⟨20, _⟩ => ⟨S1024x1, .f32⟩
  | .local _ .vmem, ⟨21, _⟩ => ⟨S1024x1, .f32⟩
  | .local _ .vmem, ⟨22, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v36 : BitVec 32 := Scalar.muli arg1 c1024_i32
  v36
def k1_off1 (i : grid1.Coords) : Fin 2 → Nat :=
  let arg1 : BitVec 32 := BitVec.ofNat 32 (i 1).val
  let c1024_i32 : BitVec 32 := 1024#32
  let v36 : BitVec 32 := Scalar.muli arg1 c1024_i32
  let v37 : BitVec 32 := v36
  let v38 : Index := Scalar.indexCast v37
  let c0_18 : Index := 0#32
  ![v38.toNat, 0]
def k1_cond2 (i : grid1.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_26 : BitVec 32 := 0#32
  let v55 : BitVec 1 := Scalar.cmpi .ne v54 c0_i32_26
  v55

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S256x1_S1x256_1_0 : S256x1.Transposes [1, 0] S1x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  transposes_S8192x1_S1x8192_1_0 : S8192x1.Transposes [1, 0] S1x8192
  shapeCasts_S1024x1_S1024x1 : S1024x1.ShapeCasts S1024x1
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  broadcasts_S1024x1_S1024x256 : S1024x1.Broadcasts S1024x256
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .i32 = 32 ∨ (Rect.block (s := S8192x8192) S1024x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .bf16 = 32 ∨ (Rect.block (s := S8192x256) S8192x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S8192x256 : Shape := ⟨2, ![8192, 256]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S256x1, .f32⟩
  | .hbm, ⟨4, _⟩ => ⟨S256x1, .f32⟩
  | .hbm, ⟨5, _⟩ => ⟨S8192x256, .f32⟩
  | .hbm, ⟨6, _⟩ => ⟨S8192x1, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .i1⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x256, .f32⟩
  | .hbm, ⟨41, _⟩ => ⟨S_, .f32⟩
  | .hbm, ⟨42, _⟩ => ⟨S8192x256, .f32⟩
  | .hbm, ⟨43, _⟩ => ⟨S8192x256, .i1⟩
  | .hbm, ⟨44, _⟩ => ⟨S_, .f32⟩
  | .hbm, ⟨45, _⟩ => ⟨S8192x256, .f32⟩
  | .hbm, ⟨46, _⟩ => ⟨S8192x256, .i1⟩
  | .hbm, ⟨47, _⟩ => ⟨S_, .f32⟩
  | .hbm, ⟨48, _⟩ => ⟨S_, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | .hbm, ⟨55, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_cst_0 : Ref sig .tc := ⟨.hbm, 44, rfl⟩
abbrev main_call2_v2 : Ref sig .tc := ⟨.hbm, 45, rfl⟩
abbrev main_call2_v3 : Ref sig .tc := ⟨.hbm, 46, rfl⟩
abbrev main_call2_cst_1 : Ref sig .tc := ⟨.hbm, 47, rfl⟩
abbrev main_call2_call0_v0 : Ref sig .tc := ⟨.hbm, 48, rfl⟩
abbrev main_call2_call0_v1 : Ref sig .tc := ⟨.hbm, 49, rfl⟩
abbrev main_call2_v4 : Ref sig .tc := ⟨.hbm, 50, rfl⟩
abbrev main_call2_v5 : Ref sig .tc := ⟨.hbm, 51, rfl⟩
abbrev main_call2_cst_2 : Ref sig .tc := ⟨.hbm, 52, rfl⟩
abbrev main_call2_v6 : Ref sig .tc := ⟨.hbm, 53, rfl⟩
abbrev main_call2_v7 : Ref sig .tc := ⟨.hbm, 54, rfl⟩
abbrev main_v27 : Ref sig .tc := ⟨.hbm, 55, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Proj.lean ====
/-
  The projection region (the first of the program's two kernel regions), at the contents `V` the region finds
  in the TensorCore's buffers.

  At grid point `t` the body reads a 1024 × 512 block `x` of the input, the whole 512 × 256 weight `W` and the two
  1 × 256 rows `a1ᵀ`, `a2ᵀ`, and stores three things, each over its whole staging buffer: the product `x W`
  (narrowed to the half-width format), and the two row sums `∑ c, (x W) r c * a1ᵀ c` and `∑ c, (x W) r c * a2ᵀ c`.
  Nothing is kept between points. The module states what each window's staging buffer holds after the body
  (the inputs their blocks, the outputs those three payloads of the input blocks), proves the body's triple, and
  from it the obligation the pipeline asks at every point.
-/
import proofs.«410119_j22316650070323_3_alg».proof.Proof.Gen.Kernel.Launch
import proofs.«410119_j22316650070323_3_alg».proof.Proof.Gen.Kernel.Skeleton
import proofs.«410119_j22316650070323_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or the block index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each the whole of its buffer. -/
abbrev rX : Rect S1024x512 := Rect.unit (s := S1024x512) ![0, 0] S1024x512.size inb_S1024x512_S1024x512_0_0
abbrev rW : Rect S512x256 := Rect.unit (s := S512x256) ![0, 0] S512x256.size inb_S512x256_S512x256_0_0
abbrev rA : Rect S1x256 := Rect.unit (s := S1x256) ![0, 0] S1x256.size inb_S1x256_S1x256_0_0
abbrev rH : Rect S1024x256 := Rect.unit (s := S1024x256) ![0, 0] S1024x256.size inb_S1024x256_S1024x256_0_0
abbrev rF : Rect S1024x1 := Rect.unit (s := S1024x1) ![0, 0] S1024x1.size inb_S1024x1_S1024x1_0_0

/-- What the body leaves in the three output windows' staging buffers, from the input blocks: one store each. -/
def outH (x0 : Vec F S1024x512 .f32) (x1 : Vec F S512x256 .f32) : Vec F S1024x256 .bf16 :=
  View.canon [⟨rH, k0_pay2 (View.ld x0 rX) (View.ld x1 rW)⟩]
def outF1 (x0 : Vec F S1024x512 .f32) (x1 : Vec F S512x256 .f32) (x2 : Vec F S1x256 .f32) : Vec F S1024x1 .f32 :=
  View.canon [⟨rF, k0_pay3 (View.ld x0 rX) (View.ld x1 rW) (View.ld x2 rA)⟩]
def outF2 (x0 : Vec F S1024x512 .f32) (x1 : Vec F S512x256 .f32) (x3 : Vec F S1x256 .f32) : Vec F S1024x1 .f32 :=
  View.canon [⟨rF, k0_pay4 (View.ld x0 rX) (View.ld x1 rW) (View.ld x3 rA)⟩]

/-- Each store covers its buffer. -/
theorem coverH (p0 : Vec F S1024x256 .bf16) (y : S1024x256.Idx) :
    ∃ pc ∈ ([⟨rH, p0⟩] : List (View.Piece (Elt F) S1024x256 .bf16)), y ∈ pc.1.set :=
  View.cover_of_tiled [⟨rH, p0⟩] S1024x256.size (by rfl) y
theorem coverF (p0 : Vec F S1024x1 .f32) (y : S1024x1.Idx) :
    ∃ pc ∈ ([⟨rF, p0⟩] : List (View.Piece (Elt F) S1024x1 .f32)), y ∈ pc.1.set :=
  View.cover_of_tiled [⟨rF, p0⟩] S1024x1.size (by rfl) y

/-- The zero offsets of a rank-2 rectangle are the constant zero function. -/
theorem zero_off2 : (![0, 0] : Fin 2 → Nat) = fun _ => 0 := funext fun a => by fin_cases a <;> rfl

/-- The stores being whole, the buffers hold the payloads themselves, of the blocks themselves. -/
theorem outH_eq (x0 : Vec F S1024x512 .f32) (x1 : Vec F S512x256 .f32) : outH x0 x1 = k0_pay2 x0 x1 := by
  unfold outH
  rw [View.canon_unit_zero (S := S1024x256) zero_off2]
  simp only [View.ld_unit_zero (S := S1024x512) zero_off2, View.ld_unit_zero (S := S512x256) zero_off2]
theorem outF1_eq (x0 : Vec F S1024x512 .f32) (x1 : Vec F S512x256 .f32) (x2 : Vec F S1x256 .f32) : outF1 x0 x1 x2 = k0_pay3 x0 x1 x2 := by
  unfold outF1
  rw [View.canon_unit_zero (S := S1024x1) zero_off2]
  simp only [View.ld_unit_zero (S := S1024x512) zero_off2, View.ld_unit_zero (S := S512x256) zero_off2,
    View.ld_unit_zero (S := S1x256) zero_off2]
theorem outF2_eq (x0 : Vec F S1024x512 .f32) (x1 : Vec F S512x256 .f32) (x3 : Vec F S1x256 .f32) : outF2 x0 x1 x3 = k0_pay4 x0 x1 x3 := by
  unfold outF2
  rw [View.canon_unit_zero (S := S1024x1) zero_off2]
  simp only [View.ld_unit_zero (S := S1024x512) zero_off2, View.ld_unit_zero (S := S512x256) zero_off2,
    View.ld_unit_zero (S := S1x256) zero_off2]

set_option maxHeartbeats 1000000 in
/-- The body on whole staging memrefs, the inputs' at read contents and the outputs' at anything, runs to the
    continuation holding the inputs' as they were and each output's at its payload. -/
theorem sound_kernel0 (c : Dev nD) (E : Set ℕ) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outH x0 x1) ∗ owns (c : Thread nD τ) arg6 fullShare (outF1 x0 x1 x2) ∗ owns (c : Thread nD τ) arg7 fullShare (outF2 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverH _)
  isplitl [H5]
  · iexists _; isplitr
    swap; · iexact H5
    ipureintro
    exact View.read_writes_eq_canon _ _ _ (coverF _)
  iexists _; isplitr
  swap; · iexact H6
  ipureintro
  exact View.read_writes_eq_canon _ _ _ (coverF _)

/-- The proof data of the projection pipeline on core `c`: the arrays as the region finds them; after the body at
    point `t` each input's buffer at its block and each output's at its payload of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outH (iblk0 V c 0 t) (iblk0 V c 1 t)
    | ⟨5, _⟩ => outF1 (iblk0 V c 0 t) (iblk0 V c 1 t) (iblk0 V c 2 t)
    | ⟨6, _⟩ => outF2 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outH (iblk0 V c 0 t) (iblk0 V c 1 t) := by dsimp only [dat0]
theorem after0_5 (c : Dev nD) (t : Fin cfg0.N) : (dat0 V c).after 5 t = outF1 (iblk0 V c 0 t) (iblk0 V c 1 t) (iblk0 V c 2 t) := by dsimp only [dat0]
theorem after0_6 (c : Dev nD) (t : Fin cfg0.N) : (dat0 V c).after 6 t = outF2 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`: the invariant, what is owed, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.AttnRun.lean ====
/-
  The attention region's kernel body, run once per control case.

  The body branches twice on the second grid coordinate `k`: at `k = 0` it first resets its three scratch buffers (the
  running maximum to `-∞`, the running denominator and numerators to `0`); at `k = 7` it finally divides the
  numerators by the denominator, applies the exponential linear unit and stores the result into the output window.
  In between, at every point, it updates the three scratch buffers from the point's blocks. So a grid point is in
  one of three cases: FIRST (`k = 0`), MIDDLE (`0 < k < 7`), LAST (`k = 7`). This module states the two conditions,
  decides them over the grid, says where the output window is idle, and runs the body in each case on whole
  staging memrefs: what each scratch buffer (and, in the last case, the output buffer) is left holding is a list of
  stored pieces.
-/
import proofs.«410119_j22316650070323_3_alg».proof.Proof.Gen.Kernel.Launch
import proofs.«410119_j22316650070323_3_alg».proof.Proof.Gen.Kernel.Skeleton
import proofs.«410119_j22316650070323_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The body's first `if`: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body's second `if`: the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails the body stores nothing into the output window, and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the pipeline passes -/

abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three scratch operands: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

/-! ## The body's run, case by case -/

set_option maxHeartbeats 4000000 in
/-- FIRST (`k = 0`): the scratch buffers may hold anything (the reset stores cover them before anything reads them);
    the output window is idle, its buffer handed back untouched. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- MIDDLE (`0 < k < 7`): the scratch buffers hold what the point before left (`xs·`); the output window is idle. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- LAST (`k = 7`): the scratch buffers hold what the point before left; the output buffer, at anything, is stored whole. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.Attn.lean ====
/-
  The attention region (the second kernel region), at the contents `V` the region finds in the TensorCore's buffers.

  The grid is 8 × 8: point `t` is row block `t / 8` against column block `k = t % 8`. Across the eight points of a
  row block the body carries three scratch buffers: the running row maximum `m`, the running denominator `l` and
  the running numerators `acc` of a softmax taken one column block at a time. `stepM`, `stepL`, `stepA` are one
  point's update of the three as pure functions of the point's blocks and the scratch contents it starts from; at
  `k = 0` it starts from the reset values, at `k > 0` from what the point before left; at `k = 7` the output window
  receives `acc / l` through the exponential linear unit. `outsAt1` is what the output window's staging buffer and
  the three scratch buffers hold after each point, by recursion on the point; the proof data, the body's
  obligation to the pipeline and the invariant's two ends follow.
-/
import proofs.«410119_j22316650070323_3_alg».proof.Proof.Gen.Kernel.Launch
import proofs.«410119_j22316650070323_3_alg».proof.Proof.Gen.Kernel.Skeleton
import proofs.«410119_j22316650070323_3_alg».proof.Proof.Gen.Kernel.Points
import proofs.«410119_j22316650070323_3_alg».proof.Proof.K.AttnRun
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point's update, as pure functions -/

/-- The rows of the resident (whole) array of `h` the body reads at a grid point: those of the point's column block. -/
def hrows (i : grid1.Coords) (x3 : Vec F S8192x256 .bf16) : Vec F S1024x256 .bf16 :=
  View.ld x3 (Rect.unit (s := S8192x256) (k1_off1 i) S1024x256.size (k1_off1_inb i))

/-- The new running maximum, denominator and numerators from the point's blocks (`f1` rows, `f2` columns, adjacency
    block, rows of `h`) and the old ones. -/
def stepM (b0 : Vec F S1024x1 .f32) (b1 : Vec F S1x1024 .f32) (b2 : Vec F S1024x1024 .i32) (ms : Vec F S1024x1 .f32) : Vec F S1024x1 .f32 :=
  k1_pay2 (k1_pay8 b0 b1 b2 ms)
def stepL (b0 : Vec F S1024x1 .f32) (b1 : Vec F S1x1024 .f32) (b2 : Vec F S1024x1024 .i32) (ms ls : Vec F S1024x1 .f32) : Vec F S1024x1 .f32 :=
  k1_pay11 b0 b1 b2 ms ms ls
def stepA (b0 : Vec F S1024x1 .f32) (b1 : Vec F S1x1024 .f32) (b2 : Vec F S1024x1024 .i32) (hb : Vec F S1024x256 .bf16)
    (ms : Vec F S1024x1 .f32) (acs : Vec F S1024x256 .f32) : Vec F S1024x256 .f32 :=
  k1_pay1 (k1_pay9 b0 b1 b2 ms ms) (k1_pay10 b0 b1 b2 ms) hb acs

/-! ## What each case leaves

In each of the three cases the run leaves every buffer it stores into as a list of stored pieces. A buffer's contents
after the case are those pieces read back; where the pieces cover the buffer (every scratch buffer in every case, the
output buffer in the last case) they do not depend on what the buffer held before or on which buffer it is. -/

/-- One staging buffer of the output window and the three scratch buffers, as views through which contents are stated. -/
abbrev VO1_4 : View sig .tc .vmem S1024x256 .f32 := (Memref.whole cc1_stg4_0 : Memref sig .tc .vmem S1024x256 .f32).view
abbrev VS1_0 : View sig .tc .vmem S1024x1 .f32 := scM1_0.view
abbrev VS1_1 : View sig .tc .vmem S1024x1 .f32 := scM1_1.view
abbrev VS1_2 : View sig .tc .vmem S1024x256 .f32 := scM1_2.view

/-- What the first case leaves in the output window's staging buffer: its pieces read back (none: the window is idle there, and nothing consults this). -/
def out1_A_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) : Vec F S1024x256 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- The first case's pieces for the running maximum tile it, so they cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What the first case leaves in the running maximum: its pieces read back. -/
def sout1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- The first case's pieces for the running denominator tile it, so they cover it. -/
theorem scover1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What the first case leaves in the running denominator: its pieces read back. -/
def sout1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- The first case's pieces for the running numerators tile it, so they cover it. -/
theorem scover1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) (y : S1024x256.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x256.size (by sl_kernel_rfl) y

/-- What the first case leaves in the running numerators: its pieces read back. -/
def sout1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) : Vec F S1024x256 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- What the middle case leaves in the output window's staging buffer: its pieces read back (none: the window is idle there, and nothing consults this). -/
def out1_B_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x256 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- The middle case's pieces for the running maximum tile it, so they cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the middle case leaves in the running maximum: its pieces read back. -/
def sout1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- The middle case's pieces for the running denominator tile it, so they cover it. -/
theorem scover1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the middle case leaves in the running denominator: its pieces read back. -/
def sout1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- The middle case's pieces for the running numerators tile it, so they cover it. -/
theorem scover1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What the middle case leaves in the running numerators: its pieces read back. -/
def sout1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- The last case's pieces for the output window's staging buffer tile it, so they cover it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x256.size (by sl_kernel_rfl) y

/-- What the last case leaves in the output window's staging buffer: its pieces read back. -/
def out1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x256 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- The last case's pieces for the running maximum tile it, so they cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the last case leaves in the running maximum: its pieces read back. -/
def sout1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- The last case's pieces for the running denominator tile it, so they cover it. -/
theorem scover1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the last case leaves in the running denominator: its pieces read back. -/
def sout1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- The last case's pieces for the running numerators tile it, so they cover it. -/
theorem scover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What the last case leaves in the running numerators: its pieces read back. -/
def sout1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## What each case leaves, in closed form

Every store of the body is through the whole-buffer rectangle, and so is every load but the one of the rows of `h`: a
buffer stored once holds that store's payload, a buffer reset and then updated holds the update's, and a load of a
buffer after a store reads the payload stored. -/

/-- The zero offsets of a rank-2 rectangle are the constant zero function. -/
private theorem zeroOff2 : (![0, 0] : Fin 2 → Nat) = fun _ => 0 := funext fun a => by fin_cases a <;> rfl

/-- The first case leaves in the running maximum the new running maximum from the blocks and the maximum the case starts from (the reset values, which the case stores and reads back). -/
theorem sout1_A_0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    sout1_A_0 c i arg2 harg2 arg3 harg3 arg4 harg4 arg5 harg5 arg6 harg6 arg7 harg7 arg8 harg8 arg9 harg9 hc0 hc1 x0 x1 x2 x3 = stepM x0 x1 x2 (k1_pay4 (F := F)) := by
  unfold sout1_A_0
  rw [View.read_writes_junk_eq_canon]
  unfold kernelRun1_A
  dsimp only
  sl_unfold_words
  rw [View.canon_cons_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The first case leaves in the running denominator the new running denominator from the blocks, the maximum and the denominator the case starts from (the reset values, which the case stores and reads back). -/
theorem sout1_A_1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    sout1_A_1 c i arg2 harg2 arg3 harg3 arg4 harg4 arg5 harg5 arg6 harg6 arg7 harg7 arg8 harg8 arg9 harg9 hc0 hc1 x0 x1 x2 x3 = stepL x0 x1 x2 (k1_pay4 (F := F)) (k1_pay5 (F := F)) := by
  unfold sout1_A_1
  rw [View.read_writes_junk_eq_canon]
  unfold kernelRun1_A
  dsimp only
  sl_unfold_words
  rw [View.canon_cons_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The first case leaves in the running numerators the new running numerators from the blocks, the point's rows of `h`, the maximum and the numerators the case starts from (the reset values, which the case stores and reads back). -/
theorem sout1_A_2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    sout1_A_2 c i arg2 harg2 arg3 harg3 arg4 harg4 arg5 harg5 arg6 harg6 arg7 harg7 arg8 harg8 arg9 harg9 hc0 hc1 x0 x1 x2 x3 = stepA x0 x1 x2 (hrows i x3) (k1_pay4 (F := F)) (k1_pay6 (F := F)) := by
  unfold sout1_A_2
  rw [View.read_writes_junk_eq_canon]
  unfold kernelRun1_A
  dsimp only
  sl_unfold_words
  rw [View.canon_cons_unit_zero (S := S1024x256) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The middle case leaves in the running maximum the new running maximum from the blocks and the maximum the case starts from (what the point before left). -/
theorem sout1_B_0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_B_0 c i arg2 harg2 arg3 harg3 arg4 harg4 arg5 harg5 arg6 harg6 arg7 harg7 arg8 harg8 arg9 harg9 hc0 hc1 x0 x1 x2 x3 xs0 xs1 xs2 = stepM x0 x1 x2 xs0 := by
  unfold sout1_B_0
  rw [View.read_writes_junk_eq_canon]
  unfold kernelRun1_B
  dsimp only
  sl_unfold_words
  rw [View.canon_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The middle case leaves in the running denominator the new running denominator from the blocks, the maximum and the denominator the case starts from (what the point before left). -/
theorem sout1_B_1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_B_1 c i arg2 harg2 arg3 harg3 arg4 harg4 arg5 harg5 arg6 harg6 arg7 harg7 arg8 harg8 arg9 harg9 hc0 hc1 x0 x1 x2 x3 xs0 xs1 xs2 = stepL x0 x1 x2 xs0 xs1 := by
  unfold sout1_B_1
  rw [View.read_writes_junk_eq_canon]
  unfold kernelRun1_B
  dsimp only
  sl_unfold_words
  rw [View.canon_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The middle case leaves in the running numerators the new running numerators from the blocks, the point's rows of `h`, the maximum and the numerators the case starts from (what the point before left). -/
theorem sout1_B_2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_B_2 c i arg2 harg2 arg3 harg3 arg4 harg4 arg5 harg5 arg6 harg6 arg7 harg7 arg8 harg8 arg9 harg9 hc0 hc1 x0 x1 x2 x3 xs0 xs1 xs2 = stepA x0 x1 x2 (hrows i x3) xs0 xs2 := by
  unfold sout1_B_2
  rw [View.read_writes_junk_eq_canon]
  unfold kernelRun1_B
  dsimp only
  sl_unfold_words
  rw [View.canon_unit_zero (S := S1024x256) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The last case leaves in the running maximum the new running maximum from the blocks and the maximum the case starts from (what the point before left). -/
theorem sout1_C_0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_C_0 c i arg2 harg2 arg3 harg3 arg4 harg4 arg5 harg5 arg6 harg6 arg7 harg7 arg8 harg8 arg9 harg9 hc0 hc1 x0 x1 x2 x3 xs0 xs1 xs2 = stepM x0 x1 x2 xs0 := by
  unfold sout1_C_0
  rw [View.read_writes_junk_eq_canon]
  unfold kernelRun1_C
  dsimp only
  sl_unfold_words
  rw [View.canon_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The last case leaves in the running denominator the new running denominator from the blocks, the maximum and the denominator the case starts from (what the point before left). -/
theorem sout1_C_1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_C_1 c i arg2 harg2 arg3 harg3 arg4 harg4 arg5 harg5 arg6 harg6 arg7 harg7 arg8 harg8 arg9 harg9 hc0 hc1 x0 x1 x2 x3 xs0 xs1 xs2 = stepL x0 x1 x2 xs0 xs1 := by
  unfold sout1_C_1
  rw [View.read_writes_junk_eq_canon]
  unfold kernelRun1_C
  dsimp only
  sl_unfold_words
  rw [View.canon_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The last case leaves in the running numerators the new running numerators from the blocks, the point's rows of `h`, the maximum and the numerators the case starts from (what the point before left). -/
theorem sout1_C_2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_C_2 c i arg2 harg2 arg3 harg3 arg4 harg4 arg5 harg5 arg6 harg6 arg7 harg7 arg8 harg8 arg9 harg9 hc0 hc1 x0 x1 x2 x3 xs0 xs1 xs2 = stepA x0 x1 x2 (hrows i x3) xs0 xs2 := by
  unfold sout1_C_2
  rw [View.read_writes_junk_eq_canon]
  unfold kernelRun1_C
  dsimp only
  sl_unfold_words
  rw [View.canon_unit_zero (S := S1024x256) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The last case leaves in the output window's staging buffer the quotient of the numerators just stored by the denominator just stored, through the exponential linear unit. -/
theorem out1_C_4_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    out1_C_4 c i arg2 harg2 arg3 harg3 arg4 harg4 arg5 harg5 arg6 harg6 arg7 harg7 arg8 harg8 arg9 harg9 hc0 hc1 x0 x1 x2 x3 xs0 xs1 xs2 = k1_pay3 (stepA x0 x1 x2 (hrows i x3) xs0 xs2) (stepL x0 x1 x2 xs0 xs1) := by
  unfold out1_C_4
  rw [View.read_writes_junk_eq_canon]
  unfold kernelRun1_C
  dsimp only
  sl_unfold_words
  rw [View.canon_unit_zero (S := S1024x256) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-! ## The rest of the invariant -/

/-- Separating conjunction is associative, as an equation. -/
private theorem sep_assoc_eq {M : Type} [URA M] (P Q R : sProp M) : iprop((P ∗ Q) ∗ R) = iprop(P ∗ Q ∗ R) :=
  Idealize.SL.BI.Entails.antisymm Idealize.SL.BI.sep_assoc Idealize.SL.BI.sep_assoc'

/-- The core's scoped buffers that are neither a staging buffer of this region nor one of its three scratch buffers
    (the first region's staging buffers), each whole at some contents: the body never touches them. -/
def rest11 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region's invariant as the launch hands it over, with the three scratch buffers as memrefs owned at some contents. -/
theorem PhiA1_eq (c : Dev nD) :
    (Pipeline.ΦA spec1 c : sProp 𝕄)
      = iprop(rest11 (F := F) c ∗ (∃ d, owns (c : Thread nD τ) scM1_0 fullShare d) ∗ (∃ d, owns (c : Thread nD τ) scM1_1 fullShare d)
          ∗ (∃ d, owns (c : Thread nD τ) scM1_2 fullShare d) ∗ (∃ r, prngReg c r)) := by
  unfold Pipeline.ΦA; rw [scopedRest1_eq]; simp only [scM1_0, scM1_1, scM1_2, owns_whole]
  unfold rest11
  simp only [sep_assoc_eq]
  rfl

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the buffers hold after each point -/

/-- What a point of the first case leaves in the four buffers (output, maximum, denominator, numerators): the case's
    run at the point's memrefs and input blocks. -/
def pt1_A (c : Dev nD) (t : Fin cfg1.N) (h0 : t.val % 8 = 0) (h1 : ¬t.val % 8 = 7) : Vec F S1024x256 .f32 × Vec F S1024x1 .f32 × Vec F S1024x1 .f32 × Vec F S1024x256 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))

/-- What a point of the middle case leaves, over the scratch contents `p` the point before left. -/
def pt1_B (c : Dev nD) (t : Fin cfg1.N) (h0 : ¬t.val % 8 = 0) (h1 : ¬t.val % 8 = 7) (p : Vec F S1024x1 .f32 × Vec F S1024x1 .f32 × Vec F S1024x256 .f32) : Vec F S1024x256 .f32 × Vec F S1024x1 .f32 × Vec F S1024x1 .f32 × Vec F S1024x256 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2)

/-- What a point of the last case leaves, over the scratch contents `p` the point before left. -/
def pt1_C (c : Dev nD) (t : Fin cfg1.N) (h0 : ¬t.val % 8 = 0) (h1 : t.val % 8 = 7) (p : Vec F S1024x1 .f32 × Vec F S1024x1 .f32 × Vec F S1024x256 .f32) : Vec F S1024x256 .f32 × Vec F S1024x1 .f32 × Vec F S1024x1 .f32 × Vec F S1024x256 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2)

/-- What the output window's staging buffer and the three scratch buffers (maximum, denominator, numerators) hold
    after the body at position `n`: the case `n % 8` selects, run at the point's memrefs and input blocks, the scratch
    buffers it reads at what position `n - 1` left. No position is both first and last of its row block. -/
def outsAt1 (c : Dev nD) : (n : ℕ) → n < cfg1.N → Vec F S1024x256 .f32 × Vec F S1024x1 .f32 × Vec F S1024x1 .f32 × Vec F S1024x256 .f32
  | 0, hn => pt1_A V c ⟨0, hn⟩ (Nat.zero_mod 8) (show ¬(0 % 8 = 7) from by decide)
  | n + 1, hn =>
    if h0 : (n + 1) % 8 = 0 then
      if h1 : (n + 1) % 8 = 7 then False.elim (by omega)
      else pt1_A V c ⟨n + 1, hn⟩ h0 h1
    else
      if h1 : (n + 1) % 8 = 7 then pt1_C V c ⟨n + 1, hn⟩ h0 h1 (outsAt1 c n (Nat.lt_of_succ_lt hn)).2
      else pt1_B V c ⟨n + 1, hn⟩ h0 h1 (outsAt1 c n (Nat.lt_of_succ_lt hn)).2

/-- `outsAt1` at a point of the first case. -/
theorem outsAt1_A (c : Dev nD) (t : Fin cfg1.N) (h0 : t.val % 8 = 0) (h1 : ¬t.val % 8 = 7) :
    outsAt1 V c t.val t.isLt = pt1_A V c t h0 h1 := by
  obtain ⟨n, hn⟩ := t
  cases n with
  | zero => exact rfl
  | succ n => exact (dif_pos h0).trans ((dif_neg h1).trans rfl)

/-- `outsAt1` at a point of the middle case: over what the point before left. -/
theorem outsAt1_B (c : Dev nD) (t : Fin cfg1.N) (h0 : ¬t.val % 8 = 0) (h1 : ¬t.val % 8 = 7) :
    outsAt1 V c t.val t.isLt = pt1_B V c t h0 h1 (outsAt1 V c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_neg h1).trans rfl)

/-- `outsAt1` at a point of the last case: over what the point before left. -/
theorem outsAt1_C (c : Dev nD) (t : Fin cfg1.N) (h0 : ¬t.val % 8 = 0) (h1 : t.val % 8 = 7) :
    outsAt1 V c t.val t.isLt = pt1_C V c t h0 h1 (outsAt1 V c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_pos h1).trans rfl)

/-! ## The invariant -/

/-- The region's invariant before position `n`: before the first point what the launch hands over (every scratch
    buffer at anything); afterwards the untouched rest, each scratch buffer at what the point before left in it
    (`outsAt1`'s scratch components), and the generator register at some state. -/
def PhiS1 (c : Dev nD) : (n : ℕ) → n ≤ cfg1.N → sProp 𝕄
  | 0, _ => Pipeline.ΦA spec1 c
  | n + 1, hn => iprop(rest11 (F := F) c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(rest11 (F := F) c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(rest11 (F := F) c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  cases n with
  | zero => exact absurd rfl hz
  | succ n => rfl

/-! ## The pipeline's proof data -/

/-- The proof data of the attention pipeline on core `c`: the arrays as the region finds them; after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- An input window's current staging buffer holds its block at every point, whether the pipeline fetched it
    there or the block index has not moved since it did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The three value equations -/

/-- AT THE FIRST POINT OF A ROW BLOCK the three scratch buffers are one update from the reset values. -/
theorem outsAt1_first (c : Dev nD) (t : Fin cfg1.N) (h : t.val % 8 = 0) :
    (outsAt1 V c t.val t.isLt).2 =
      (stepM (iblk1 V c 0 t) (iblk1 V c 1 t) (iblk1 V c 2 t) (k1_pay4 (F := F)),
       stepL (iblk1 V c 0 t) (iblk1 V c 1 t) (iblk1 V c 2 t) (k1_pay4 (F := F)) (k1_pay5 (F := F)),
       stepA (iblk1 V c 0 t) (iblk1 V c 1 t) (iblk1 V c 2 t) (hrows (grid1.coords t) (iblk1 V c 3 t)) (k1_pay4 (F := F)) (k1_pay6 (F := F))) := by
  have h0 : t.val % 8 = 0 := h
  have h1 : ¬t.val % 8 = 7 := by omega
  rw [outsAt1_A V c t h0 h1]
  unfold pt1_A; dsimp only
  rw [sout1_A_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
    sout1_A_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
    sout1_A_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)]

/-- AT A LATER POINT they are one update from what the point before left. -/
theorem outsAt1_next (c : Dev nD) (t : Fin cfg1.N) (h : t.val % 8 ≠ 0) :
    (outsAt1 V c t.val t.isLt).2 =
      (stepM (iblk1 V c 0 t) (iblk1 V c 1 t) (iblk1 V c 2 t) (outsAt1 V c (t.val - 1) (Nat.lt_of_le_of_lt (Nat.sub_le _ _) t.isLt)).2.1,
       stepL (iblk1 V c 0 t) (iblk1 V c 1 t) (iblk1 V c 2 t) (outsAt1 V c (t.val - 1) (Nat.lt_of_le_of_lt (Nat.sub_le _ _) t.isLt)).2.1
         (outsAt1 V c (t.val - 1) (Nat.lt_of_le_of_lt (Nat.sub_le _ _) t.isLt)).2.2.1,
       stepA (iblk1 V c 0 t) (iblk1 V c 1 t) (iblk1 V c 2 t) (hrows (grid1.coords t) (iblk1 V c 3 t))
         (outsAt1 V c (t.val - 1) (Nat.lt_of_le_of_lt (Nat.sub_le _ _) t.isLt)).2.1
         (outsAt1 V c (t.val - 1) (Nat.lt_of_le_of_lt (Nat.sub_le _ _) t.isLt)).2.2.2) := by
  have h0 : ¬t.val % 8 = 0 := h
  by_cases h1 : t.val % 8 = 7
  · rw [outsAt1_C V c t h0 h1]
    unfold pt1_C; dsimp only
    rw [sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  · rw [outsAt1_B V c t h0 h1]
    unfold pt1_B; dsimp only
    rw [sout1_B_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

/-- AT THE LAST POINT OF A ROW BLOCK the output window receives the quotient of the numerators by the denominator,
    through the exponential linear unit. -/
theorem outsAt1_last (c : Dev nD) (t : Fin cfg1.N) (h : t.val % 8 = 7) :
    (outsAt1 V c t.val t.isLt).1 = k1_pay3 (outsAt1 V c t.val t.isLt).2.2.2 (outsAt1 V c t.val t.isLt).2.2.1 := by
  have h1 : t.val % 8 = 7 := h
  have h0 : ¬t.val % 8 = 0 := by omega
  rw [outsAt1_C V c t h0 h1]
  unfold pt1_C; dsimp only
  rw [out1_C_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

/-! ## The body obligation, at a generic point -/

/-- What the body is called with at point `t`: the invariant, what is owed, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; `t % 8` says which case the point is in, and that
    case's run applies: the invariant hands it the three scratch buffers (at anything before the first point, where the
    case resets them; else at what the point before left), the run's pieces cover each of them, so the invariant takes
    them back at this point's contents. The output window's buffer is stored whole in the last case and handed back
    untouched in the others, where the window is idle and not written back. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold pt1_A sout1_A_0 sout1_A_1 sout1_A_2; dsimp only
    by_cases hz : t.val = 0
    · rw [PhiS1_castSucc V c t, PhiS1_zero V c _ _ hz, PhiA1_eq]
      iintro ⟨⟨HR, HS0, HS1, HS2, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        isplitl [HS1]
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        isplitl [HS2]
        · unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        isplitl [HS1]
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        isplitl [HS2]
        · unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold pt1_C out1_C_4 sout1_C_0 sout1_C_1 sout1_C_2; dsimp only
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        isplitl [HS1]
        · unfold owns; iexists _; isplitr
          swap; · iexact HS1
          ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        isplitl [HS2]
        · unfold owns; iexists _; isplitr
          swap; · iexact HS2
          ipureintro; exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold pt1_B sout1_B_0 sout1_B_1 sout1_B_2; dsimp only
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        isplitl [HS1]
        · unfold owns; iexists _; isplitr
          swap; · iexact HS1
          ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        isplitl [HS2]
        · unfold owns; iexists _; isplitr
          swap; · iexact HS2
          ipureintro; exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        iexact Hg
      isplitl [Ho]; · iexact Ho
      isplitl [H0]; · iexact H0
      isplitl [H1]; · iexact H1
      isplitl [H2]; · iexact H2
      isplitl [H3]; · iexact H3
      iexists _; iexact H4

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point, -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- and after any point but the first the invariant gives it back: the scratch buffers' named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

theorem hout1 (c : Dev nD) : (dat1 (F := F) V c).Φ (Fin.last cfg1.N) ⊢ Pipeline.ΦA spec1 c :=
  Phi_out1 V c _ (by rw [Fin.val_last]; have : cfg1.N = 64 := N_1; omega)

/-- Nothing is owed, the shares are full, and no bound is put on the recorded pairs. -/
theorem owed1 (c : Dev nD) (t) (x) : (dat1 (F := F) V c).owed t x = 0 := rfl
theorem q1 (c : Dev nD) (w : Fin cfg1.W) : (dat1 (F := F) V c).q w = fullShare := rfl
theorem rec1 (c : Dev nD) (t) : (dat1 (F := F) V c).recorded t = Set.univ := by
  dsimp only [dat1]

end Region1

end Cert.Kernel.Hand

end
-- ==== Proof.K.Run.lean ====
/-
  The whole run of the program: @main as four segments (a stretch of host operations, the projection region, another
  stretch, the attention region), the contents of the TensorCore's buffers at each boundary as a fold from the launch
  memory, and the launch. Every weakly fair execution terminates, and in the final memory every unscoped buffer holds
  the last boundary's contents: the arguments what they held at launch (no host operation and no region writes one),
  the result what the attention pipeline's write-backs leave.
-/
import proofs.«410119_j22316650070323_3_alg».proof.Proof.Gen.Kernel.Launch
import proofs.«410119_j22316650070323_3_alg».proof.Proof.Gen.Kernel.Skeleton
import proofs.«410119_j22316650070323_3_alg».proof.Proof.Gen.Kernel.Points
import proofs.«410119_j22316650070323_3_alg».proof.Proof.K.Proj
import proofs.«410119_j22316650070323_3_alg».proof.Proof.K.Attn
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch, -/
abbrev W0 : Dev nD → Valuation τ sig (Elt F) := fun c b => (s₀ m ρ).mem ((c : Dev nD), b)
/-- after the first host stretch (the two transposes of `a1`, `a2`): the projection region's entry, -/
abbrev W1 : Dev nD → Valuation τ sig (Elt F) := fun c => StableHlo.after hostOps0 (W0 m ρ c)
abbrev B1 : (c : Dev nD) → (b : Ref sig .tc) → Buf (Elt F) ((c : Thread nD τ).loc b) := fun c b => W1 m ρ c b
/-- at the projection region's exit: its arrays at what the pipeline leaves, every other buffer as entered, -/
def W2 (c : Dev nD) : Valuation τ sig (Elt F) :=
  Pipeline.withArrays spec0 c (W1 m ρ c) fun w => (dat0 (B1 m ρ) c).arrAt w cfg0.N
abbrev B2 : (c : Dev nD) → (b : Ref sig .tc) → Buf (Elt F) ((c : Thread nD τ).loc b) := fun c b => W2 m ρ c b
/-- after the second host stretch (the transpose of `f2`): the attention region's entry, -/
abbrev W3 : Dev nD → Valuation τ sig (Elt F) := fun c => StableHlo.after hostOps1 (W2 m ρ c)
abbrev B3 : (c : Dev nD) → (b : Ref sig .tc) → Buf (Elt F) ((c : Thread nD τ).loc b) := fun c b => W3 m ρ c b
/-- and at the attention region's exit. -/
def W4 (c : Dev nD) : Valuation τ sig (Elt F) :=
  Pipeline.withArrays spec1 c (W3 m ρ c) fun w => (dat1 (B3 m ρ) c).arrAt w cfg1.N
abbrev B4 : (c : Dev nD) → (b : Ref sig .tc) → Buf (Elt F) ((c : Thread nD τ).loc b) := fun c b => W4 m ρ c b

theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-! ## What the host stretches write -/

/-- The first stretch writes the two transposed rows and nothing else, -/
theorem host0_writes : (hostOps0 : List (HloOp τ sig (Elt F))).Forall fun op =>
    op.writes ⊆ (([main_v0, main_v1] : List (Ref sig .tc)).map (Proc.devRef (τ := τ) .tc)).toFinset := by
  simp only [List.Forall]
  exact ⟨by simp only [StableHlo.unary_writes, Finset.singleton_subset_iff, List.mem_toFinset]; exact List.mem_map_of_mem (by decide),
    by simp only [StableHlo.unary_writes, Finset.singleton_subset_iff, List.mem_toFinset]; exact List.mem_map_of_mem (by decide)⟩
/-- the second the transposed column. -/
theorem host1_writes : (hostOps1 : List (HloOp τ sig (Elt F))).Forall fun op =>
    op.writes ⊆ (([main_v3] : List (Ref sig .tc)).map (Proc.devRef (τ := τ) .tc)).toFinset := by
  simp only [List.Forall]
  exact (by simp only [StableHlo.unary_writes, Finset.singleton_subset_iff, List.mem_toFinset]; exact List.mem_map_of_mem (by decide))

/-- A buffer the first stretch does not write holds after it what it held at launch, -/
theorem W1_of (c : Dev nD) (r : Ref sig .tc) (h : r ∉ ([main_v0, main_v1] : List (Ref sig .tc))) :
    W1 m ρ c (Proc.devRef .tc r) = m ((c : Thread nD τ).loc r) :=
  (StableHlo.after_of_writes_sub hostOps0 _ host0_writes h).trans rfl
/-- and one the second does not write what the projection region left. -/
theorem W3_of (c : Dev nD) (r : Ref sig .tc) (h : r ∉ ([main_v3] : List (Ref sig .tc))) :
    W3 m ρ c (Proc.devRef .tc r) = W2 m ρ c (Proc.devRef .tc r) :=
  StableHlo.after_of_writes_sub hostOps1 _ host1_writes h

/-! ## What the regions are entered with, read back to the launch memory -/

/-- The projection region finds `x` and `W` as launched and the two transposed rows. -/
theorem B1_arg0 (c : Dev nD) : B1 m ρ c main_arg0 = m ((c : Thread nD τ).loc main_arg0) := W1_of m ρ c main_arg0 (by decide)
theorem B1_arg2 (c : Dev nD) : B1 m ρ c main_arg2 = m ((c : Thread nD τ).loc main_arg2) := W1_of m ρ c main_arg2 (by decide)
theorem B1_v0 (c : Dev nD) : B1 m ρ c main_v0 = transpose S1x256 [1, 0] (m ((c : Thread nD τ).loc main_arg3)) transposes_S256x1_S1x256_1_0 := by
  show StableHlo.after hostOps0 (W0 m ρ c) (Proc.devRef .tc main_v0) = _
  after_results
theorem B1_v1 (c : Dev nD) : B1 m ρ c main_v1 = transpose S1x256 [1, 0] (m ((c : Thread nD τ).loc main_arg4)) transposes_S256x1_S1x256_1_0 := by
  show StableHlo.after hostOps0 (W0 m ρ c) (Proc.devRef .tc main_v1) = _
  after_results
/-- The attention region finds the adjacency as launched, the projection's three results, the third transposed. -/
theorem B3_arg1 (c : Dev nD) : B3 m ρ c main_arg1 = m ((c : Thread nD τ).loc main_arg1) :=
  (W3_of m ρ c main_arg1 (by decide)).trans <| (W2_of_ne m ρ c main_arg1 (by decide)).trans <| W1_of m ρ c main_arg1 (by decide)
theorem B3_v2_0 (c : Dev nD) : B3 m ρ c main_v2_0 = (dat0 (B1 m ρ) c).arrAt 4 cfg0.N :=
  (W3_of m ρ c main_v2_0 (by decide)).trans (W2_arr m ρ c 4)
theorem B3_v2_1 (c : Dev nD) : B3 m ρ c main_v2_1 = (dat0 (B1 m ρ) c).arrAt 5 cfg0.N :=
  (W3_of m ρ c main_v2_1 (by decide)).trans (W2_arr m ρ c 5)
theorem B3_v3 (c : Dev nD) : B3 m ρ c main_v3 = transpose S1x8192 [1, 0] ((dat0 (B1 m ρ) c).arrAt 6 cfg0.N) transposes_S8192x1_S1x8192_1_0 := by
  show StableHlo.after hostOps1 (W2 m ρ c) (Proc.devRef .tc main_v3) = _
  after_results
  rw [show W2 m ρ c (Proc.devRef .tc main_v2_2) = (dat0 (B1 m ρ) c).arrAt 6 cfg0.N from W2_arr m ρ c 6]

/-- The arguments end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (B1 m ρ) c).arrAt_in 0 rfl _).trans (A_eq0 (B1 m ρ) c 0))
    _ = m ((c : Thread nD τ).loc main_arg0) := W1_of m ρ c main_arg0 (by decide)
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (B3 m ρ) c).arrAt_in 2 rfl _).trans (A_eq1 (B3 m ρ) c 2))
    _ = m ((c : Thread nD τ).loc main_arg1) := B3_arg1 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (B1 m ρ) c).arrAt_in 1 rfl _).trans (A_eq0 (B1 m ρ) c 1))
    _ = m ((c : Thread nD τ).loc main_arg2) := W1_of m ρ c main_arg2 (by decide)
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = m ((c : Thread nD τ).loc main_arg3) := W1_of m ρ c main_arg3 (by decide)
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = m ((c : Thread nD τ).loc main_arg4) := W1_of m ρ c main_arg4 (by decide)
/-- The result ends at what the attention pipeline's write-backs leave. -/
theorem W4_main_v4 (c : Dev nD) : W4 m ρ c (Proc.devRef .tc main_v4) = (dat1 (B3 m ρ) c).arrAt 4 cfg1.N := W4_arr m ρ c 4

/-! ## The launch

### The proof data of the two pipelines and what rides beside the buffers -/

/-- At each region's exit each of its arrays holds what the pipeline leaves and every other buffer what it held at entry. -/
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)

/-- No pipeline has a prefetched table. -/
abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core carries its generator register, at some state, and owes nothing. -/
abbrev R (c : Dev nD) : sProp 𝕄 := iprop((∃ r, prngReg c r) ∗ ∃ W, owes (c : Thread nD τ) (0 : CellTallies nD τ sig Unit) W)
/-- A host stretch from the contents `W`: the unscoped buffers go to the stretch's fold of `W`, the rest rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem host0_fresh : (hostOps0 : List (HloOp τ sig (Elt F))).Forall fun op => op.fresh = ∅ := by
  simp only [List.Forall]; repeat' constructor
theorem host1_fresh : (hostOps1 : List (HloOp τ sig (Elt F))).Forall fun op => op.fresh = ∅ := by
  simp only [List.Forall]; repeat' constructor
/-- An unscoped reference of the TensorCore is among those a core holds between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state but for what the core owes: every unscoped buffer at the last boundary's contents, the generator register. -/
abbrev Tₙ (c : Dev nD) : sProp 𝕄 := iprop(StableHlo.held (c : Thread nD τ) (Pipeline.ucRefs τ sig) (W4 m ρ c) ∗ ∃ r, prngReg c r)

/-! ### The regions as segments -/

set_option backward.isDefEq.respectTransparency.types false in
/-- THE PROJECTION REGION: entered with every unscoped buffer at `W1`, left with them at `W2`. Its arrays are split out of the
    unscoped buffers and put back at the exit contents; the generator register goes into the invariant and comes back;
    nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention pipeline's proof data owe nothing at any point. -/
theorem owed_pd1 (c : Dev nD) (t) : (pdats m ρ 1 c).owed t = 0 := funext fun x => owed1 (B3 m ρ) c t x

set_option backward.isDefEq.respectTransparency.types false in
/-- THE ATTENTION REGION: entered with every unscoped buffer at `W3`, left with them at `W4`, the last boundary. Its arrays
    are split out of the unscoped buffers and put back at the exit contents; the generator register and the scoped
    buffers no window stages make the invariant before the first point, and the invariant after the last point gives
    them back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ L lv 1 fun c t => owed_pd1 m ρ c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full (q1 (B3 m ρ) c)) (B3 m ρ c) (A_eq1 (B3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_pd1 m ρ c]
      icases HO with ⟨%W, HO⟩; iexists W; isplitr
      · ipureintro; exact fun x _ => Or.inl ((Set.eq_univ_iff_forall.mp (rec1 (B3 m ρ) c 0)) x)
      iexact HO
    isplitl [Hp]; · iexact Hp
    iexact Hrest
  hin c := by
    refine .trans ?_ (hin1 (B3 m ρ) c)
    unfold Pipeline.ΦA
    iintro ⟨Hp, -, Hr⟩
    isplitl [Hr]; · iexact Hr
    iexact Hp
  hout c := by
    rw [Pipeline.ownSems0_none]
    refine (hout1 (B3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full (q1 (B3 m ρ) c))
      (B3 m ρ c) (B4 m ρ c) ((pdats m ρ 1 c).arrAt · cfg1.N) (hF1 m ρ c) (hrest1 m ρ c)
    rw [Pipeline.unscopedBufs_held] at hjoin
    unfold Pipeline.Dat.owesAt Pipeline.owesWithin
    rw [owed_pd1 m ρ c]
    iintro ⟨Ha, HO, HY, Hrest⟩
    imodintro
    isplitl [Ha Hrest HY]
    · isplitl [Ha Hrest]
      · iapply hjoin; isplitl [Ha] <;> iassumption
      iexact HY
    icases HO with ⟨%W, -, HO⟩; iexists W; iexact HO

/-! ### @main as segments -/

/-- @main's four segments in order: the two transposes, the projection region, the third transpose, the attention region. -/
abbrev segs : List (Pipeline.Seg (pcfgs (F := F)) adm (pdats m ρ) () defs₀ 𝒱₀ L lv) :=
  [ .host (hseg hostOps0 hostOps0_sub host0_fresh (W0 m ρ)),
    .region (reg0 m ρ),
    .host (hseg hostOps1 hostOps1_sub host1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and the
    final memory has the result buffer at the attention pipeline's final array and each argument as launched. -/
theorem run_main : θ_run defs (onTc (τ := τ) (main (F := F))) ⟨m, fun _ => 0, ρ⟩ (fun r => ∀ c : Dev nD,
      r.2.mem ((c.tc : Thread nD τ).loc main_v4) = (dat1 (B3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_main_v4 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Kernel.Hand

end
-- ==== Proof.KI.Proj.lean ====
/-
  The projection region (the first of the program's two kernel regions), at the contents `V` the region finds
  in the TensorCore's buffers.

  At grid point `t` the body reads a 1024 × 512 block `x` of the input, the whole 512 × 256 weight `W` and the two
  1 × 256 rows `a1ᵀ`, `a2ᵀ`, and stores three things, each over its whole staging buffer: the product `x W`
  (narrowed to the half-width format), and the two row sums `∑ c, (x W) r c * a1ᵀ c` and `∑ c, (x W) r c * a2ᵀ c`.
  Nothing is kept between points. The module states what each window's staging buffer holds after the body
  (the inputs their blocks, the outputs those three payloads of the input blocks), proves the body's triple, and
  from it the obligation the pipeline asks at every point.
-/
import proofs.«410119_j22316650070323_3_alg».proof.Proof.Gen.KernelIdeal.Launch
import proofs.«410119_j22316650070323_3_alg».proof.Proof.Gen.KernelIdeal.Skeleton
import proofs.«410119_j22316650070323_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or the block index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each the whole of its buffer. -/
abbrev rX : Rect S1024x512 := Rect.unit (s := S1024x512) ![0, 0] S1024x512.size inb_S1024x512_S1024x512_0_0
abbrev rW : Rect S512x256 := Rect.unit (s := S512x256) ![0, 0] S512x256.size inb_S512x256_S512x256_0_0
abbrev rA : Rect S1x256 := Rect.unit (s := S1x256) ![0, 0] S1x256.size inb_S1x256_S1x256_0_0
abbrev rH : Rect S1024x256 := Rect.unit (s := S1024x256) ![0, 0] S1024x256.size inb_S1024x256_S1024x256_0_0
abbrev rF : Rect S1024x1 := Rect.unit (s := S1024x1) ![0, 0] S1024x1.size inb_S1024x1_S1024x1_0_0

/-- What the body leaves in the three output windows' staging buffers, from the input blocks: one store each. -/
def outH (x0 : Vec F S1024x512 .f32) (x1 : Vec F S512x256 .f32) : Vec F S1024x256 .bf16 :=
  View.canon [⟨rH, k0_pay2 (View.ld x0 rX) (View.ld x1 rW)⟩]
def outF1 (x0 : Vec F S1024x512 .f32) (x1 : Vec F S512x256 .f32) (x2 : Vec F S1x256 .f32) : Vec F S1024x1 .f32 :=
  View.canon [⟨rF, k0_pay3 (View.ld x0 rX) (View.ld x1 rW) (View.ld x2 rA)⟩]
def outF2 (x0 : Vec F S1024x512 .f32) (x1 : Vec F S512x256 .f32) (x3 : Vec F S1x256 .f32) : Vec F S1024x1 .f32 :=
  View.canon [⟨rF, k0_pay4 (View.ld x0 rX) (View.ld x1 rW) (View.ld x3 rA)⟩]

/-- Each store covers its buffer. -/
theorem coverH (p0 : Vec F S1024x256 .bf16) (y : S1024x256.Idx) :
    ∃ pc ∈ ([⟨rH, p0⟩] : List (View.Piece (Elt F) S1024x256 .bf16)), y ∈ pc.1.set :=
  View.cover_of_tiled [⟨rH, p0⟩] S1024x256.size (by rfl) y
theorem coverF (p0 : Vec F S1024x1 .f32) (y : S1024x1.Idx) :
    ∃ pc ∈ ([⟨rF, p0⟩] : List (View.Piece (Elt F) S1024x1 .f32)), y ∈ pc.1.set :=
  View.cover_of_tiled [⟨rF, p0⟩] S1024x1.size (by rfl) y

/-- The zero offsets of a rank-2 rectangle are the constant zero function. -/
theorem zero_off2 : (![0, 0] : Fin 2 → Nat) = fun _ => 0 := funext fun a => by fin_cases a <;> rfl

/-- The stores being whole, the buffers hold the payloads themselves, of the blocks themselves. -/
theorem outH_eq (x0 : Vec F S1024x512 .f32) (x1 : Vec F S512x256 .f32) : outH x0 x1 = k0_pay2 x0 x1 := by
  unfold outH
  rw [View.canon_unit_zero (S := S1024x256) zero_off2]
  simp only [View.ld_unit_zero (S := S1024x512) zero_off2, View.ld_unit_zero (S := S512x256) zero_off2]
theorem outF1_eq (x0 : Vec F S1024x512 .f32) (x1 : Vec F S512x256 .f32) (x2 : Vec F S1x256 .f32) : outF1 x0 x1 x2 = k0_pay3 x0 x1 x2 := by
  unfold outF1
  rw [View.canon_unit_zero (S := S1024x1) zero_off2]
  simp only [View.ld_unit_zero (S := S1024x512) zero_off2, View.ld_unit_zero (S := S512x256) zero_off2,
    View.ld_unit_zero (S := S1x256) zero_off2]
theorem outF2_eq (x0 : Vec F S1024x512 .f32) (x1 : Vec F S512x256 .f32) (x3 : Vec F S1x256 .f32) : outF2 x0 x1 x3 = k0_pay4 x0 x1 x3 := by
  unfold outF2
  rw [View.canon_unit_zero (S := S1024x1) zero_off2]
  simp only [View.ld_unit_zero (S := S1024x512) zero_off2, View.ld_unit_zero (S := S512x256) zero_off2,
    View.ld_unit_zero (S := S1x256) zero_off2]

set_option maxHeartbeats 1000000 in
/-- The body on whole staging memrefs, the inputs' at read contents and the outputs' at anything, runs to the
    continuation holding the inputs' as they were and each output's at its payload. -/
theorem sound_kernel0 (c : Dev nD) (E : Set ℕ) (i : grid0.Coords) (arg1 : Memref sig .tc .vmem S1024x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outH x0 x1) ∗ owns (c : Thread nD τ) arg6 fullShare (outF1 x0 x1 x2) ∗ owns (c : Thread nD τ) arg7 fullShare (outF2 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverH _)
  isplitl [H5]
  · iexists _; isplitr
    swap; · iexact H5
    ipureintro
    exact View.read_writes_eq_canon _ _ _ (coverF _)
  iexists _; isplitr
  swap; · iexact H6
  ipureintro
  exact View.read_writes_eq_canon _ _ _ (coverF _)

/-- The proof data of the projection pipeline on core `c`: the arrays as the region finds them; after the body at
    point `t` each input's buffer at its block and each output's at its payload of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outH (iblk0 V c 0 t) (iblk0 V c 1 t)
    | ⟨5, _⟩ => outF1 (iblk0 V c 0 t) (iblk0 V c 1 t) (iblk0 V c 2 t)
    | ⟨6, _⟩ => outF2 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outH (iblk0 V c 0 t) (iblk0 V c 1 t) := by dsimp only [dat0]
theorem after0_5 (c : Dev nD) (t : Fin cfg0.N) : (dat0 V c).after 5 t = outF1 (iblk0 V c 0 t) (iblk0 V c 1 t) (iblk0 V c 2 t) := by dsimp only [dat0]
theorem after0_6 (c : Dev nD) (t : Fin cfg0.N) : (dat0 V c).after 6 t = outF2 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`: the invariant, what is owed, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.AttnRun.lean ====
/-
  The attention region's kernel body, run once per control case.

  The body branches twice on the second grid coordinate `k`: at `k = 0` it first resets its three scratch buffers (the
  running maximum to `-∞`, the running denominator and numerators to `0`); at `k = 7` it finally divides the
  numerators by the denominator, applies the exponential linear unit and stores the result into the output window.
  In between, at every point, it updates the three scratch buffers from the point's blocks. So a grid point is in
  one of three cases: FIRST (`k = 0`), MIDDLE (`0 < k < 7`), LAST (`k = 7`). This module states the two conditions,
  decides them over the grid, says where the output window is idle, and runs the body in each case on whole
  staging memrefs: what each scratch buffer (and, in the last case, the output buffer) is left holding is a list of
  stored pieces.
-/
import proofs.«410119_j22316650070323_3_alg».proof.Proof.Gen.KernelIdeal.Launch
import proofs.«410119_j22316650070323_3_alg».proof.Proof.Gen.KernelIdeal.Skeleton
import proofs.«410119_j22316650070323_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The body's first `if`: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body's second `if`: the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails the body stores nothing into the output window, and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the pipeline passes -/

abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three scratch operands: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

/-! ## The body's run, case by case -/

set_option maxHeartbeats 4000000 in
/-- FIRST (`k = 0`): the scratch buffers may hold anything (the reset stores cover them before anything reads them);
    the output window is idle, its buffer handed back untouched. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- MIDDLE (`0 < k < 7`): the scratch buffers hold what the point before left (`xs·`); the output window is idle. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- LAST (`k = 7`): the scratch buffers hold what the point before left; the output buffer, at anything, is stored whole. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Attn.lean ====
/-
  The attention region (the second kernel region), at the contents `V` the region finds in the TensorCore's buffers.

  The grid is 8 × 8: point `t` is row block `t / 8` against column block `k = t % 8`. Across the eight points of a
  row block the body carries three scratch buffers: the running row maximum `m`, the running denominator `l` and
  the running numerators `acc` of a softmax taken one column block at a time. `stepM`, `stepL`, `stepA` are one
  point's update of the three as pure functions of the point's blocks and the scratch contents it starts from; at
  `k = 0` it starts from the reset values, at `k > 0` from what the point before left; at `k = 7` the output window
  receives `acc / l` through the exponential linear unit. `outsAt1` is what the output window's staging buffer and
  the three scratch buffers hold after each point, by recursion on the point; the proof data, the body's
  obligation to the pipeline and the invariant's two ends follow.
-/
import proofs.«410119_j22316650070323_3_alg».proof.Proof.Gen.KernelIdeal.Launch
import proofs.«410119_j22316650070323_3_alg».proof.Proof.Gen.KernelIdeal.Skeleton
import proofs.«410119_j22316650070323_3_alg».proof.Proof.Gen.KernelIdeal.Points
import proofs.«410119_j22316650070323_3_alg».proof.Proof.KI.AttnRun
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point's update, as pure functions -/

/-- The rows of the resident (whole) array of `h` the body reads at a grid point: those of the point's column block. -/
def hrows (i : grid1.Coords) (x3 : Vec F S8192x256 .bf16) : Vec F S1024x256 .bf16 :=
  View.ld x3 (Rect.unit (s := S8192x256) (k1_off1 i) S1024x256.size (k1_off1_inb i))

/-- The new running maximum, denominator and numerators from the point's blocks (`f1` rows, `f2` columns, adjacency
    block, rows of `h`) and the old ones. -/
def stepM (b0 : Vec F S1024x1 .f32) (b1 : Vec F S1x1024 .f32) (b2 : Vec F S1024x1024 .i32) (ms : Vec F S1024x1 .f32) : Vec F S1024x1 .f32 :=
  k1_pay2 (k1_pay8 b0 b1 b2 ms)
def stepL (b0 : Vec F S1024x1 .f32) (b1 : Vec F S1x1024 .f32) (b2 : Vec F S1024x1024 .i32) (ms ls : Vec F S1024x1 .f32) : Vec F S1024x1 .f32 :=
  k1_pay11 b0 b1 b2 ms ms ls
def stepA (b0 : Vec F S1024x1 .f32) (b1 : Vec F S1x1024 .f32) (b2 : Vec F S1024x1024 .i32) (hb : Vec F S1024x256 .bf16)
    (ms : Vec F S1024x1 .f32) (acs : Vec F S1024x256 .f32) : Vec F S1024x256 .f32 :=
  k1_pay1 (k1_pay9 b0 b1 b2 ms ms) (k1_pay10 b0 b1 b2 ms) hb acs

/-! ## What each case leaves

In each of the three cases the run leaves every buffer it stores into as a list of stored pieces. A buffer's contents
after the case are those pieces read back; where the pieces cover the buffer (every scratch buffer in every case, the
output buffer in the last case) they do not depend on what the buffer held before or on which buffer it is. -/

/-- One staging buffer of the output window and the three scratch buffers, as views through which contents are stated. -/
abbrev VO1_4 : View sig .tc .vmem S1024x256 .f32 := (Memref.whole cc1_stg4_0 : Memref sig .tc .vmem S1024x256 .f32).view
abbrev VS1_0 : View sig .tc .vmem S1024x1 .f32 := scM1_0.view
abbrev VS1_1 : View sig .tc .vmem S1024x1 .f32 := scM1_1.view
abbrev VS1_2 : View sig .tc .vmem S1024x256 .f32 := scM1_2.view

/-- What the first case leaves in the output window's staging buffer: its pieces read back (none: the window is idle there, and nothing consults this). -/
def out1_A_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) : Vec F S1024x256 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- The first case's pieces for the running maximum tile it, so they cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What the first case leaves in the running maximum: its pieces read back. -/
def sout1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- The first case's pieces for the running denominator tile it, so they cover it. -/
theorem scover1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What the first case leaves in the running denominator: its pieces read back. -/
def sout1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- The first case's pieces for the running numerators tile it, so they cover it. -/
theorem scover1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) (y : S1024x256.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x256.size (by sl_kernel_rfl) y

/-- What the first case leaves in the running numerators: its pieces read back. -/
def sout1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) : Vec F S1024x256 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- What the middle case leaves in the output window's staging buffer: its pieces read back (none: the window is idle there, and nothing consults this). -/
def out1_B_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x256 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- The middle case's pieces for the running maximum tile it, so they cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the middle case leaves in the running maximum: its pieces read back. -/
def sout1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- The middle case's pieces for the running denominator tile it, so they cover it. -/
theorem scover1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the middle case leaves in the running denominator: its pieces read back. -/
def sout1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- The middle case's pieces for the running numerators tile it, so they cover it. -/
theorem scover1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What the middle case leaves in the running numerators: its pieces read back. -/
def sout1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- The last case's pieces for the output window's staging buffer tile it, so they cover it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x256.size (by sl_kernel_rfl) y

/-- What the last case leaves in the output window's staging buffer: its pieces read back. -/
def out1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x256 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- The last case's pieces for the running maximum tile it, so they cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the last case leaves in the running maximum: its pieces read back. -/
def sout1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- The last case's pieces for the running denominator tile it, so they cover it. -/
theorem scover1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the last case leaves in the running denominator: its pieces read back. -/
def sout1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- The last case's pieces for the running numerators tile it, so they cover it. -/
theorem scover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

/-- What the last case leaves in the running numerators: its pieces read back. -/
def sout1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## What each case leaves, in closed form

Every store of the body is through the whole-buffer rectangle, and so is every load but the one of the rows of `h`: a
buffer stored once holds that store's payload, a buffer reset and then updated holds the update's, and a load of a
buffer after a store reads the payload stored. -/

/-- The zero offsets of a rank-2 rectangle are the constant zero function. -/
private theorem zeroOff2 : (![0, 0] : Fin 2 → Nat) = fun _ => 0 := funext fun a => by fin_cases a <;> rfl

/-- The first case leaves in the running maximum the new running maximum from the blocks and the maximum the case starts from (the reset values, which the case stores and reads back). -/
theorem sout1_A_0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    sout1_A_0 c i arg2 harg2 arg3 harg3 arg4 harg4 arg5 harg5 arg6 harg6 arg7 harg7 arg8 harg8 arg9 harg9 hc0 hc1 x0 x1 x2 x3 = stepM x0 x1 x2 (k1_pay4 (F := F)) := by
  unfold sout1_A_0
  rw [View.read_writes_junk_eq_canon]
  unfold kernelRun1_A
  dsimp only
  sl_unfold_words
  rw [View.canon_cons_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The first case leaves in the running denominator the new running denominator from the blocks, the maximum and the denominator the case starts from (the reset values, which the case stores and reads back). -/
theorem sout1_A_1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    sout1_A_1 c i arg2 harg2 arg3 harg3 arg4 harg4 arg5 harg5 arg6 harg6 arg7 harg7 arg8 harg8 arg9 harg9 hc0 hc1 x0 x1 x2 x3 = stepL x0 x1 x2 (k1_pay4 (F := F)) (k1_pay5 (F := F)) := by
  unfold sout1_A_1
  rw [View.read_writes_junk_eq_canon]
  unfold kernelRun1_A
  dsimp only
  sl_unfold_words
  rw [View.canon_cons_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The first case leaves in the running numerators the new running numerators from the blocks, the point's rows of `h`, the maximum and the numerators the case starts from (the reset values, which the case stores and reads back). -/
theorem sout1_A_2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    sout1_A_2 c i arg2 harg2 arg3 harg3 arg4 harg4 arg5 harg5 arg6 harg6 arg7 harg7 arg8 harg8 arg9 harg9 hc0 hc1 x0 x1 x2 x3 = stepA x0 x1 x2 (hrows i x3) (k1_pay4 (F := F)) (k1_pay6 (F := F)) := by
  unfold sout1_A_2
  rw [View.read_writes_junk_eq_canon]
  unfold kernelRun1_A
  dsimp only
  sl_unfold_words
  rw [View.canon_cons_unit_zero (S := S1024x256) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The middle case leaves in the running maximum the new running maximum from the blocks and the maximum the case starts from (what the point before left). -/
theorem sout1_B_0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_B_0 c i arg2 harg2 arg3 harg3 arg4 harg4 arg5 harg5 arg6 harg6 arg7 harg7 arg8 harg8 arg9 harg9 hc0 hc1 x0 x1 x2 x3 xs0 xs1 xs2 = stepM x0 x1 x2 xs0 := by
  unfold sout1_B_0
  rw [View.read_writes_junk_eq_canon]
  unfold kernelRun1_B
  dsimp only
  sl_unfold_words
  rw [View.canon_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The middle case leaves in the running denominator the new running denominator from the blocks, the maximum and the denominator the case starts from (what the point before left). -/
theorem sout1_B_1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_B_1 c i arg2 harg2 arg3 harg3 arg4 harg4 arg5 harg5 arg6 harg6 arg7 harg7 arg8 harg8 arg9 harg9 hc0 hc1 x0 x1 x2 x3 xs0 xs1 xs2 = stepL x0 x1 x2 xs0 xs1 := by
  unfold sout1_B_1
  rw [View.read_writes_junk_eq_canon]
  unfold kernelRun1_B
  dsimp only
  sl_unfold_words
  rw [View.canon_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The middle case leaves in the running numerators the new running numerators from the blocks, the point's rows of `h`, the maximum and the numerators the case starts from (what the point before left). -/
theorem sout1_B_2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_B_2 c i arg2 harg2 arg3 harg3 arg4 harg4 arg5 harg5 arg6 harg6 arg7 harg7 arg8 harg8 arg9 harg9 hc0 hc1 x0 x1 x2 x3 xs0 xs1 xs2 = stepA x0 x1 x2 (hrows i x3) xs0 xs2 := by
  unfold sout1_B_2
  rw [View.read_writes_junk_eq_canon]
  unfold kernelRun1_B
  dsimp only
  sl_unfold_words
  rw [View.canon_unit_zero (S := S1024x256) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The last case leaves in the running maximum the new running maximum from the blocks and the maximum the case starts from (what the point before left). -/
theorem sout1_C_0_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_C_0 c i arg2 harg2 arg3 harg3 arg4 harg4 arg5 harg5 arg6 harg6 arg7 harg7 arg8 harg8 arg9 harg9 hc0 hc1 x0 x1 x2 x3 xs0 xs1 xs2 = stepM x0 x1 x2 xs0 := by
  unfold sout1_C_0
  rw [View.read_writes_junk_eq_canon]
  unfold kernelRun1_C
  dsimp only
  sl_unfold_words
  rw [View.canon_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The last case leaves in the running denominator the new running denominator from the blocks, the maximum and the denominator the case starts from (what the point before left). -/
theorem sout1_C_1_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_C_1 c i arg2 harg2 arg3 harg3 arg4 harg4 arg5 harg5 arg6 harg6 arg7 harg7 arg8 harg8 arg9 harg9 hc0 hc1 x0 x1 x2 x3 xs0 xs1 xs2 = stepL x0 x1 x2 xs0 xs1 := by
  unfold sout1_C_1
  rw [View.read_writes_junk_eq_canon]
  unfold kernelRun1_C
  dsimp only
  sl_unfold_words
  rw [View.canon_unit_zero (S := S1024x1) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The last case leaves in the running numerators the new running numerators from the blocks, the point's rows of `h`, the maximum and the numerators the case starts from (what the point before left). -/
theorem sout1_C_2_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout1_C_2 c i arg2 harg2 arg3 harg3 arg4 harg4 arg5 harg5 arg6 harg6 arg7 harg7 arg8 harg8 arg9 harg9 hc0 hc1 x0 x1 x2 x3 xs0 xs1 xs2 = stepA x0 x1 x2 (hrows i x3) xs0 xs2 := by
  unfold sout1_C_2
  rw [View.read_writes_junk_eq_canon]
  unfold kernelRun1_C
  dsimp only
  sl_unfold_words
  rw [View.canon_unit_zero (S := S1024x256) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-- The last case leaves in the output window's staging buffer the quotient of the numerators just stored by the denominator just stored, through the exponential linear unit. -/
theorem out1_C_4_eq (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    out1_C_4 c i arg2 harg2 arg3 harg3 arg4 harg4 arg5 harg5 arg6 harg6 arg7 harg7 arg8 harg8 arg9 harg9 hc0 hc1 x0 x1 x2 x3 xs0 xs1 xs2 = k1_pay3 (stepA x0 x1 x2 (hrows i x3) xs0 xs2) (stepL x0 x1 x2 xs0 xs1) := by
  unfold out1_C_4
  rw [View.read_writes_junk_eq_canon]
  unfold kernelRun1_C
  dsimp only
  sl_unfold_words
  rw [View.canon_unit_zero (S := S1024x256) zeroOff2]
  simp only [View.readAt_eq_ld, harg2.read_unread, harg3.read_unread, harg4.read_unread, harg5.read_unread, harg7.read_unread, harg8.read_unread, harg9.read_unread,
    View.ld_unit_zero (S := S1024x1) zeroOff2, View.ld_unit_zero (S := S1x1024) zeroOff2, View.ld_unit_zero (S := S1024x1024) zeroOff2, View.ld_unit_zero (S := S1024x256) zeroOff2,
    View.readCov_unit_zero (S := S1024x1) _ zeroOff2, View.readCov_unit_zero (S := S1024x256) _ zeroOff2]
  rfl

/-! ## The rest of the invariant -/

/-- Separating conjunction is associative, as an equation. -/
private theorem sep_assoc_eq {M : Type} [URA M] (P Q R : sProp M) : iprop((P ∗ Q) ∗ R) = iprop(P ∗ Q ∗ R) :=
  Idealize.SL.BI.Entails.antisymm Idealize.SL.BI.sep_assoc Idealize.SL.BI.sep_assoc'

/-- The core's scoped buffers that are neither a staging buffer of this region nor one of its three scratch buffers
    (the first region's staging buffers), each whole at some contents: the body never touches them. -/
def rest11 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region's invariant as the launch hands it over, with the three scratch buffers as memrefs owned at some contents. -/
theorem PhiA1_eq (c : Dev nD) :
    (Pipeline.ΦA spec1 c : sProp 𝕄)
      = iprop(rest11 (F := F) c ∗ (∃ d, owns (c : Thread nD τ) scM1_0 fullShare d) ∗ (∃ d, owns (c : Thread nD τ) scM1_1 fullShare d)
          ∗ (∃ d, owns (c : Thread nD τ) scM1_2 fullShare d) ∗ (∃ r, prngReg c r)) := by
  unfold Pipeline.ΦA; rw [scopedRest1_eq]; simp only [scM1_0, scM1_1, scM1_2, owns_whole]
  unfold rest11
  simp only [sep_assoc_eq]
  rfl

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the buffers hold after each point -/

/-- What a point of the first case leaves in the four buffers (output, maximum, denominator, numerators): the case's
    run at the point's memrefs and input blocks. -/
def pt1_A (c : Dev nD) (t : Fin cfg1.N) (h0 : t.val % 8 = 0) (h1 : ¬t.val % 8 = 7) : Vec F S1024x256 .f32 × Vec F S1024x1 .f32 × Vec F S1024x1 .f32 × Vec F S1024x256 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))

/-- What a point of the middle case leaves, over the scratch contents `p` the point before left. -/
def pt1_B (c : Dev nD) (t : Fin cfg1.N) (h0 : ¬t.val % 8 = 0) (h1 : ¬t.val % 8 = 7) (p : Vec F S1024x1 .f32 × Vec F S1024x1 .f32 × Vec F S1024x256 .f32) : Vec F S1024x256 .f32 × Vec F S1024x1 .f32 × Vec F S1024x1 .f32 × Vec F S1024x256 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.1 p.2.1 p.2.2)

/-- What a point of the last case leaves, over the scratch contents `p` the point before left. -/
def pt1_C (c : Dev nD) (t : Fin cfg1.N) (h0 : ¬t.val % 8 = 0) (h1 : t.val % 8 = 7) (p : Vec F S1024x1 .f32 × Vec F S1024x1 .f32 × Vec F S1024x256 .f32) : Vec F S1024x256 .f32 × Vec F S1024x1 .f32 × Vec F S1024x1 .f32 × Vec F S1024x256 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.1 p.2.1 p.2.2)

/-- What the output window's staging buffer and the three scratch buffers (maximum, denominator, numerators) hold
    after the body at position `n`: the case `n % 8` selects, run at the point's memrefs and input blocks, the scratch
    buffers it reads at what position `n - 1` left. No position is both first and last of its row block. -/
def outsAt1 (c : Dev nD) : (n : ℕ) → n < cfg1.N → Vec F S1024x256 .f32 × Vec F S1024x1 .f32 × Vec F S1024x1 .f32 × Vec F S1024x256 .f32
  | 0, hn => pt1_A V c ⟨0, hn⟩ (Nat.zero_mod 8) (show ¬(0 % 8 = 7) from by decide)
  | n + 1, hn =>
    if h0 : (n + 1) % 8 = 0 then
      if h1 : (n + 1) % 8 = 7 then False.elim (by omega)
      else pt1_A V c ⟨n + 1, hn⟩ h0 h1
    else
      if h1 : (n + 1) % 8 = 7 then pt1_C V c ⟨n + 1, hn⟩ h0 h1 (outsAt1 c n (Nat.lt_of_succ_lt hn)).2
      else pt1_B V c ⟨n + 1, hn⟩ h0 h1 (outsAt1 c n (Nat.lt_of_succ_lt hn)).2

/-- `outsAt1` at a point of the first case. -/
theorem outsAt1_A (c : Dev nD) (t : Fin cfg1.N) (h0 : t.val % 8 = 0) (h1 : ¬t.val % 8 = 7) :
    outsAt1 V c t.val t.isLt = pt1_A V c t h0 h1 := by
  obtain ⟨n, hn⟩ := t
  cases n with
  | zero => exact rfl
  | succ n => exact (dif_pos h0).trans ((dif_neg h1).trans rfl)

/-- `outsAt1` at a point of the middle case: over what the point before left. -/
theorem outsAt1_B (c : Dev nD) (t : Fin cfg1.N) (h0 : ¬t.val % 8 = 0) (h1 : ¬t.val % 8 = 7) :
    outsAt1 V c t.val t.isLt = pt1_B V c t h0 h1 (outsAt1 V c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_neg h1).trans rfl)

/-- `outsAt1` at a point of the last case: over what the point before left. -/
theorem outsAt1_C (c : Dev nD) (t : Fin cfg1.N) (h0 : ¬t.val % 8 = 0) (h1 : t.val % 8 = 7) :
    outsAt1 V c t.val t.isLt = pt1_C V c t h0 h1 (outsAt1 V c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_pos h1).trans rfl)

/-! ## The invariant -/

/-- The region's invariant before position `n`: before the first point what the launch hands over (every scratch
    buffer at anything); afterwards the untouched rest, each scratch buffer at what the point before left in it
    (`outsAt1`'s scratch components), and the generator register at some state. -/
def PhiS1 (c : Dev nD) : (n : ℕ) → n ≤ cfg1.N → sProp 𝕄
  | 0, _ => Pipeline.ΦA spec1 c
  | n + 1, hn => iprop(rest11 (F := F) c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(rest11 (F := F) c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(rest11 (F := F) c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  cases n with
  | zero => exact absurd rfl hz
  | succ n => rfl

/-! ## The pipeline's proof data -/

/-- The proof data of the attention pipeline on core `c`: the arrays as the region finds them; after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- An input window's current staging buffer holds its block at every point, whether the pipeline fetched it
    there or the block index has not moved since it did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The three value equations -/

/-- AT THE FIRST POINT OF A ROW BLOCK the three scratch buffers are one update from the reset values. -/
theorem outsAt1_first (c : Dev nD) (t : Fin cfg1.N) (h : t.val % 8 = 0) :
    (outsAt1 V c t.val t.isLt).2 =
      (stepM (iblk1 V c 0 t) (iblk1 V c 1 t) (iblk1 V c 2 t) (k1_pay4 (F := F)),
       stepL (iblk1 V c 0 t) (iblk1 V c 1 t) (iblk1 V c 2 t) (k1_pay4 (F := F)) (k1_pay5 (F := F)),
       stepA (iblk1 V c 0 t) (iblk1 V c 1 t) (iblk1 V c 2 t) (hrows (grid1.coords t) (iblk1 V c 3 t)) (k1_pay4 (F := F)) (k1_pay6 (F := F))) := by
  have h0 : t.val % 8 = 0 := h
  have h1 : ¬t.val % 8 = 7 := by omega
  rw [outsAt1_A V c t h0 h1]
  unfold pt1_A; dsimp only
  rw [sout1_A_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
    sout1_A_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
    sout1_A_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)]

/-- AT A LATER POINT they are one update from what the point before left. -/
theorem outsAt1_next (c : Dev nD) (t : Fin cfg1.N) (h : t.val % 8 ≠ 0) :
    (outsAt1 V c t.val t.isLt).2 =
      (stepM (iblk1 V c 0 t) (iblk1 V c 1 t) (iblk1 V c 2 t) (outsAt1 V c (t.val - 1) (Nat.lt_of_le_of_lt (Nat.sub_le _ _) t.isLt)).2.1,
       stepL (iblk1 V c 0 t) (iblk1 V c 1 t) (iblk1 V c 2 t) (outsAt1 V c (t.val - 1) (Nat.lt_of_le_of_lt (Nat.sub_le _ _) t.isLt)).2.1
         (outsAt1 V c (t.val - 1) (Nat.lt_of_le_of_lt (Nat.sub_le _ _) t.isLt)).2.2.1,
       stepA (iblk1 V c 0 t) (iblk1 V c 1 t) (iblk1 V c 2 t) (hrows (grid1.coords t) (iblk1 V c 3 t))
         (outsAt1 V c (t.val - 1) (Nat.lt_of_le_of_lt (Nat.sub_le _ _) t.isLt)).2.1
         (outsAt1 V c (t.val - 1) (Nat.lt_of_le_of_lt (Nat.sub_le _ _) t.isLt)).2.2.2) := by
  have h0 : ¬t.val % 8 = 0 := h
  by_cases h1 : t.val % 8 = 7
  · rw [outsAt1_C V c t h0 h1]
    unfold pt1_C; dsimp only
    rw [sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  · rw [outsAt1_B V c t h0 h1]
    unfold pt1_B; dsimp only
    rw [sout1_B_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

/-- AT THE LAST POINT OF A ROW BLOCK the output window receives the quotient of the numerators by the denominator,
    through the exponential linear unit. -/
theorem outsAt1_last (c : Dev nD) (t : Fin cfg1.N) (h : t.val % 8 = 7) :
    (outsAt1 V c t.val t.isLt).1 = k1_pay3 (outsAt1 V c t.val t.isLt).2.2.2 (outsAt1 V c t.val t.isLt).2.2.1 := by
  have h1 : t.val % 8 = 7 := h
  have h0 : ¬t.val % 8 = 0 := by omega
  rw [outsAt1_C V c t h0 h1]
  unfold pt1_C; dsimp only
  rw [out1_C_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_2_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_1_eq c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

/-! ## The body obligation, at a generic point -/

/-- What the body is called with at point `t`: the invariant, what is owed, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; `t % 8` says which case the point is in, and that
    case's run applies: the invariant hands it the three scratch buffers (at anything before the first point, where the
    case resets them; else at what the point before left), the run's pieces cover each of them, so the invariant takes
    them back at this point's contents. The output window's buffer is stored whole in the last case and handed back
    untouched in the others, where the window is idle and not written back. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold pt1_A sout1_A_0 sout1_A_1 sout1_A_2; dsimp only
    by_cases hz : t.val = 0
    · rw [PhiS1_castSucc V c t, PhiS1_zero V c _ _ hz, PhiA1_eq]
      iintro ⟨⟨HR, HS0, HS1, HS2, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        isplitl [HS1]
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        isplitl [HS2]
        · unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        isplitl [HS1]
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        isplitl [HS2]
        · unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold pt1_C out1_C_4 sout1_C_0 sout1_C_1 sout1_C_2; dsimp only
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        isplitl [HS1]
        · unfold owns; iexists _; isplitr
          swap; · iexact HS1
          ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        isplitl [HS2]
        · unfold owns; iexists _; isplitr
          swap; · iexact HS2
          ipureintro; exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold pt1_B sout1_B_0 sout1_B_1 sout1_B_2; dsimp only
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        isplitl [HS1]
        · unfold owns; iexists _; isplitr
          swap; · iexact HS1
          ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        isplitl [HS2]
        · unfold owns; iexists _; isplitr
          swap; · iexact HS2
          ipureintro; exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        iexact Hg
      isplitl [Ho]; · iexact Ho
      isplitl [H0]; · iexact H0
      isplitl [H1]; · iexact H1
      isplitl [H2]; · iexact H2
      isplitl [H3]; · iexact H3
      iexists _; iexact H4

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point, -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- and after any point but the first the invariant gives it back: the scratch buffers' named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

theorem hout1 (c : Dev nD) : (dat1 (F := F) V c).Φ (Fin.last cfg1.N) ⊢ Pipeline.ΦA spec1 c :=
  Phi_out1 V c _ (by rw [Fin.val_last]; have : cfg1.N = 64 := N_1; omega)

/-- Nothing is owed, the shares are full, and no bound is put on the recorded pairs. -/
theorem owed1 (c : Dev nD) (t) (x) : (dat1 (F := F) V c).owed t x = 0 := rfl
theorem q1 (c : Dev nD) (w : Fin cfg1.W) : (dat1 (F := F) V c).q w = fullShare := rfl
theorem rec1 (c : Dev nD) (t) : (dat1 (F := F) V c).recorded t = Set.univ := by
  dsimp only [dat1]

end Region1

end Cert.KernelIdeal.Hand

end
-- ==== Proof.KI.Run.lean ====
/-
  The whole run of the program: @main as four segments (a stretch of host operations, the projection region, another
  stretch, the attention region), the contents of the TensorCore's buffers at each boundary as a fold from the launch
  memory, and the launch. Every weakly fair execution terminates, and in the final memory every unscoped buffer holds
  the last boundary's contents: the arguments what they held at launch (no host operation and no region writes one),
  the result what the attention pipeline's write-backs leave.
-/
import proofs.«410119_j22316650070323_3_alg».proof.Proof.Gen.KernelIdeal.Launch
import proofs.«410119_j22316650070323_3_alg».proof.Proof.Gen.KernelIdeal.Skeleton
import proofs.«410119_j22316650070323_3_alg».proof.Proof.Gen.KernelIdeal.Points
import proofs.«410119_j22316650070323_3_alg».proof.Proof.KI.Proj
import proofs.«410119_j22316650070323_3_alg».proof.Proof.KI.Attn
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch, -/
abbrev W0 : Dev nD → Valuation τ sig (Elt F) := fun c b => (s₀ m ρ).mem ((c : Dev nD), b)
/-- after the first host stretch (the two transposes of `a1`, `a2`): the projection region's entry, -/
abbrev W1 : Dev nD → Valuation τ sig (Elt F) := fun c => StableHlo.after hostOps0 (W0 m ρ c)
abbrev B1 : (c : Dev nD) → (b : Ref sig .tc) → Buf (Elt F) ((c : Thread nD τ).loc b) := fun c b => W1 m ρ c b
/-- at the projection region's exit: its arrays at what the pipeline leaves, every other buffer as entered, -/
def W2 (c : Dev nD) : Valuation τ sig (Elt F) :=
  Pipeline.withArrays spec0 c (W1 m ρ c) fun w => (dat0 (B1 m ρ) c).arrAt w cfg0.N
abbrev B2 : (c : Dev nD) → (b : Ref sig .tc) → Buf (Elt F) ((c : Thread nD τ).loc b) := fun c b => W2 m ρ c b
/-- after the second host stretch (the transpose of `f2`): the attention region's entry, -/
abbrev W3 : Dev nD → Valuation τ sig (Elt F) := fun c => StableHlo.after hostOps1 (W2 m ρ c)
abbrev B3 : (c : Dev nD) → (b : Ref sig .tc) → Buf (Elt F) ((c : Thread nD τ).loc b) := fun c b => W3 m ρ c b
/-- and at the attention region's exit. -/
def W4 (c : Dev nD) : Valuation τ sig (Elt F) :=
  Pipeline.withArrays spec1 c (W3 m ρ c) fun w => (dat1 (B3 m ρ) c).arrAt w cfg1.N
abbrev B4 : (c : Dev nD) → (b : Ref sig .tc) → Buf (Elt F) ((c : Thread nD τ).loc b) := fun c b => W4 m ρ c b

theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-! ## What the host stretches write -/

/-- The first stretch writes the two transposed rows and nothing else, -/
theorem host0_writes : (hostOps0 : List (HloOp τ sig (Elt F))).Forall fun op =>
    op.writes ⊆ (([main_v0, main_v1] : List (Ref sig .tc)).map (Proc.devRef (τ := τ) .tc)).toFinset := by
  simp only [List.Forall]
  exact ⟨by simp only [StableHlo.unary_writes, Finset.singleton_subset_iff, List.mem_toFinset]; exact List.mem_map_of_mem (by decide),
    by simp only [StableHlo.unary_writes, Finset.singleton_subset_iff, List.mem_toFinset]; exact List.mem_map_of_mem (by decide)⟩
/-- the second the transposed column. -/
theorem host1_writes : (hostOps1 : List (HloOp τ sig (Elt F))).Forall fun op =>
    op.writes ⊆ (([main_v3] : List (Ref sig .tc)).map (Proc.devRef (τ := τ) .tc)).toFinset := by
  simp only [List.Forall]
  exact (by simp only [StableHlo.unary_writes, Finset.singleton_subset_iff, List.mem_toFinset]; exact List.mem_map_of_mem (by decide))

/-- A buffer the first stretch does not write holds after it what it held at launch, -/
theorem W1_of (c : Dev nD) (r : Ref sig .tc) (h : r ∉ ([main_v0, main_v1] : List (Ref sig .tc))) :
    W1 m ρ c (Proc.devRef .tc r) = m ((c : Thread nD τ).loc r) :=
  (StableHlo.after_of_writes_sub hostOps0 _ host0_writes h).trans rfl
/-- and one the second does not write what the projection region left. -/
theorem W3_of (c : Dev nD) (r : Ref sig .tc) (h : r ∉ ([main_v3] : List (Ref sig .tc))) :
    W3 m ρ c (Proc.devRef .tc r) = W2 m ρ c (Proc.devRef .tc r) :=
  StableHlo.after_of_writes_sub hostOps1 _ host1_writes h

/-! ## What the regions are entered with, read back to the launch memory -/

/-- The projection region finds `x` and `W` as launched and the two transposed rows. -/
theorem B1_arg0 (c : Dev nD) : B1 m ρ c main_arg0 = m ((c : Thread nD τ).loc main_arg0) := W1_of m ρ c main_arg0 (by decide)
theorem B1_arg2 (c : Dev nD) : B1 m ρ c main_arg2 = m ((c : Thread nD τ).loc main_arg2) := W1_of m ρ c main_arg2 (by decide)
theorem B1_v0 (c : Dev nD) : B1 m ρ c main_v0 = transpose S1x256 [1, 0] (m ((c : Thread nD τ).loc main_arg3)) transposes_S256x1_S1x256_1_0 := by
  show StableHlo.after hostOps0 (W0 m ρ c) (Proc.devRef .tc main_v0) = _
  after_results
theorem B1_v1 (c : Dev nD) : B1 m ρ c main_v1 = transpose S1x256 [1, 0] (m ((c : Thread nD τ).loc main_arg4)) transposes_S256x1_S1x256_1_0 := by
  show StableHlo.after hostOps0 (W0 m ρ c) (Proc.devRef .tc main_v1) = _
  after_results
/-- The attention region finds the adjacency as launched, the projection's three results, the third transposed. -/
theorem B3_arg1 (c : Dev nD) : B3 m ρ c main_arg1 = m ((c : Thread nD τ).loc main_arg1) :=
  (W3_of m ρ c main_arg1 (by decide)).trans <| (W2_of_ne m ρ c main_arg1 (by decide)).trans <| W1_of m ρ c main_arg1 (by decide)
theorem B3_v2_0 (c : Dev nD) : B3 m ρ c main_v2_0 = (dat0 (B1 m ρ) c).arrAt 4 cfg0.N :=
  (W3_of m ρ c main_v2_0 (by decide)).trans (W2_arr m ρ c 4)
theorem B3_v2_1 (c : Dev nD) : B3 m ρ c main_v2_1 = (dat0 (B1 m ρ) c).arrAt 5 cfg0.N :=
  (W3_of m ρ c main_v2_1 (by decide)).trans (W2_arr m ρ c 5)
theorem B3_v3 (c : Dev nD) : B3 m ρ c main_v3 = transpose S1x8192 [1, 0] ((dat0 (B1 m ρ) c).arrAt 6 cfg0.N) transposes_S8192x1_S1x8192_1_0 := by
  show StableHlo.after hostOps1 (W2 m ρ c) (Proc.devRef .tc main_v3) = _
  after_results
  rw [show W2 m ρ c (Proc.devRef .tc main_v2_2) = (dat0 (B1 m ρ) c).arrAt 6 cfg0.N from W2_arr m ρ c 6]

/-- The arguments end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (B1 m ρ) c).arrAt_in 0 rfl _).trans (A_eq0 (B1 m ρ) c 0))
    _ = m ((c : Thread nD τ).loc main_arg0) := W1_of m ρ c main_arg0 (by decide)
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (B3 m ρ) c).arrAt_in 2 rfl _).trans (A_eq1 (B3 m ρ) c 2))
    _ = m ((c : Thread nD τ).loc main_arg1) := B3_arg1 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (B1 m ρ) c).arrAt_in 1 rfl _).trans (A_eq0 (B1 m ρ) c 1))
    _ = m ((c : Thread nD τ).loc main_arg2) := W1_of m ρ c main_arg2 (by decide)
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = m ((c : Thread nD τ).loc main_arg3) := W1_of m ρ c main_arg3 (by decide)
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = m ((c : Thread nD τ).loc main_arg4) := W1_of m ρ c main_arg4 (by decide)
/-- The result ends at what the attention pipeline's write-backs leave. -/
theorem W4_main_v4 (c : Dev nD) : W4 m ρ c (Proc.devRef .tc main_v4) = (dat1 (B3 m ρ) c).arrAt 4 cfg1.N := W4_arr m ρ c 4

/-! ## The launch

### The proof data of the two pipelines and what rides beside the buffers -/

/-- At each region's exit each of its arrays holds what the pipeline leaves and every other buffer what it held at entry. -/
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)

/-- No pipeline has a prefetched table. -/
abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core carries its generator register, at some state, and owes nothing. -/
abbrev R (c : Dev nD) : sProp 𝕄 := iprop((∃ r, prngReg c r) ∗ ∃ W, owes (c : Thread nD τ) (0 : CellTallies nD τ sig Unit) W)
/-- A host stretch from the contents `W`: the unscoped buffers go to the stretch's fold of `W`, the rest rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem host0_fresh : (hostOps0 : List (HloOp τ sig (Elt F))).Forall fun op => op.fresh = ∅ := by
  simp only [List.Forall]; repeat' constructor
theorem host1_fresh : (hostOps1 : List (HloOp τ sig (Elt F))).Forall fun op => op.fresh = ∅ := by
  simp only [List.Forall]; repeat' constructor
/-- An unscoped reference of the TensorCore is among those a core holds between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state but for what the core owes: every unscoped buffer at the last boundary's contents, the generator register. -/
abbrev Tₙ (c : Dev nD) : sProp 𝕄 := iprop(StableHlo.held (c : Thread nD τ) (Pipeline.ucRefs τ sig) (W4 m ρ c) ∗ ∃ r, prngReg c r)

/-! ### The regions as segments -/

set_option backward.isDefEq.respectTransparency.types false in
/-- THE PROJECTION REGION: entered with every unscoped buffer at `W1`, left with them at `W2`. Its arrays are split out of the
    unscoped buffers and put back at the exit contents; the generator register goes into the invariant and comes back;
    nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention pipeline's proof data owe nothing at any point. -/
theorem owed_pd1 (c : Dev nD) (t) : (pdats m ρ 1 c).owed t = 0 := funext fun x => owed1 (B3 m ρ) c t x

set_option backward.isDefEq.respectTransparency.types false in
/-- THE ATTENTION REGION: entered with every unscoped buffer at `W3`, left with them at `W4`, the last boundary. Its arrays
    are split out of the unscoped buffers and put back at the exit contents; the generator register and the scoped
    buffers no window stages make the invariant before the first point, and the invariant after the last point gives
    them back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ L lv 1 fun c t => owed_pd1 m ρ c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full (q1 (B3 m ρ) c)) (B3 m ρ c) (A_eq1 (B3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_pd1 m ρ c]
      icases HO with ⟨%W, HO⟩; iexists W; isplitr
      · ipureintro; exact fun x _ => Or.inl ((Set.eq_univ_iff_forall.mp (rec1 (B3 m ρ) c 0)) x)
      iexact HO
    isplitl [Hp]; · iexact Hp
    iexact Hrest
  hin c := by
    refine .trans ?_ (hin1 (B3 m ρ) c)
    unfold Pipeline.ΦA
    iintro ⟨Hp, -, Hr⟩
    isplitl [Hr]; · iexact Hr
    iexact Hp
  hout c := by
    rw [Pipeline.ownSems0_none]
    refine (hout1 (B3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full (q1 (B3 m ρ) c))
      (B3 m ρ c) (B4 m ρ c) ((pdats m ρ 1 c).arrAt · cfg1.N) (hF1 m ρ c) (hrest1 m ρ c)
    rw [Pipeline.unscopedBufs_held] at hjoin
    unfold Pipeline.Dat.owesAt Pipeline.owesWithin
    rw [owed_pd1 m ρ c]
    iintro ⟨Ha, HO, HY, Hrest⟩
    imodintro
    isplitl [Ha Hrest HY]
    · isplitl [Ha Hrest]
      · iapply hjoin; isplitl [Ha] <;> iassumption
      iexact HY
    icases HO with ⟨%W, -, HO⟩; iexists W; iexact HO

/-! ### @main as segments -/

/-- @main's four segments in order: the two transposes, the projection region, the third transpose, the attention region. -/
abbrev segs : List (Pipeline.Seg (pcfgs (F := F)) adm (pdats m ρ) () defs₀ 𝒱₀ L lv) :=
  [ .host (hseg hostOps0 hostOps0_sub host0_fresh (W0 m ρ)),
    .region (reg0 m ρ),
    .host (hseg hostOps1 hostOps1_sub host1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and the
    final memory has the result buffer at the attention pipeline's final array and each argument as launched. -/
theorem run_main : θ_run defs (onTc (τ := τ) (main (F := F))) ⟨m, fun _ => 0, ρ⟩ (fun r => ∀ c : Dev nD,
      r.2.mem ((c.tc : Thread nD τ).loc main_v4) = (dat1 (B3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_main_v4 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Hand

end
-- ==== Proof.Wavg.lean ====
/-
  A softmax-weighted average over a finite set of columns, and the three running quantities of its online form.
-/
import Idealize.ShloMosaic.PureOps.Ideal
import Mathlib.Algebra.BigOperators.Field
import Mathlib.Analysis.SpecialFunctions.Exp

noncomputable section

namespace Cert.Gat

open Idealize.ShloMosaic
open scoped BigOperators

variable {ι κ : Type} [DecidableEq ι]

/-- The softmax-weighted average of `H` over the nonempty set `J` of columns, with scores `S`. -/
def wavg (S : ι → ℝ) (H : ι → ℝ) (J : Finset ι) (hJ : J.Nonempty) : ℝ :=
  (∑ j ∈ J, Real.exp (S j - J.sup' hJ S) * H j) / (∑ j ∈ J, Real.exp (S j - J.sup' hJ S))

/-- The running maximum `m`, denominator `l` and numerators `acc` are those of the columns `J` seen so far:
    before any column `⊥`, `0`, `0`; afterwards the real maximum and the two sums taken against it. -/
def Seen (S : ι → ℝ) (H : ι → κ → ℝ) (J : Finset ι) (m l : EReal) (acc : κ → EReal) : Prop :=
  (J = ∅ ∧ m = ⊥ ∧ l = 0 ∧ ∀ c, acc c = 0) ∨
  ∃ hJ : J.Nonempty, m = ((J.sup' hJ S : ℝ) : EReal)
    ∧ l = ((∑ j ∈ J, Real.exp (S j - J.sup' hJ S) : ℝ) : EReal)
    ∧ ∀ c, acc c = ((∑ j ∈ J, Real.exp (S j - J.sup' hJ S) * H j c : ℝ) : EReal)

end Cert.Gat

end
-- ==== Proof.Spec.lean ====
/-
  What both programs compute, as a function of the argument arrays read as real numbers.

  With `h = x W` (8192 × 256), `f1 = h a1`, `f2 = h a2`, the score of row `i` against column `j` is the leaky
  rectifier of `f1 i + f2 j` where `adj i j > 0` and a large negative constant elsewhere; row `i` of the result is
  the softmax of its scores applied to `h`, passed through the exponential linear unit. The arrays are taken on the
  extended reals, as the idealized programs hold them, and read back to ℝ entry by entry; `IsReal` says an array
  has no infinite entry, which is what makes that reading faithful.
-/
import proofs.«410119_j22316650070323_3_alg».proof.Proof.Wavg
import Idealize.ShloMosaic.Lib.ValueIdx

noncomputable section

namespace Cert.Gat

open Idealize.ShloMosaic Idealize.ShloMosaic.ValueIdx
open scoped BigOperators

/-- Every entry of the array is a real number. -/
def IsReal {s : Shape} (v : s.Idx → EReal) : Prop := ∀ i, v i = ((v i).toReal : EReal)

/-- The slope of the leaky rectifier and the score given to a masked pair, as the programs spell them. -/
def slope : EReal := Ideal.ofBits .f32 0x3E4CCCCD#32
def negBig : EReal := Ideal.ofBits .f32 0xD9FFCB9E#32

/-- `adj i j > 0`, as a signed comparison of the 32-bit entry. -/
def edge (a : BitVec 32) : Prop := IntOp.cmpi .sgt a 0#32 = 1#1
instance (a : BitVec 32) : Decidable (edge a) := by unfold edge; infer_instance

/-- The exponential linear unit on the extended reals: `y` above zero, `exp y - 1` otherwise. -/
def eluE (y : EReal) : EReal := if 0 < y then y else Ideal.exp y - 1

section
variable (x : (⟨2, ![8192, 512]⟩ : Shape).Idx → EReal) (adj : (⟨2, ![8192, 8192]⟩ : Shape).Idx → BitVec 32)
  (W : (⟨2, ![512, 256]⟩ : Shape).Idx → EReal) (a1 a2 : (⟨2, ![256, 1]⟩ : Shape).Idx → EReal)

/-- `h = x W`. -/
def hR (i : Fin 8192) (c : Fin 256) : ℝ := ∑ k : Fin 512, (x (ix2 i k)).toReal * (W (ix2 k c)).toReal
/-- `f1 = h a1` and `f2 = h a2`. -/
def f1R (i : Fin 8192) : ℝ := ∑ c : Fin 256, hR x W i c * (a1 (ix2 c (0 : Fin 1))).toReal
def f2R (j : Fin 8192) : ℝ := ∑ c : Fin 256, hR x W j c * (a2 (ix2 c (0 : Fin 1))).toReal
/-- The masked score of row `i` against column `j`. -/
def scoreR (i j : Fin 8192) : ℝ :=
  if edge (adj (ix2 i j)) then max (f1R x W a1 i + f2R x W a2 j) (slope.toReal * (f1R x W a1 i + f2R x W a2 j))
  else negBig.toReal
/-- Row `i`'s softmax-weighted average of column `c` of `h`. -/
def hpR (i : Fin 8192) (c : Fin 256) : ℝ :=
  wavg (scoreR x adj W a1 a2 i) (fun j => hR x W j c) Finset.univ Finset.univ_nonempty
/-- The result at row `i`, column `c`. -/
def target (i : Fin 8192) (c : Fin 256) : EReal := eluE ((hpR x adj W a1 a2 i c : ℝ) : EReal)

end

end Cert.Gat

end
-- ==== Proof.Softmax.lean ====
/-
  The online form of a softmax-weighted average, over abstract finite sets of columns.

  For scores `S : ι → ℝ` and values `H : ι → κ → ℝ`, a pass over the columns in blocks keeps three running
  quantities: the maximum `m` of the scores seen, the sum `l` of `exp (S j - m)` over the columns seen, and per
  feature `c` the sum `acc c` of `exp (S j - m) * H j c`. When a new block `B` arrives the maximum moves to
  `m' = max m (max over B)`, and the old sums are rescaled by `exp (m - m')`, since
  `exp (S j - m) * exp (m - m') = exp (S j - m')`. After all columns, `acc c / l` is the softmax-weighted average of
  `H · c`, which is also `∑ j, (exp (S j - M) / ∑ j', exp (S j' - M)) * H j c`: the quotient moved inside the sum.
  Everything is stated on the extended reals with the operations a float program means there (`Ideal.exp`,
  `Ideal.div`), the running maximum starting at `⊥` and the running sums at `0`.
-/
import proofs.«410119_j22316650070323_3_alg».proof.Proof.Wavg
import Idealize.ShloMosaic.PureOps.Ideal
import Mathlib.Algebra.BigOperators.Field
import Mathlib.Analysis.SpecialFunctions.Exp
import Mathlib.Order.Filter.Basic

noncomputable section

namespace Cert.Gat

open Idealize.ShloMosaic
open scoped BigOperators

variable {ι κ : Type} [DecidableEq ι]

theorem seen_empty (S : ι → ℝ) (H : ι → κ → ℝ) : Seen S H ∅ ⊥ 0 (fun _ => 0) :=
  Or.inl ⟨rfl, rfl, rfl, fun _ => rfl⟩

/-- A sum of real numbers read on the extended reals is the sum of their readings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The larger of two real numbers read on the extended reals is the larger of their readings. -/
private theorem coe_max' (x y : ℝ) : max (x : EReal) (y : EReal) = ((max x y : ℝ) : EReal) :=
  (EReal.coe_strictMono.monotone.map_max).symm

/-- The exponential of a difference of two real numbers, read on the extended reals. -/
private theorem exp_coe_sub (x y : ℝ) :
    Ideal.exp ((x : EReal) - (y : EReal)) = ((Real.exp (x - y) : ℝ) : EReal) := by
  rw [← EReal.coe_sub, Ideal.exp_coe]

/-- Rescaling: sums taken against `M` and multiplied by `exp (M - M')` are sums taken against `M'`, by
    `exp (M - M') * exp (S j - M) = exp (S j - M')`; together with a disjoint block's own terms this is the sum
    over the union. -/
private theorem real_step (S g : ι → ℝ) {J B : Finset ι} (hJB : Disjoint J B) (M M' : ℝ) :
    Real.exp (M - M') * (∑ j ∈ J, Real.exp (S j - M) * g j) + ∑ j ∈ B, Real.exp (S j - M') * g j
      = ∑ j ∈ J ∪ B, Real.exp (S j - M') * g j := by
  rw [Finset.sum_union hJB, Finset.mul_sum]
  congr 1
  refine Finset.sum_congr rfl fun j _ => ?_
  rw [← mul_assoc, ← Real.exp_add]
  congr 2
  ring

/-- The same rescaling for the sums of the weights alone. -/
private theorem real_step_one (S : ι → ℝ) {J B : Finset ι} (hJB : Disjoint J B) (M M' : ℝ) :
    Real.exp (M - M') * (∑ j ∈ J, Real.exp (S j - M)) + ∑ j ∈ B, Real.exp (S j - M')
      = ∑ j ∈ J ∪ B, Real.exp (S j - M') := by
  simpa using real_step S (fun _ => 1) hJB M M'

/-- The sum of the weights over a nonempty set is positive. -/
private theorem sum_exp_pos (S : ι → ℝ) {J : Finset ι} (hJ : J.Nonempty) (M : ℝ) :
    0 < ∑ j ∈ J, Real.exp (S j - M) :=
  Finset.sum_pos (fun _ _ => Real.exp_pos _) hJ

/-- ONE BLOCK MORE. From the quantities of the columns `J`, a nonempty block `B` of new columns gives those of
    `J ∪ B`: the new maximum `m' = max m (max over B)`, the old sums rescaled by `exp (m - m')` plus the block's own
    terms taken against `m'`. -/
theorem seen_step {S : ι → ℝ} {H : ι → κ → ℝ} {J B : Finset ι} {m l : EReal} {acc : κ → EReal}
    (hJB : Disjoint J B) (hB : B.Nonempty) (h : Seen S H J m l acc) :
    Seen S H (J ∪ B) (max m ((B.sup' hB S : ℝ) : EReal))
      (Ideal.exp (m - max m ((B.sup' hB S : ℝ) : EReal)) * l
        + ∑ j ∈ B, Ideal.exp ((S j : EReal) - max m ((B.sup' hB S : ℝ) : EReal)))
      (fun c => Ideal.exp (m - max m ((B.sup' hB S : ℝ) : EReal)) * acc c
        + ∑ j ∈ B, Ideal.exp ((S j : EReal) - max m ((B.sup' hB S : ℝ) : EReal)) * (H j c : EReal)) := by
  rcases h with ⟨rfl, rfl, rfl, hacc⟩ | ⟨hJ, rfl, rfl, hacc⟩
  · -- nothing seen yet: the maximum is the block's, the old sums are zero
    rw [Finset.empty_union]
    refine Or.inr ⟨hB, ?_, ?_, fun c => ?_⟩
    · exact max_bot_left _
    · rw [max_bot_left, mul_zero, zero_add, coe_sum]
      exact Finset.sum_congr rfl fun j _ => exp_coe_sub _ _
    · dsimp only
      rw [max_bot_left, hacc c, mul_zero, zero_add, coe_sum]
      refine Finset.sum_congr rfl fun j _ => ?_
      rw [exp_coe_sub, EReal.coe_mul]
  · -- some columns seen: everything is real, and the old sums are rescaled
    refine Or.inr ⟨hJ.mono Finset.subset_union_left, ?_, ?_, fun c => ?_⟩
    · rw [coe_max', Finset.sup'_union hJ hB]
    · rw [Finset.sup'_union hJ hB, coe_max']
      simp only [exp_coe_sub]
      rw [← coe_sum, ← EReal.coe_mul, ← EReal.coe_add, real_step_one S hJB]
    · dsimp only
      rw [Finset.sup'_union hJ hB, coe_max', hacc c]
      simp only [exp_coe_sub, ← EReal.coe_mul]
      rw [← coe_sum, ← EReal.coe_add, real_step S (fun j => H j c) hJB]

/-- AT THE END the quotient of a numerator by the denominator is the weighted average. -/
theorem seen_div {S : ι → ℝ} {H : ι → κ → ℝ} {J : Finset ι} {m l : EReal} {acc : κ → EReal}
    (hJ : J.Nonempty) (h : Seen S H J m l acc) (c : κ) :
    Ideal.div (acc c) l = ((wavg S (fun j => H j c) J hJ : ℝ) : EReal) := by
  rcases h with ⟨rfl, -⟩ | ⟨hJ', -, rfl, hacc⟩
  · exact absurd hJ Finset.not_nonempty_empty
  · -- the denominator is a positive real number
    rw [hacc c, Ideal.div_coe (sum_exp_pos S hJ' _).ne', ← EReal.coe_mul, wavg, mul_one_div]

/-- THE DIRECT FORM: each weight normalised first, then the weighted sum — the same average. `U` is the sum of
    the weights as the extended reals add them from `0`. -/
theorem direct_wavg (S : ι → ℝ) (H : ι → ℝ) (J : Finset ι) (hJ : J.Nonempty) :
    ∑ j ∈ J, Ideal.div (Ideal.exp ((S j : EReal) - ((J.sup' hJ S : ℝ) : EReal)))
        (0 + ∑ j' ∈ J, Ideal.exp ((S j' : EReal) - ((J.sup' hJ S : ℝ) : EReal))) * (H j : EReal)
      = ((wavg S H J hJ : ℝ) : EReal) := by
  have hU : (0 : EReal) + ∑ j' ∈ J, Ideal.exp ((S j' : EReal) - ((J.sup' hJ S : ℝ) : EReal))
      = ((∑ j' ∈ J, Real.exp (S j' - J.sup' hJ S) : ℝ) : EReal) := by
    rw [zero_add, coe_sum]
    exact Finset.sum_congr rfl fun j _ => exp_coe_sub _ _
  rw [wavg, Finset.sum_div, coe_sum, hU]
  refine Finset.sum_congr rfl fun j _ => ?_
  rw [exp_coe_sub, Ideal.div_coe (sum_exp_pos S hJ _).ne', ← EReal.coe_mul, ← EReal.coe_mul]
  congr 1
  ring

/-- A leaky rectifier of slope `0 < a < 1` is the larger of `e` and `a * e`. -/
theorem max_mul_slope {a : ℝ} (h0 : 0 < a) (h1 : a < 1) (e : ℝ) : max e (a * e) = if 0 ≤ e then e else a * e := by
  split_ifs with he
  · -- for e ≥ 0, a * e ≤ e
    exact max_eq_left (by nlinarith)
  · -- for e < 0, e ≤ a * e
    exact max_eq_right (by nlinarith [not_le.mp he])

end Cert.Gat

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.KI.Value0.lean ====
/-
  What the projection region leaves in its three result arrays, as real numbers.

  Point `t` of the projection grid writes back rows `1024 t … 1024 t + 1023` of each result; the eight blocks tile the
  arrays. With the input block, the weight and the two transposed rows read off the region's entry contents, row `i`
  of the first result is `h i · = ∑ k, x i k * W k ·` (a matrix product onto a zero accumulator, the change of format
  the identity), and the other two are the row sums `f1 i = ∑ c, h i c * a1 c` and `f2 i = ∑ c, h i c * a2 c`. For
  real-valued arguments every entry is the coercion of the real sum.
-/
import proofs.«410119_j22316650070323_3_alg».proof.Proof.Gen.KernelIdeal.Launch
import proofs.«410119_j22316650070323_3_alg».proof.Proof.Gen.KernelIdeal.Skeleton
import proofs.«410119_j22316650070323_3_alg».proof.Proof.Gen.KernelIdeal.Points
import proofs.«410119_j22316650070323_3_alg».proof.Proof.KI.Proj
import proofs.«410119_j22316650070323_3_alg».proof.Proof.Spec
import proofs.«410119_j22316650070323_3_alg».proof.Proof.Softmax
import proofs.«410119_j22316650070323_3_alg».proof.Proof.LibDot
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gat Idealize.ShloMosaic.ValueIdx
open scoped BigOperators

variable {α : Type}

/-- A length-`a` array cast to an `a × 1` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The matrix product of the two blocks at a row and a column. -/
theorem k0_pay1_apply (x0 : FVec Ideal S1024x512 .f32) (x1 : FVec Ideal S512x256 .f32) (r : Fin 1024) (q : Fin 256) :
    k0_pay1 (F := Ideal) x0 x1 (ix2 r q) = ∑ κ : Fin 512, x0 (ix2 r κ) * x1 (ix2 κ q) := by
  unfold k0_pay1
  simp only [matmul]
  rw [Cert.LibDot.matmul_rows_apply _ rfl rfl rfl rfl rfl rfl]
  rw [constant_apply, Ideal.ofBits_zero_f32, zero_add]
  rfl

/-- The first payload narrows the product to the half-width format, which changes no ideal value. -/
theorem k0_pay2_apply (x0 : FVec Ideal S1024x512 .f32) (x1 : FVec Ideal S512x256 .f32) (r : Fin 1024) (q : Fin 256) :
    k0_pay2 (F := Ideal) x0 x1 (ix2 r q) = ∑ κ : Fin 512, x0 (ix2 r κ) * x1 (ix2 κ q) := by
  unfold k0_pay2
  exact k0_pay1_apply x0 x1 r q

/-- The lane sum of a 1024 × 256 array at a row. -/
theorem laneSum_apply (v : FVec Ideal S1024x256 .f32) (hacc : (0x00000000#32 : BitVec 32) = 0x00000000#32) (r : Fin 1024) :
    multiReduction (F := Ideal) .add [1] S1024 v 0x00000000#32 reduces_S1024x256_S1024 (.inl rfl) hacc (ix1 r)
      = ∑ q : Fin 256, v (ix2 r q) := by
  refine (Ideal.multiReduction_add_single v 0x00000000#32 reduces_S1024x256_S1024 (.inl rfl) hacc (ix1 r)).trans ?_
  show ∑ q : Fin 256, v (reduces_S1024x256_S1024.lift (ix1 r) q) = _
  refine Finset.sum_congr rfl fun q _ => congrArg v ?_
  funext a
  match a with
  | ⟨0, _⟩ => rfl
  | ⟨1, _⟩ => rfl

/-- The second payload at row `r`: the product's row against the 1 × 256 row, summed over the lane axis. -/
theorem k0_pay3_apply (x0 : FVec Ideal S1024x512 .f32) (x1 : FVec Ideal S512x256 .f32) (x2 : FVec Ideal S1x256 .f32) (r : Fin 1024) :
    k0_pay3 (F := Ideal) x0 x1 x2 (ix2 r (0 : Fin 1))
      = ∑ q : Fin 256, k0_pay1 (F := Ideal) x0 x1 (ix2 r q) * x2 (ix2 (0 : Fin 1) q) := by
  unfold k0_pay3
  refine (shapeCast_a_a1_apply _ _ r 0).trans ?_
  refine (laneSum_apply _ rfl r).trans ?_
  refine Finset.sum_congr rfl fun q _ => ?_
  rw [mulf_apply, broadcastTo_1b_ab_apply, shapeCast_self]

/-- The third payload likewise, against the other row. -/
theorem k0_pay4_apply (x0 : FVec Ideal S1024x512 .f32) (x1 : FVec Ideal S512x256 .f32) (x3 : FVec Ideal S1x256 .f32) (r : Fin 1024) :
    k0_pay4 (F := Ideal) x0 x1 x3 (ix2 r (0 : Fin 1))
      = ∑ q : Fin 256, k0_pay1 (F := Ideal) x0 x1 (ix2 r q) * x3 (ix2 (0 : Fin 1) q) := by
  unfold k0_pay4
  refine (shapeCast_a_a1_apply _ _ r 0).trans ?_
  refine (laneSum_apply _ rfl r).trans ?_
  refine Finset.sum_congr rfl fun q _ => ?_
  rw [mulf_apply, broadcastTo_1b_ab_apply, shapeCast_self]

variable (V : (c : Dev nD) → (b : Ref sig .tc) → Buf (Elt Ideal) ((c : Thread nD τ).loc b))

/-- The row of the array that row `r` of point `t`'s block is. -/
def rowAt (t : Fin cfg0.N) (r : Fin 1024) : Fin 8192 := ⟨1024 * t.val + r.val, by have : t.val < 8 := t.isLt; omega⟩

/-- The index maps over the grid: the row-blocked windows sit at block `(t, 0)`, the whole ones at `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Point `t`'s block of the input is its rows `1024 t … 1024 t + 1023`, all 512 columns. -/
theorem iblk0_0_apply (c : Dev nD) (t : Fin cfg0.N) (r : Fin 1024) (k : Fin 512) :
    iblk0 (F := Ideal) V c 0 t (ix2 r k) = V c main_arg0 (ix2 (rowAt t r) k) := by
  show V c main_arg0 (((cfg0.win 0).blk t).view.emb (ix2 r k)) = V c main_arg0 (ix2 (rowAt t r) k)
  refine congrArg _ ?_
  obtain ⟨e0, e1, -⟩ := idx_facts0 t
  funext a; apply Fin.ext
  match a with
  | ⟨0, _⟩ => show win0_0.index t (0 : Fin 2) * 1024 + 1 * r.val = 1024 * t.val + r.val; omega
  | ⟨1, _⟩ => show win0_0.index t (1 : Fin 2) * 512 + 1 * k.val = k.val; omega

/-- The weight's block is the whole weight at every point, -/
theorem iblk0_1_apply (c : Dev nD) (t : Fin cfg0.N) (k : Fin 512) (q : Fin 256) :
    iblk0 (F := Ideal) V c 1 t (ix2 k q) = V c main_arg2 (ix2 k q) := by
  show V c main_arg2 (((cfg0.win 1).blk t).view.emb (ix2 k q)) = V c main_arg2 (ix2 k q)
  refine congrArg _ ?_
  obtain ⟨-, -, e0, e1, -⟩ := idx_facts0 t
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- and so are the two 1 × 256 rows'. -/
theorem iblk0_2_apply (c : Dev nD) (t : Fin cfg0.N) (u : Fin 1) (q : Fin 256) :
    iblk0 (F := Ideal) V c 2 t (ix2 u q) = V c main_v0 (ix2 u q) := by
  show V c main_v0 (((cfg0.win 2).blk t).view.emb (ix2 u q)) = V c main_v0 (ix2 u q)
  refine congrArg _ ?_
  obtain ⟨-, -, -, -, e0, e1, -⟩ := idx_facts0 t
  funext a; apply Fin.ext
  match a with
  | ⟨0, _⟩ => show win0_2.index t (0 : Fin 2) * 1 + 1 * u.val = u.val; omega
  | ⟨1, _⟩ => show win0_2.index t (1 : Fin 2) * 256 + 1 * q.val = q.val; omega

theorem iblk0_3_apply (c : Dev nD) (t : Fin cfg0.N) (u : Fin 1) (q : Fin 256) :
    iblk0 (F := Ideal) V c 3 t (ix2 u q) = V c main_v1 (ix2 u q) := by
  show V c main_v1 (((cfg0.win 3).blk t).view.emb (ix2 u q)) = V c main_v1 (ix2 u q)
  refine congrArg _ ?_
  obtain ⟨-, -, -, -, -, -, e0, e1, -⟩ := idx_facts0 t
  funext a; apply Fin.ext
  match a with
  | ⟨0, _⟩ => show win0_3.index t (0 : Fin 2) * 1 + 1 * u.val = u.val; omega
  | ⟨1, _⟩ => show win0_3.index t (1 : Fin 2) * 256 + 1 * q.val = q.val; omega

/-- `h = x W` on the extended reals: entry `(p, q)` is `∑ κ, x p κ * W κ q`. -/
def hE (x : FVec Ideal S8192x512 .f32) (W : FVec Ideal S512x256 .f32) (p : Fin 8192) (q : Fin 256) : EReal :=
  ∑ κ : Fin 512, x (ix2 p κ) * W (ix2 κ q)

/-- The row sum `∑ q, h p q * a q` against a 1 × 256 row `a`. -/
def fE (x : FVec Ideal S8192x512 .f32) (W : FVec Ideal S512x256 .f32) (a : FVec Ideal S1x256 .f32) (p : Fin 8192) : EReal :=
  ∑ q : Fin 256, hE x W p q * a (ix2 (0 : Fin 1) q)

/-- The two as whole arrays. -/
def GH (x : FVec Ideal S8192x512 .f32) (W : FVec Ideal S512x256 .f32) : S8192x256.Idx → EReal := fun i => hE x W (i 0) (i 1)
def GF (x : FVec Ideal S8192x512 .f32) (W : FVec Ideal S512x256 .f32) (a : FVec Ideal S1x256 .f32) : S8192x1.Idx → EReal :=
  fun i => fE x W a (i 0)

/-- The product of point `t`'s blocks at `(r, q)` is `h` at row `rowAt t r`. -/
theorem pay1_blk (c : Dev nD) (t : Fin cfg0.N) (r : Fin 1024) (q : Fin 256) :
    k0_pay1 (F := Ideal) (iblk0 V c 0 t) (iblk0 V c 1 t) (ix2 r q) = hE (V c main_arg0) (V c main_arg2) (rowAt t r) q := by
  rw [k0_pay1_apply (iblk0 V c 0 t) (iblk0 V c 1 t) r q]
  unfold hE
  refine Finset.sum_congr rfl fun κ _ => ?_
  rw [iblk0_0_apply, iblk0_1_apply]

/-- What point `t` writes back to the first result is block `t` of `h`. -/
theorem flushed0_4_eq (c : Dev nD) (t : Fin cfg0.N) :
    (dat0 (F := Ideal) V c).flushed 4 t = ((cfg0.win 4).blk t).view.read (Elt Ideal) (GH (V c main_arg0) (V c main_arg2)) := by
  show (cfg0.win 4).cut (grid0.coords t) ((dat0 V c).after 4 t) = _
  rw [after0_4, outH_eq]
  funext j
  obtain ⟨r, q, rfl⟩ : ∃ (r : Fin 1024) (q : Fin 256), j = ix2 r q := ⟨j 0, j 1, eq_ix2 j⟩
  show k0_pay2 (F := Ideal) (iblk0 V c 0 t) (iblk0 V c 1 t) (ix2 r q)
    = GH (V c main_arg0) (V c main_arg2) (((cfg0.win 4).blk t).view.emb (ix2 r q))
  have hemb : ((cfg0.win 4).blk t).view.emb (ix2 r q) = (ix2 (rowAt t r) q : S8192x256.Idx) := by
    obtain ⟨-, -, -, -, -, -, -, -, e0, e1, -⟩ := idx_facts0 t
    funext a; apply Fin.ext
    match a with
    | ⟨0, _⟩ => show win0_4.index t (0 : Fin 2) * 1024 + 1 * r.val = 1024 * t.val + r.val; omega
    | ⟨1, _⟩ => show win0_4.index t (1 : Fin 2) * 256 + 1 * q.val = q.val; omega
  rw [hemb]
  exact pay1_blk V c t r q

/-- For real-valued arguments every entry of `h` is the coercion of the real sum. -/
theorem hE_real (x : FVec Ideal S8192x512 .f32) (W : FVec Ideal S512x256 .f32) (hx : IsReal x) (hW : IsReal W)
    (p : Fin 8192) (q : Fin 256) : hE x W p q = ((hR x W p q : ℝ) : EReal) := by
  unfold hE hR
  rw [coe_sum]
  refine Finset.sum_congr rfl fun κ _ => ?_
  rw [EReal.coe_mul]
  exact congrArg₂ (· * ·) (hx (ix2 p κ)) (hW (ix2 κ q))

/-- Against the transposed 256 × 1 column `a`, the row sum is the coercion of `∑ q, h p q * a q`. -/
theorem fE_real (x : FVec Ideal S8192x512 .f32) (W : FVec Ideal S512x256 .f32) (a : FVec Ideal S256x1 .f32)
    (hx : IsReal x) (hW : IsReal W) (ha : IsReal a) (p : Fin 8192) :
    fE x W (transpose S1x256 [1, 0] a transposes_S256x1_S1x256_1_0) p
      = ((∑ q : Fin 256, hR x W p q * (a (ix2 q (0 : Fin 1))).toReal : ℝ) : EReal) := by
  unfold fE
  rw [coe_sum]
  refine Finset.sum_congr rfl fun q _ => ?_
  rw [hE_real x W hx hW, transpose_ix2_apply, EReal.coe_mul]
  exact congrArg _ (ha (ix2 q (0 : Fin 1)))

/-- What point `t` writes back to the second result is block `t` of the row sums against `main_v0`'s row. -/
theorem flushed0_5_eq (c : Dev nD) (t : Fin cfg0.N) :
    (dat0 (F := Ideal) V c).flushed 5 t
      = ((cfg0.win 5).blk t).view.read (Elt Ideal) (GF (V c main_arg0) (V c main_arg2) (V c main_v0)) := by
  show (cfg0.win 5).cut (grid0.coords t) ((dat0 V c).after 5 t) = _
  rw [after0_5, outF1_eq]
  funext j
  obtain ⟨r, u, rfl⟩ : ∃ (r : Fin 1024) (u : Fin 1), j = ix2 r u := ⟨j 0, j 1, eq_ix2 j⟩
  obtain rfl : u = 0 := Subsingleton.elim _ _
  show k0_pay3 (F := Ideal) (iblk0 V c 0 t) (iblk0 V c 1 t) (iblk0 V c 2 t) (ix2 r (0 : Fin 1))
    = GF (V c main_arg0) (V c main_arg2) (V c main_v0) (((cfg0.win 5).blk t).view.emb (ix2 r (0 : Fin 1)))
  have hemb : ((cfg0.win 5).blk t).view.emb (ix2 r (0 : Fin 1)) = (ix2 (rowAt t r) (0 : Fin 1) : S8192x1.Idx) := by
    obtain ⟨-, -, -, -, -, -, -, -, -, -, e0, e1, -⟩ := idx_facts0 t
    funext a; apply Fin.ext
    match a with
    | ⟨0, _⟩ => show win0_5.index t (0 : Fin 2) * 1024 + 1 * r.val = 1024 * t.val + r.val; omega
    | ⟨1, _⟩ => show win0_5.index t (1 : Fin 2) * 1 + 1 * 0 = 0; omega
  rw [hemb, k0_pay3_apply (iblk0 V c 0 t) (iblk0 V c 1 t) (iblk0 V c 2 t) r]
  show _ = fE (V c main_arg0) (V c main_arg2) (V c main_v0) (rowAt t r)
  unfold fE
  refine Finset.sum_congr rfl fun q _ => ?_
  rw [pay1_blk, iblk0_2_apply]

/-- What point `t` writes back to the third result is block `t` of the row sums against `main_v1`'s row. -/
theorem flushed0_6_eq (c : Dev nD) (t : Fin cfg0.N) :
    (dat0 (F := Ideal) V c).flushed 6 t
      = ((cfg0.win 6).blk t).view.read (Elt Ideal) (GF (V c main_arg0) (V c main_arg2) (V c main_v1)) := by
  show (cfg0.win 6).cut (grid0.coords t) ((dat0 V c).after 6 t) = _
  rw [after0_6, outF2_eq]
  funext j
  obtain ⟨r, u, rfl⟩ : ∃ (r : Fin 1024) (u : Fin 1), j = ix2 r u := ⟨j 0, j 1, eq_ix2 j⟩
  obtain rfl : u = 0 := Subsingleton.elim _ _
  show k0_pay4 (F := Ideal) (iblk0 V c 0 t) (iblk0 V c 1 t) (iblk0 V c 3 t) (ix2 r (0 : Fin 1))
    = GF (V c main_arg0) (V c main_arg2) (V c main_v1) (((cfg0.win 6).blk t).view.emb (ix2 r (0 : Fin 1)))
  have hemb : ((cfg0.win 6).blk t).view.emb (ix2 r (0 : Fin 1)) = (ix2 (rowAt t r) (0 : Fin 1) : S8192x1.Idx) := by
    obtain ⟨-, -, -, -, -, -, -, -, -, -, -, -, e0, e1⟩ := idx_facts0 t
    funext a; apply Fin.ext
    match a with
    | ⟨0, _⟩ => show win0_6.index t (0 : Fin 2) * 1024 + 1 * r.val = 1024 * t.val + r.val; omega
    | ⟨1, _⟩ => show win0_6.index t (1 : Fin 2) * 1 + 1 * 0 = 0; omega
  rw [hemb, k0_pay4_apply (iblk0 V c 0 t) (iblk0 V c 1 t) (iblk0 V c 3 t) r]
  show _ = fE (V c main_arg0) (V c main_arg2) (V c main_v1) (rowAt t r)
  unfold fE
  refine Finset.sum_congr rfl fun q _ => ?_
  rw [pay1_blk, iblk0_3_apply]

/-- An index of a result is in point `t`'s block iff each coordinate is in the block's range on its axis. -/
theorem mem_blk0_4 (t : Fin cfg0.N) (i : S8192x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v2_0).slice (win0_4.rect t)).set ↔ _
  rw [View.set_slice_whole, Rect.mem_set_unit]
  exact Iff.rfl
theorem mem_blk0_5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v2_1).slice (win0_5.rect t)).set ↔ _
  rw [View.set_slice_whole, Rect.mem_set_unit]
  exact Iff.rfl
theorem mem_blk0_6 (t : Fin cfg0.N) (i : S8192x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v2_2).slice (win0_6.rect t)).set ↔ _
  rw [View.set_slice_whole, Rect.mem_set_unit]
  exact Iff.rfl

/-- Row `R` lies in the block of point `R / 1024`: the eight blocks tile each result. -/
theorem cover0_4 (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  have hlt : (i 0).val / 1024 < cfg0.N := by show _ < 8; omega
  refine ⟨⟨(i 0).val / 1024, hlt⟩, flush0_4 _, ?_⟩
  rw [mem_blk0_4]
  obtain ⟨-, -, -, -, -, -, -, -, e0, e1, -⟩ := idx_facts0 ⟨(i 0).val / 1024, hlt⟩
  have ht : (⟨(i 0).val / 1024, hlt⟩ : Fin cfg0.N).val = (i 0).val / 1024 := rfl
  intro a
  match a with
  | ⟨0, _⟩ =>
    show win0_4.index ⟨(i 0).val / 1024, hlt⟩ (0 : Fin 2) * 1024 ≤ (i 0).val
      ∧ (i 0).val < win0_4.index ⟨(i 0).val / 1024, hlt⟩ (0 : Fin 2) * 1024 + 1024
    omega
  | ⟨1, _⟩ =>
    show win0_4.index ⟨(i 0).val / 1024, hlt⟩ (1 : Fin 2) * 256 ≤ (i 1).val
      ∧ (i 1).val < win0_4.index ⟨(i 0).val / 1024, hlt⟩ (1 : Fin 2) * 256 + 256
    omega
theorem cover0_5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hlt : (i 0).val / 1024 < cfg0.N := by show _ < 8; omega
  refine ⟨⟨(i 0).val / 1024, hlt⟩, flush0_5 _, ?_⟩
  rw [mem_blk0_5]
  obtain ⟨-, -, -, -, -, -, -, -, -, -, e0, e1, -⟩ := idx_facts0 ⟨(i 0).val / 1024, hlt⟩
  have ht : (⟨(i 0).val / 1024, hlt⟩ : Fin cfg0.N).val = (i 0).val / 1024 := rfl
  intro a
  match a with
  | ⟨0, _⟩ =>
    show win0_5.index ⟨(i 0).val / 1024, hlt⟩ (0 : Fin 2) * 1024 ≤ (i 0).val
      ∧ (i 0).val < win0_5.index ⟨(i 0).val / 1024, hlt⟩ (0 : Fin 2) * 1024 + 1024
    omega
  | ⟨1, _⟩ =>
    show win0_5.index ⟨(i 0).val / 1024, hlt⟩ (1 : Fin 2) * 1 ≤ (i 1).val
      ∧ (i 1).val < win0_5.index ⟨(i 0).val / 1024, hlt⟩ (1 : Fin 2) * 1 + 1
    omega
theorem cover0_6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hlt : (i 0).val / 1024 < cfg0.N := by show _ < 8; omega
  refine ⟨⟨(i 0).val / 1024, hlt⟩, flush0_6 _, ?_⟩
  rw [mem_blk0_6]
  obtain ⟨-, -, -, -, -, -, -, -, -, -, -, -, e0, e1⟩ := idx_facts0 ⟨(i 0).val / 1024, hlt⟩
  have ht : (⟨(i 0).val / 1024, hlt⟩ : Fin cfg0.N).val = (i 0).val / 1024 := rfl
  intro a
  match a with
  | ⟨0, _⟩ =>
    show win0_6.index ⟨(i 0).val / 1024, hlt⟩ (0 : Fin 2) * 1024 ≤ (i 0).val
      ∧ (i 0).val < win0_6.index ⟨(i 0).val / 1024, hlt⟩ (0 : Fin 2) * 1024 + 1024
    omega
  | ⟨1, _⟩ =>
    show win0_6.index ⟨(i 0).val / 1024, hlt⟩ (1 : Fin 2) * 1 ≤ (i 1).val
      ∧ (i 1).val < win0_6.index ⟨(i 0).val / 1024, hlt⟩ (1 : Fin 2) * 1 + 1
    omega

/-- The three result arrays after the region's eight points. -/
theorem arr0_4 (c : Dev nD) : (dat0 (F := Ideal) V c).arrAt 4 cfg0.N = GH (V c main_arg0) (V c main_arg2) :=
  (dat0 (F := Ideal) V c).arrAt_eq_of_cover 4 _ (fun t _ => flushed0_4_eq V c t) cover0_4
theorem arr0_5 (c : Dev nD) : (dat0 (F := Ideal) V c).arrAt 5 cfg0.N = GF (V c main_arg0) (V c main_arg2) (V c main_v0) :=
  (dat0 (F := Ideal) V c).arrAt_eq_of_cover 5 _ (fun t _ => flushed0_5_eq V c t) cover0_5
theorem arr0_6 (c : Dev nD) : (dat0 (F := Ideal) V c).arrAt 6 cfg0.N = GF (V c main_arg0) (V c main_arg2) (V c main_v1) :=
  (dat0 (F := Ideal) V c).arrAt_eq_of_cover 6 _ (fun t _ => flushed0_6_eq V c t) cover0_6

/-- The first result array after the region: `h = x W`. -/
theorem proj_h (c : Dev nD) (x : FVec Ideal S8192x512 .f32) (W : FVec Ideal S512x256 .f32)
    (hV0 : V c main_arg0 = x) (hV2 : V c main_arg2 = W) (hx : IsReal x) (hW : IsReal W) (i : Fin 8192) (q : Fin 256) :
    (dat0 (F := Ideal) V c).arrAt 4 cfg0.N (ix2 i q) = ((hR x W i q : ℝ) : EReal) := by
  rw [arr0_4 V c, hV0, hV2]
  exact hE_real x W hx hW i q

/-- The second: `f1 = h a1`, the region finding `a1` transposed in `main_v0`. -/
theorem proj_f1 (c : Dev nD) (x : FVec Ideal S8192x512 .f32) (W : FVec Ideal S512x256 .f32) (a1 : FVec Ideal S256x1 .f32)
    (hV0 : V c main_arg0 = x) (hV2 : V c main_arg2 = W)
    (hV3 : V c main_v0 = transpose S1x256 [1, 0] a1 transposes_S256x1_S1x256_1_0)
    (hx : IsReal x) (hW : IsReal W) (h1 : IsReal a1) (i : Fin 8192) :
    (dat0 (F := Ideal) V c).arrAt 5 cfg0.N (ix2 i (0 : Fin 1)) = ((f1R x W a1 i : ℝ) : EReal) := by
  rw [arr0_5 V c, hV0, hV2, hV3]
  exact fE_real x W a1 hx hW h1 i

/-- The third: `f2 = h a2`, the region finding `a2` transposed in `main_v1`. -/
theorem proj_f2 (c : Dev nD) (x : FVec Ideal S8192x512 .f32) (W : FVec Ideal S512x256 .f32) (a2 : FVec Ideal S256x1 .f32)
    (hV0 : V c main_arg0 = x) (hV2 : V c main_arg2 = W)
    (hV4 : V c main_v1 = transpose S1x256 [1, 0] a2 transposes_S256x1_S1x256_1_0)
    (hx : IsReal x) (hW : IsReal W) (h2 : IsReal a2) (i : Fin 8192) :
    (dat0 (F := Ideal) V c).arrAt 6 cfg0.N (ix2 i (0 : Fin 1)) = ((f2R x W a2 i : ℝ) : EReal) := by
  rw [arr0_6 V c, hV0, hV2, hV4]
  exact fE_real x W a2 hx hW h2 i

end Cert.KernelIdeal.Hand

end
-- ==== Proof.Consts.lean ====
/-
  The float constants the two programs spell, as the extended reals their patterns denote, and the reading of
  the precondition: every float argument array holds real numbers only.
-/
import proofs.«410119_j22316650070323_3_alg».proof.Proof.Spec
import proofs.«410119_j22316650070323_3_alg».proof.Proof.Gen.Pre_finite_inputs
import Idealize.ShloMosaic.PureOps.Ideal.Laws
import Idealize.ShloMosaic.Lib.ReduceAll

noncomputable section

namespace Cert.Gat

open Idealize.ShloMosaic

/-- `0.2` in single precision is a real number strictly between 0 and 1. -/
theorem slope_real : ∃ a : ℝ, slope = (a : EReal) ∧ 0 < a ∧ a < 1 := by
  -- sign 0, exponent 124, significand 2^23 + 5033165: the real 13421773 / 2^26
  refine ⟨13421773 / 67108864, ?_, by norm_num, by norm_num⟩
  unfold slope
  simp [Ideal.ofBits, Ideal.ieee, -EReal.coe_mul]
  norm_num

/-- `-9e15` in single precision is a (finite) real number. -/
theorem negBig_real : negBig = ((negBig.toReal : ℝ) : EReal) := by
  -- sign 1, exponent 179, not all ones: the pattern denotes the negative of a real
  have h : ∃ r : ℝ, negBig = (r : EReal) := by
    unfold negBig
    simp [Ideal.ofBits, Ideal.ieee, -EReal.coe_mul]
    exact ⟨_, (EReal.coe_neg _).symm⟩
  obtain ⟨r, hr⟩ := h
  rw [hr, EReal.toReal_coe]

/-- `1.0` denotes `1`, the pattern of `-inf` denotes `⊥`. -/
theorem ofBits_one : Ideal.ofBits .f32 0x3F800000#32 = 1 := by
  simp [Ideal.ofBits, Ideal.ieee, -EReal.coe_mul]; norm_num
theorem ofBits_ninf : Ideal.ofBits .f32 0xFF800000#32 = ⊥ := by
  simp [Ideal.ofBits, Ideal.ieee]

/-- The pattern of `+inf` denotes `⊤`. -/
theorem ofBits_pinf : Ideal.ofBits .f32 0x7F800000#32 = ⊤ := by
  simp [Ideal.ofBits, Ideal.ieee]

/-- An extended real whose absolute value `max x (-x)` lies below `⊤` is a real number: at `⊥` and at `⊤`
    the absolute value is `⊤`. -/
theorem eq_coe_toReal_of_abs_lt_top (x : EReal) (h : max x (-x) < ⊤) : x = ((x.toReal : ℝ) : EReal) := by
  induction x using EReal.rec with
  | bot => simp at h
  | coe r => rfl
  | top => simp at h

/-- If the conjunction over all entries of `|v| < +inf` came out true, every entry of `v` is a real number. -/
theorem isReal_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
      (cmpf .olt (Host.absf v) (broadcastInDim s ![] hb (constant Cert.Pre_finite_inputs.S_ .f32 0x7F800000#32)))
      init hr hu ValueIdx.ix0 = 1#1) : IsReal v := by
  intro i
  -- the scalar shape has one index
  haveI : Subsingleton Cert.Pre_finite_inputs.S_.Idx := ⟨fun a b => funext fun d => d.elim0⟩
  -- the conjunction is true, so each conjunct is: the comparison at `i` came out true
  have h1 := Host.reduce_andi_all _ init hr hu _ e i
  refine eq_coe_toReal_of_abs_lt_top (v i) ?_
  -- the comparison at `i` is `max (v i) (-v i) < ⊤`
  simp only [cmpf, Host.absf, broadcastInDim, constant, Ideal.hostAbsf_def, Ideal.absf_def, Ideal.cmpf_def,
    Ideal.ofBits_def, ofBits_pinf, Ideal.cmp] at h1
  by_contra hn
  rw [decide_eq_false hn] at h1
  exact absurd h1 (by decide)

/-- Under the precondition (every float argument finite) the four float arrays hold real numbers. -/
theorem real_of_pre (x : FVec Ideal Cert.Pre_finite_inputs.S8192x512 .f32) (adj : IVec Cert.Pre_finite_inputs.S8192x8192 32)
    (W : FVec Ideal Cert.Pre_finite_inputs.S512x256 .f32) (a1 a2 : FVec Ideal Cert.Pre_finite_inputs.S256x1 .f32)
    (h : Cert.Pre_finite_inputs.fn (F := Ideal) x adj W a1 a2 = fun _ => 1#1) :
    IsReal x ∧ IsReal W ∧ IsReal a1 ∧ IsReal a2 := by
  have h0 := congrFun h ValueIdx.ix0
  dsimp only [Cert.Pre_finite_inputs.fn, Cert.Pre_finite_inputs.fn_part1, andi] at h0
  -- a conjunction of four that is true: each of the four is
  obtain ⟨h123, h4⟩ := IntOp.andi_eq_one.1 h0
  obtain ⟨h12, h3⟩ := IntOp.andi_eq_one.1 h123
  obtain ⟨h1, h2⟩ := IntOp.andi_eq_one.1 h12
  exact ⟨isReal_of_all x _ _ _ _ h1, isReal_of_all W _ _ _ _ h2, isReal_of_all a1 _ _ _ _ h3,
    isReal_of_all a2 _ _ _ _ h4⟩

end Cert.Gat

end
-- ==== Proof.KI.AttnPay.lean ====
/-
  One point's update of the attention kernel, read entry by entry on the extended reals.

  With `b0` the point's 1024 rows of `f1`, `b1` its 1024 columns of `f2`, `b2` its adjacency block and `hb` its 1024
  rows of `h`: the masked score of local row `r` against local column `k` is the leaky rectifier of `b0 r + b1 k` where
  the adjacency entry is positive and the large negative constant elsewhere; the new maximum is the larger of the old
  one and the row's greatest score; the denominator and the numerators are rescaled by `exp (old - new)` and receive
  the block's terms `exp (score - new)`, the numerators' weighted by the rows of `h`. The last point's output is the
  exponential linear unit of numerator over denominator. The reset values are `⊥`, `0`, `0`.
-/
import proofs.«410119_j22316650070323_3_alg».proof.Proof.Gen.KernelIdeal.Launch
import proofs.«410119_j22316650070323_3_alg».proof.Proof.Gen.KernelIdeal.Skeleton
import proofs.«410119_j22316650070323_3_alg».proof.Proof.Gen.KernelIdeal.Points
import proofs.«410119_j22316650070323_3_alg».proof.Proof.KI.Attn
import proofs.«410119_j22316650070323_3_alg».proof.Proof.Spec
import proofs.«410119_j22316650070323_3_alg».proof.Proof.Softmax
import proofs.«410119_j22316650070323_3_alg».proof.Proof.Consts
import proofs.«410119_j22316650070323_3_alg».proof.Proof.LibDot
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gat Idealize.ShloMosaic.ValueIdx
open scoped BigOperators

/-! ## Layout operations of a column read at an index -/

section Layout
variable {α : Type}

/-- An `[a, 1]` column broadcast to `[a, b]` reads, at `(p, c)`, the column's entry of row `p`. -/
theorem ap_broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the `[a, 1]` column reads, at `(i, u)`, the vector's entry `i`. -/
theorem ap_shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The lane reductions of a square block read at a row -/

section Reductions

/-- The index a lane reduction of a `1024 × 1024` block inserts coordinate `k` at, from row `r`, is `(r, k)`. -/
theorem ap_lift_row (h : S1024x1024.Reduces [1] S1024) (r k : Fin 1024) : h.lift (ix1 r) k = ix2 r k :=
  funext fun a => Fin.ext (match a with | ⟨0, _⟩ => rfl | ⟨1, _⟩ => rfl)

/-- The lane SUM of a block at row `r` is the sum of the row's entries. -/
theorem ap_rowSum_apply (src : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ k : Fin 1024, src (ix2 r k) := by
  refine (Ideal.multiReduction_add_single src 0x00000000#32 h hφ hacc (ix1 r)).trans ?_
  exact Finset.sum_congr rfl fun k _ => congrArg src (ap_lift_row h r k)

/-- The lane MAXIMUM of a block at row `r`, taken from `-∞`, is the supremum of the row's entries. -/
theorem ap_rowMax_apply (src : FVec Ideal S1024x1024 .f32) (h : S1024x1024.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = Finset.univ.sup fun k : Fin 1024 => src (ix2 r k) := by
  refine (Ideal.multiReduction_maximumf_single src 0xFF800000#32 h hφ hacc (ix1 r)).trans ?_
  have hf : (src ∘ h.lift (ix1 r)) = fun k : Fin 1024 => src (ix2 r k) := funext fun k => congrArg src (ap_lift_row h r k)
  rw [hf, Ideal.ofBits_def, ofBits_ninf]
  rfl

end Reductions

/-- The exponential linear unit as the kernel spells it: `y` where the comparison `y > 0` holds, `exp y - 1` elsewhere. -/
theorem ap_select_ogt_zero (y : EReal) : Scalar.select (Ideal.cmp .ogt y 0) y (Ideal.exp y - 1) = eluE y := by
  unfold eluE
  by_cases h : 0 < y
  · have hc : Ideal.cmp .ogt y 0 = 1#1 := by simp [Ideal.cmp, h]
    rw [if_pos h, hc, select_one]
  · have hc : Ideal.cmp .ogt y 0 = 0#1 := by simp [Ideal.cmp, h]
    rw [if_neg h, hc, select_zero]

/-- The exponential of a vector, read at an index. -/
theorem ap_exp_apply {s : Shape} {φ : FTy} (a : FVec Ideal s φ) (i : s.Idx) : exp a i = Ideal.exp (a i) := rfl

section
variable (b0 : Vec Ideal S1024x1 .f32) (b1 : Vec Ideal S1x1024 .f32) (b2 : Vec Ideal S1024x1024 .i32)
  (hb : Vec Ideal S1024x256 .bf16) (ms ls : Vec Ideal S1024x1 .f32) (acs : Vec Ideal S1024x256 .f32)

/-- The masked score of the block's row `r` against its column `k`. -/
def sc (r k : Fin 1024) : EReal :=
  if edge (b2 (ix2 r k)) then
    max (b0 (ix2 r (0 : Fin 1)) + b1 (ix2 (0 : Fin 1) k)) (slope * (b0 (ix2 r (0 : Fin 1)) + b1 (ix2 (0 : Fin 1) k)))
  else negBig

theorem pay7_apply (r k : Fin 1024) : k1_pay7 (F := Ideal) b0 b1 b2 (ix2 r k) = sc b0 b1 b2 r k := by
  unfold k1_pay7 sc
  rw [shapeCast_self, shapeCast_self, select_apply, maximumf_apply, mulf_apply, addf_apply, broadcast_apply, broadcast_apply,
    ap_broadcastTo_a1_ab_apply, broadcastTo_1b_ab_apply]
  rfl

/-- The new running maximum of row `r`. -/
def mNew (r : Fin 1024) : EReal :=
  max (ms (ix2 r (0 : Fin 1))) (Finset.univ.sup fun k : Fin 1024 => sc b0 b1 b2 r k)

/-- The running maximum before its cast to the stored column: the old one against the row's greatest score. -/
theorem ap_pay8_apply (r : Fin 1024) : k1_pay8 (F := Ideal) b0 b1 b2 ms (ix2 r (0 : Fin 1)) = mNew b0 b1 b2 ms r := by
  unfold k1_pay8 mNew
  rw [maximumf_apply, ap_shapeCast_a_a1_apply, ap_rowMax_apply]
  simp only [pay7_apply]

theorem stepM_apply (r : Fin 1024) : stepM (F := Ideal) b0 b1 b2 ms (ix2 r (0 : Fin 1)) = mNew b0 b1 b2 ms r := by
  unfold stepM k1_pay2
  rw [shapeCast_self]
  exact ap_pay8_apply b0 b1 b2 ms r

/-- The factor the old denominator and numerators are rescaled by. -/
theorem ap_pay9_apply (r : Fin 1024) :
    k1_pay9 (F := Ideal) b0 b1 b2 ms ms (ix2 r (0 : Fin 1)) = Ideal.exp (ms (ix2 r (0 : Fin 1)) - mNew b0 b1 b2 ms r) := by
  unfold k1_pay9
  rw [ap_exp_apply, subf_apply, ap_pay8_apply]

/-- The block's term of row `r` at column `k`. -/
theorem ap_pay10_apply (r k : Fin 1024) :
    k1_pay10 (F := Ideal) b0 b1 b2 ms (ix2 r k) = Ideal.exp (sc b0 b1 b2 r k - mNew b0 b1 b2 ms r) := by
  unfold k1_pay10
  rw [ap_exp_apply, subf_apply, ap_broadcastTo_a1_ab_apply, pay7_apply, ap_pay8_apply]

theorem stepL_apply (r : Fin 1024) :
    stepL (F := Ideal) b0 b1 b2 ms ls (ix2 r (0 : Fin 1))
      = Ideal.exp (ms (ix2 r (0 : Fin 1)) - mNew b0 b1 b2 ms r) * ls (ix2 r (0 : Fin 1))
        + ∑ k : Fin 1024, Ideal.exp (sc b0 b1 b2 r k - mNew b0 b1 b2 ms r) := by
  unfold stepL k1_pay11
  rw [shapeCast_self, addf_apply, mulf_apply, ap_shapeCast_a_a1_apply, ap_rowSum_apply, ap_pay9_apply]
  simp only [ap_pay10_apply]

theorem stepA_apply (r : Fin 1024) (q : Fin 256) :
    stepA (F := Ideal) b0 b1 b2 hb ms acs (ix2 r q)
      = Ideal.exp (ms (ix2 r (0 : Fin 1)) - mNew b0 b1 b2 ms r) * acs (ix2 r q)
        + ∑ k : Fin 1024, Ideal.exp (sc b0 b1 b2 r k - mNew b0 b1 b2 ms r) * hb (ix2 k q) := by
  unfold stepA k1_pay1
  rw [shapeCast_self, shapeCast_self, addf_apply, mulf_apply, ap_broadcastTo_a1_ab_apply, ap_pay9_apply]
  congr 1
  -- the block product into the zero accumulator is the sum over the contraction index
  refine (Cert.LibDot.matmul_rows_apply dot_S1024x1024_S1024x256_S1024x256_1_0_0_1_n_n rfl rfl rfl rfl rfl rfl none _ _ _ r q).trans ?_
  rw [constant_apply, Ideal.ofBits_zero_f32, zero_add]
  exact Finset.sum_congr rfl fun k _ => by rw [truncf_apply, ap_pay10_apply]

theorem pay3_apply (r : Fin 1024) (q : Fin 256) :
    k1_pay3 (F := Ideal) acs ls (ix2 r q) = eluE (Ideal.div (acs (ix2 r q)) (ls (ix2 r (0 : Fin 1)))) := by
  unfold k1_pay3
  rw [select_apply, cmpf_apply, divf_apply, subf_apply, ap_exp_apply, divf_apply, broadcast_apply, broadcast_apply, ap_broadcastTo_a1_ab_apply,
    Ideal.ofBits_def, Ideal.ofBits_def, Ideal.ofBits_zero_f32, ofBits_one, Ideal.cmpf_def]
  exact ap_select_ogt_zero _

theorem pay4_apply (r : Fin 1024) : k1_pay4 (F := Ideal) (ix2 r (0 : Fin 1)) = ⊥ := by
  unfold k1_pay4
  rw [shapeCast_self]
  exact ofBits_ninf
theorem pay5_apply (r : Fin 1024) : k1_pay5 (F := Ideal) (ix2 r (0 : Fin 1)) = 0 := by
  unfold k1_pay5
  rw [shapeCast_self]
  exact Ideal.ofBits_zero_f32
theorem pay6_apply (r : Fin 1024) (q : Fin 256) : k1_pay6 (F := Ideal) (ix2 r q) = 0 := by
  unfold k1_pay6
  rw [shapeCast_self]
  exact Ideal.ofBits_zero_f32

end

end Cert.KernelIdeal.Hand

end
-- ==== Proof.KI.AttnBlk.lean ====
/-
  The geometry of the attention region: which entries of its arrays a grid point's blocks are, and which point's
  output buffer each entry of the result array comes from.

  Point `t` of the 8 × 8 grid is row block `t / 8` against column block `t % 8`: local row `r` is global row
  `1024 (t / 8) + r`, local column `k` global column `1024 (t % 8) + k`. The output window's block index depends on the
  row block only; it is written back at the last point of each row block, and those eight blocks tile the result.
-/
import proofs.«410119_j22316650070323_3_alg».proof.Proof.Gen.KernelIdeal.Launch
import proofs.«410119_j22316650070323_3_alg».proof.Proof.Gen.KernelIdeal.Skeleton
import proofs.«410119_j22316650070323_3_alg».proof.Proof.Gen.KernelIdeal.Points
import proofs.«410119_j22316650070323_3_alg».proof.Proof.KI.Attn
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The global row of local row `r` at point `t`, and the global column of local column `k`. -/
def rowOf (t : Fin cfg1.N) (r : Fin 1024) : Fin 8192 :=
  ⟨1024 * (t.val / 8) + r.val, by have h : t.val < 64 := lt_of_lt_of_eq t.isLt N_1; omega⟩
def colOf (t : Fin cfg1.N) (k : Fin 1024) : Fin 8192 :=
  ⟨1024 * (t.val % 8) + k.val, by omega⟩

/-- The printed index maps, decided over the 64 points: window 0 is at block `(t / 8, 0)`,
    window 1 at `(0, t % 8)`, window 2 at `(t / 8, t % 8)`, window 3 at `(0, 0)`, window 4 at `(t / 8, 0)`. -/
private theorem idx1_facts : ∀ t : Fin cfg1.N,
    win1_0.index t (0 : Fin 2) = t.val / 8 ∧ win1_0.index t (1 : Fin 2) = 0
  ∧ win1_1.index t (0 : Fin 2) = 0 ∧ win1_1.index t (1 : Fin 2) = t.val % 8
  ∧ win1_2.index t (0 : Fin 2) = t.val / 8 ∧ win1_2.index t (1 : Fin 2) = t.val % 8
  ∧ win1_3.index t (0 : Fin 2) = 0 ∧ win1_3.index t (1 : Fin 2) = 0
  ∧ win1_4.index t (0 : Fin 2) = t.val / 8 ∧ win1_4.index t (1 : Fin 2) = 0 :=
  (by decide +kernel : ∀ t : Fin grid1.N, _)

/-- The rows of the resident array the body loads start at row `1024 (t % 8)`, column 0. -/
private theorem off1_facts : ∀ t : Fin cfg1.N, k1_off1 (grid1.coords t) 0 = 1024 * (t.val % 8) ∧ k1_off1 (grid1.coords t) 1 = 0 :=
  (by decide +kernel : ∀ t : Fin grid1.N, k1_off1 (grid1.coords t) 0 = 1024 * (t.val % 8) ∧ k1_off1 (grid1.coords t) 1 = 0)

section
variable (V : (c : Dev nD) → (b : Ref sig .tc) → Buf (Elt F) ((c : Thread nD τ).loc b))

theorem iblk1_0_apply (c : Dev nD) (t : Fin cfg1.N) (r : Fin 1024) :
    iblk1 V c 0 t (ix2 r (0 : Fin 1)) = V c main_v2_1 (ix2 (rowOf t r) (0 : Fin 1)) := by
  obtain ⟨e0, e1, -⟩ := idx1_facts t
  show V c main_v2_1 (((cfg1.win 0).blk t).view.emb (ix2 r (0 : Fin 1))) = V c main_v2_1 (ix2 (rowOf t r) (0 : Fin 1))
  congr 1
  funext a; apply Fin.ext
  match a with
  | ⟨0, _⟩ => show win1_0.index t (0 : Fin 2) * 1024 + 1 * r.val = 1024 * (t.val / 8) + r.val; omega
  | ⟨1, _⟩ => show win1_0.index t (1 : Fin 2) * 1 + 1 * 0 = 0; omega
theorem iblk1_1_apply (c : Dev nD) (t : Fin cfg1.N) (k : Fin 1024) :
    iblk1 V c 1 t (ix2 (0 : Fin 1) k) = V c main_v3 (ix2 (0 : Fin 1) (colOf t k)) := by
  obtain ⟨-, -, e0, e1, -⟩ := idx1_facts t
  show V c main_v3 (((cfg1.win 1).blk t).view.emb (ix2 (0 : Fin 1) k)) = V c main_v3 (ix2 (0 : Fin 1) (colOf t k))
  congr 1
  funext a; apply Fin.ext
  match a with
  | ⟨0, _⟩ => show win1_1.index t (0 : Fin 2) * 1 + 1 * 0 = 0; omega
  | ⟨1, _⟩ => show win1_1.index t (1 : Fin 2) * 1024 + 1 * k.val = 1024 * (t.val % 8) + k.val; omega
theorem iblk1_2_apply (c : Dev nD) (t : Fin cfg1.N) (r k : Fin 1024) :
    iblk1 V c 2 t (ix2 r k) = V c main_arg1 (ix2 (rowOf t r) (colOf t k)) := by
  obtain ⟨-, -, -, -, e0, e1, -⟩ := idx1_facts t
  show V c main_arg1 (((cfg1.win 2).blk t).view.emb (ix2 r k)) = V c main_arg1 (ix2 (rowOf t r) (colOf t k))
  congr 1
  funext a; apply Fin.ext
  match a with
  | ⟨0, _⟩ => show win1_2.index t (0 : Fin 2) * 1024 + 1 * r.val = 1024 * (t.val / 8) + r.val; omega
  | ⟨1, _⟩ => show win1_2.index t (1 : Fin 2) * 1024 + 1 * k.val = 1024 * (t.val % 8) + k.val; omega
theorem hrows_apply (c : Dev nD) (t : Fin cfg1.N) (k : Fin 1024) (q : Fin 256) :
    hrows (grid1.coords t) (iblk1 V c 3 t) (ix2 k q) = V c main_v2_0 (ix2 (colOf t k) q) := by
  obtain ⟨-, -, -, -, -, -, e0, e1, -⟩ := idx1_facts t
  obtain ⟨o0, o1⟩ := off1_facts t
  show V c main_v2_0 (((cfg1.win 3).blk t).view.emb
      ((Rect.unit (s := S8192x256) (k1_off1 (grid1.coords t)) S1024x256.size (k1_off1_inb (grid1.coords t))).emb (ix2 k q)))
    = V c main_v2_0 (ix2 (colOf t k) q)
  congr 1
  funext a; apply Fin.ext
  match a with
  | ⟨0, _⟩ =>
    show win1_3.index t (0 : Fin 2) * 8192 + 1 * (k1_off1 (grid1.coords t) 0 + 1 * k.val) = 1024 * (t.val % 8) + k.val; omega
  | ⟨1, _⟩ =>
    show win1_3.index t (1 : Fin 2) * 256 + 1 * (k1_off1 (grid1.coords t) 1 + 1 * q.val) = q.val; omega

/-- An entry of the result array is in point `t`'s output block iff each coordinate is in the block's range. -/
private theorem mem_blk1_4 (t : Fin cfg1.N) (i : S8192x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v4).slice (win1_4.rect t)).set ↔ _
  rw [View.set_slice_whole, Rect.mem_set_unit]
  exact Iff.rfl

/-- Two different points that write the output back are the last points of two different row blocks, whose rows
    do not meet. -/
private theorem disj1_4 (t t' : Fin cfg1.N) (hf : (cfg1.win 4).flush t = true) (hf' : (cfg1.win 4).flush t' = true) (hne : t ≠ t') :
    Disjoint ((cfg1.win 4).blk t).view.set ((cfg1.win 4).blk t').view.set := by
  rw [Finset.disjoint_left]
  intro i hi hi'
  rw [mem_blk1_4] at hi hi'
  have b : win1_4.index t (0 : Fin 2) * 1024 ≤ (i 0).val ∧ (i 0).val < win1_4.index t (0 : Fin 2) * 1024 + 1024 := hi 0
  have b' : win1_4.index t' (0 : Fin 2) * 1024 ≤ (i 0).val ∧ (i 0).val < win1_4.index t' (0 : Fin 2) * 1024 + 1024 := hi' 0
  obtain ⟨-, -, -, -, -, -, -, -, e, -⟩ := idx1_facts t
  obtain ⟨-, -, -, -, -, -, -, -, e', -⟩ := idx1_facts t'
  have h7 := (flush1_4 t).mp hf
  have h7' := (flush1_4 t').mp hf'
  have hv : t.val ≠ t'.val := fun h => hne (Fin.ext h)
  omega

/-- The result array, at a row of row block `t / 8`, is what the block's last point left in the output buffer. -/
theorem arrAt4_apply (c : Dev nD) (t : Fin cfg1.N) (ht : t.val % 8 = 7) (r : Fin 1024) (q : Fin 256) :
    (dat1 V c).arrAt 4 cfg1.N (ix2 (rowOf t r) q) = (outsAt1 V c t.val t.isLt).1 (ix2 r q) := by
  have hf : (cfg1.win 4).flush t = true := (flush1_4 t).mpr ht
  have hemb : (ix2 (rowOf t r) q : S8192x256.Idx) = ((cfg1.win 4).blk t).view.emb (ix2 r q) := by
    obtain ⟨-, -, -, -, -, -, -, -, e0, e1⟩ := idx1_facts t
    funext a; apply Fin.ext
    match a with
    | ⟨0, _⟩ => show 1024 * (t.val / 8) + r.val = win1_4.index t (0 : Fin 2) * 1024 + 1 * r.val; omega
    | ⟨1, _⟩ => show q.val = win1_4.index t (1 : Fin 2) * 256 + 1 * q.val; omega
  refine (congrArg ((dat1 V c).arrAt 4 cfg1.N) hemb).trans ?_
  rw [(dat1 V c).arrAt_emb_eq_flushed 4 disj1_4 t hf (ix2 r q)]
  show (dat1 V c).after 4 t (ix2 r q) = _
  rw [after1_4]

end

end Cert.KernelIdeal.Hand

end
-- ==== Proof.KI.Value1.lean ====
/-
  What the attention region leaves in the result array, for real-valued entry contents.

  Row block `i` is visited at the eight points `8 i … 8 i + 7`, one column block of 1024 columns each. After point
  `8 i + k` the three scratch buffers hold, for each of the block's rows, the running maximum, denominator and
  numerators of the softmax over the columns `< 1024 (k + 1)`: by induction on the point, one update being one more
  block of columns. At `k = 7` all columns are seen, the stored quotient is the softmax-weighted average and the output
  block is its exponential linear unit; these blocks, written back at the points `≡ 7 (mod 8)`, tile the array.
-/
import proofs.«410119_j22316650070323_3_alg».proof.Proof.Gen.KernelIdeal.Launch
import proofs.«410119_j22316650070323_3_alg».proof.Proof.Gen.KernelIdeal.Skeleton
import proofs.«410119_j22316650070323_3_alg».proof.Proof.Gen.KernelIdeal.Points
import proofs.«410119_j22316650070323_3_alg».proof.Proof.KI.Attn
import proofs.«410119_j22316650070323_3_alg».proof.Proof.KI.AttnPay
import proofs.«410119_j22316650070323_3_alg».proof.Proof.KI.AttnBlk
import proofs.«410119_j22316650070323_3_alg».proof.Proof.Spec
import proofs.«410119_j22316650070323_3_alg».proof.Proof.Softmax
import proofs.«410119_j22316650070323_3_alg».proof.Proof.Consts
import proofs.«410119_j22316650070323_3_alg».proof.Proof.LibDot
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gat Idealize.ShloMosaic.ValueIdx

variable (V : (c : Dev nD) → (b : Ref sig .tc) → Buf (Elt Ideal) ((c : Thread nD τ).loc b))

open scoped BigOperators

/-! ## Sets of columns -/

/-- The columns below `n`. -/
def v1_colsLt (n : ℕ) : Finset (Fin 8192) := Finset.univ.filter fun j => j.val < n

theorem v1_mem_colsLt (n : ℕ) (j : Fin 8192) : j ∈ v1_colsLt n ↔ j.val < n := by
  simp [v1_colsLt]

theorem v1_colOf_injective (t : Fin cfg1.N) : Function.Injective (colOf t) := by
  intro a b h
  have h' := congrArg Fin.val h
  simp only [colOf] at h'
  exact Fin.ext (by omega)

/-- The columns of the column block of point `t`. -/
def v1_blkCols (t : Fin cfg1.N) : Finset (Fin 8192) := Finset.univ.map ⟨colOf t, v1_colOf_injective t⟩

theorem v1_mem_blkCols (t : Fin cfg1.N) (j : Fin 8192) :
    j ∈ v1_blkCols t ↔ 1024 * (t.val % 8) ≤ j.val ∧ j.val < 1024 * (t.val % 8 + 1) := by
  unfold v1_blkCols
  rw [Finset.mem_map]
  constructor
  · rintro ⟨k, -, rfl⟩
    have hk := k.isLt
    simp only [Function.Embedding.coeFn_mk, colOf]
    omega
  · rintro ⟨h1, h2⟩
    refine ⟨⟨j.val - 1024 * (t.val % 8), by omega⟩, Finset.mem_univ _, ?_⟩
    apply Fin.ext
    simp only [Function.Embedding.coeFn_mk, colOf]
    omega

theorem v1_blkCols_nonempty (t : Fin cfg1.N) : (v1_blkCols t).Nonempty :=
  Finset.univ_nonempty.map

theorem v1_colsLt_disjoint (t : Fin cfg1.N) : Disjoint (v1_colsLt (1024 * (t.val % 8))) (v1_blkCols t) := by
  rw [Finset.disjoint_left]
  intro j h1 h2
  rw [v1_mem_colsLt] at h1
  rw [v1_mem_blkCols] at h2
  omega

theorem v1_colsLt_union (t : Fin cfg1.N) :
    v1_colsLt (1024 * (t.val % 8)) ∪ v1_blkCols t = v1_colsLt (1024 * (t.val % 8 + 1)) := by
  ext j
  rw [Finset.mem_union, v1_mem_colsLt, v1_mem_colsLt, v1_mem_blkCols]
  omega

theorem v1_colsLt_zero : v1_colsLt 0 = ∅ := by
  ext j
  rw [v1_mem_colsLt]
  simp

theorem v1_colsLt_all : v1_colsLt 8192 = Finset.univ := by
  ext j
  rw [v1_mem_colsLt]
  simp [j.isLt]

/-! ## Readings on the extended reals -/

/-- The larger of two real numbers read on the extended reals is the larger of their readings. -/
theorem v1_coe_max_real (a b : ℝ) : max (a : EReal) (b : EReal) = ((max a b : ℝ) : EReal) :=
  (EReal.coe_strictMono.monotone.map_max).symm

/-- The supremum of the readings of a nonempty finite family of real numbers is the reading of its greatest member. -/
theorem v1_sup_coe_real {α : Type} (s : Finset α) (hs : s.Nonempty) (f : α → ℝ) :
    (s.sup fun a => ((f a : ℝ) : EReal)) = ((s.sup' hs f : ℝ) : EReal) := by
  rw [← Finset.sup'_eq_sup hs]
  exact (Finset.comp_sup'_eq_sup'_comp hs (fun a : ℝ => (a : EReal)) (fun a b => (v1_coe_max_real a b).symm)).symm

/-- Greatest members and sums over a point's block of columns, taken over the local columns. -/
theorem v1_sup'_blkCols (t : Fin cfg1.N) (f : Fin 8192 → ℝ) :
    (v1_blkCols t).sup' (v1_blkCols_nonempty t) f = Finset.univ.sup' Finset.univ_nonempty fun k : Fin 1024 => f (colOf t k) :=
  Finset.sup'_map f (v1_blkCols_nonempty t)

theorem v1_sum_blkCols (t : Fin cfg1.N) (f : Fin 8192 → EReal) :
    ∑ j ∈ v1_blkCols t, f j = ∑ k : Fin 1024, f (colOf t k) :=
  Finset.sum_map Finset.univ ⟨colOf t, v1_colOf_injective t⟩ f

section Region
variable (c : Dev nD) (x : FVec Ideal S8192x512 .f32) (adj : IVec S8192x8192 32) (W : FVec Ideal S512x256 .f32)
  (a1 a2 : FVec Ideal S256x1 .f32)
  (hf1 : ∀ i : Fin 8192, V c main_v2_1 (ix2 i (0 : Fin 1)) = ((f1R x W a1 i : ℝ) : EReal))
  (hf2 : ∀ j : Fin 8192, V c main_v3 (ix2 (0 : Fin 1) j) = ((f2R x W a2 j : ℝ) : EReal))
  (hadj : V c main_arg1 = adj)
  (hh : ∀ (j : Fin 8192) (q : Fin 256), V c main_v2_0 (ix2 j q) = ((hR x W j q : ℝ) : EReal))

include hf1 hf2 hadj in
/-- The masked score of a point's blocks at a local row and column is the score of the global row and column. -/
theorem v1_sc_eq (t : Fin cfg1.N) (r k : Fin 1024) :
    sc (iblk1 V c 0 t) (iblk1 V c 1 t) (iblk1 V c 2 t) r k
      = ((scoreR x adj W a1 a2 (rowOf t r) (colOf t k) : ℝ) : EReal) := by
  obtain ⟨a, ha, -, -⟩ := slope_real
  unfold sc scoreR
  rw [iblk1_0_apply, iblk1_1_apply, iblk1_2_apply, hf1, hf2, hadj, ha, EReal.toReal_coe]
  split_ifs with he
  · rw [← EReal.coe_add, ← EReal.coe_mul, v1_coe_max_real]
  · exact negBig_real

include hf1 hf2 hadj in
/-- The new running maximum is the larger of the old one and the greatest score of the point's block of columns. -/
theorem v1_mNew_eq (t : Fin cfg1.N) (r : Fin 1024) (ms : Vec Ideal S1024x1 .f32) :
    mNew (iblk1 V c 0 t) (iblk1 V c 1 t) (iblk1 V c 2 t) ms r
      = max (ms (ix2 r (0 : Fin 1)))
          (((v1_blkCols t).sup' (v1_blkCols_nonempty t) (scoreR x adj W a1 a2 (rowOf t r)) : ℝ) : EReal) := by
  unfold mNew
  simp only [v1_sc_eq V c x adj W a1 a2 hf1 hf2 hadj]
  rw [v1_sup_coe_real Finset.univ Finset.univ_nonempty]
  rw [v1_sup'_blkCols]

include hf1 hf2 hadj hh in
/-- One point's update carries the running quantities of the columns `J` to those of `J` and the point's block. -/
theorem v1_step_seen (t : Fin cfg1.N) (r : Fin 1024) (ms ls : Vec Ideal S1024x1 .f32) (acs : Vec Ideal S1024x256 .f32)
    (J : Finset (Fin 8192)) (hJ : Disjoint J (v1_blkCols t))
    (h : Seen (scoreR x adj W a1 a2 (rowOf t r)) (hR x W) J (ms (ix2 r (0 : Fin 1))) (ls (ix2 r (0 : Fin 1)))
      (fun q : Fin 256 => acs (ix2 r q))) :
    Seen (scoreR x adj W a1 a2 (rowOf t r)) (hR x W) (J ∪ v1_blkCols t)
      (stepM (iblk1 V c 0 t) (iblk1 V c 1 t) (iblk1 V c 2 t) ms (ix2 r (0 : Fin 1)))
      (stepL (iblk1 V c 0 t) (iblk1 V c 1 t) (iblk1 V c 2 t) ms ls (ix2 r (0 : Fin 1)))
      (fun q : Fin 256 => stepA (iblk1 V c 0 t) (iblk1 V c 1 t) (iblk1 V c 2 t)
        (hrows (grid1.coords t) (iblk1 V c 3 t)) ms acs (ix2 r q)) := by
  have key := seen_step hJ (v1_blkCols_nonempty t) h
  have hm := v1_mNew_eq V c x adj W a1 a2 hf1 hf2 hadj t r ms
  -- the denominator: the block's terms, summed over its columns
  have hl : stepL (iblk1 V c 0 t) (iblk1 V c 1 t) (iblk1 V c 2 t) ms ls (ix2 r (0 : Fin 1))
      = Ideal.exp (ms (ix2 r (0 : Fin 1)) - max (ms (ix2 r (0 : Fin 1)))
            (((v1_blkCols t).sup' (v1_blkCols_nonempty t) (scoreR x adj W a1 a2 (rowOf t r)) : ℝ) : EReal)) * ls (ix2 r (0 : Fin 1))
        + ∑ j ∈ v1_blkCols t, Ideal.exp (((scoreR x adj W a1 a2 (rowOf t r) j : ℝ) : EReal) - max (ms (ix2 r (0 : Fin 1)))
            (((v1_blkCols t).sup' (v1_blkCols_nonempty t) (scoreR x adj W a1 a2 (rowOf t r)) : ℝ) : EReal)) := by
    rw [stepL_apply, hm]
    simp only [v1_sc_eq V c x adj W a1 a2 hf1 hf2 hadj]
    rw [v1_sum_blkCols]
  -- the numerators: the block's terms weighted by the rows of `h`
  have ha : (fun q : Fin 256 => stepA (iblk1 V c 0 t) (iblk1 V c 1 t) (iblk1 V c 2 t)
        (hrows (grid1.coords t) (iblk1 V c 3 t)) ms acs (ix2 r q))
      = fun q : Fin 256 => Ideal.exp (ms (ix2 r (0 : Fin 1)) - max (ms (ix2 r (0 : Fin 1)))
            (((v1_blkCols t).sup' (v1_blkCols_nonempty t) (scoreR x adj W a1 a2 (rowOf t r)) : ℝ) : EReal)) * acs (ix2 r q)
        + ∑ j ∈ v1_blkCols t, Ideal.exp (((scoreR x adj W a1 a2 (rowOf t r) j : ℝ) : EReal) - max (ms (ix2 r (0 : Fin 1)))
            (((v1_blkCols t).sup' (v1_blkCols_nonempty t) (scoreR x adj W a1 a2 (rowOf t r)) : ℝ) : EReal))
              * ((hR x W j q : ℝ) : EReal) := by
    funext q
    rw [stepA_apply, hm]
    simp only [v1_sc_eq V c x adj W a1 a2 hf1 hf2 hadj, hrows_apply, hh]
    rw [v1_sum_blkCols]
  rw [stepM_apply, hm, hl, ha]
  exact key

include hf1 hf2 hadj hh in
/-- AT THE FIRST POINT OF A ROW BLOCK the scratch buffers hold the running quantities of the first block of columns. -/
theorem v1_inv_first (t : Fin cfg1.N) (ht : t.val % 8 = 0) (r : Fin 1024) :
    Seen (scoreR x adj W a1 a2 (rowOf t r)) (hR x W) (v1_colsLt (1024 * (t.val % 8 + 1)))
      ((outsAt1 V c t.val t.isLt).2.1 (ix2 r (0 : Fin 1))) ((outsAt1 V c t.val t.isLt).2.2.1 (ix2 r (0 : Fin 1)))
      (fun q : Fin 256 => (outsAt1 V c t.val t.isLt).2.2.2 (ix2 r q)) := by
  have h0 : Seen (scoreR x adj W a1 a2 (rowOf t r)) (hR x W) ∅ (k1_pay4 (F := Ideal) (ix2 r (0 : Fin 1)))
      (k1_pay5 (F := Ideal) (ix2 r (0 : Fin 1))) (fun q : Fin 256 => k1_pay6 (F := Ideal) (ix2 r q)) := by
    rw [pay4_apply, pay5_apply]
    simp only [pay6_apply]
    exact seen_empty _ _
  have h1 := v1_step_seen V c x adj W a1 a2 hf1 hf2 hadj hh t r _ _ _ ∅ (Finset.disjoint_empty_left _) h0
  have hJ : v1_colsLt (1024 * (t.val % 8 + 1)) = ∅ ∪ v1_blkCols t := by
    rw [← v1_colsLt_union t, ht, Nat.mul_zero, v1_colsLt_zero]
  rw [outsAt1_first V c t ht, hJ]
  exact h1

include hf1 hf2 hadj hh in
/-- AT A LATER POINT they hold those of one block of columns more than the point before left. -/
theorem v1_inv_next (t : Fin cfg1.N) (ht : t.val % 8 ≠ 0) (r : Fin 1024) (m : ℕ) (hm : m < cfg1.N) (e : m = t.val - 1)
    (ih : Seen (scoreR x adj W a1 a2 (rowOf t r)) (hR x W) (v1_colsLt (1024 * (t.val % 8)))
      ((outsAt1 V c m hm).2.1 (ix2 r (0 : Fin 1))) ((outsAt1 V c m hm).2.2.1 (ix2 r (0 : Fin 1)))
      (fun q : Fin 256 => (outsAt1 V c m hm).2.2.2 (ix2 r q))) :
    Seen (scoreR x adj W a1 a2 (rowOf t r)) (hR x W) (v1_colsLt (1024 * (t.val % 8 + 1)))
      ((outsAt1 V c t.val t.isLt).2.1 (ix2 r (0 : Fin 1))) ((outsAt1 V c t.val t.isLt).2.2.1 (ix2 r (0 : Fin 1)))
      (fun q : Fin 256 => (outsAt1 V c t.val t.isLt).2.2.2 (ix2 r q)) := by
  subst e
  rw [outsAt1_next V c t ht, ← v1_colsLt_union t]
  exact v1_step_seen V c x adj W a1 a2 hf1 hf2 hadj hh t r _ _ _ _ (v1_colsLt_disjoint t) ih

include hf1 hf2 hadj hh in
/-- THE INVARIANT, by induction on the point: after point `n` the scratch buffers hold, row by row, the running maximum,
    denominator and numerators of the columns below `1024 (n % 8 + 1)`. -/
theorem v1_inv_all (n : ℕ) (hn : n < cfg1.N) (r : Fin 1024) :
    Seen (scoreR x adj W a1 a2 (rowOf ⟨n, hn⟩ r)) (hR x W) (v1_colsLt (1024 * (n % 8 + 1)))
      ((outsAt1 V c n hn).2.1 (ix2 r (0 : Fin 1))) ((outsAt1 V c n hn).2.2.1 (ix2 r (0 : Fin 1)))
      (fun q : Fin 256 => (outsAt1 V c n hn).2.2.2 (ix2 r q)) := by
  induction n with
  | zero => exact v1_inv_first V c x adj W a1 a2 hf1 hf2 hadj hh ⟨0, hn⟩ rfl r
  | succ n ih =>
    by_cases h8 : (n + 1) % 8 = 0
    · exact v1_inv_first V c x adj W a1 a2 hf1 hf2 hadj hh ⟨n + 1, hn⟩ h8 r
    · have hn' : n < cfg1.N := Nat.lt_of_succ_lt hn
      have ih' := ih hn'
      -- the point before is in the same row block, one block of columns earlier
      have e1 : rowOf ⟨n, hn'⟩ r = rowOf ⟨n + 1, hn⟩ r := by
        apply Fin.ext
        simp only [rowOf]
        omega
      have e2 : n % 8 + 1 = (n + 1) % 8 := by omega
      rw [e1, e2] at ih'
      exact v1_inv_next V c x adj W a1 a2 hf1 hf2 hadj hh ⟨n + 1, hn⟩ h8 r n hn' (Nat.add_sub_cancel (n := n) (m := 1)).symm ih'

include hf1 hf2 hadj hh in
/-- AT THE LAST POINT OF A ROW BLOCK all columns are seen: the result array's rows of that block are the target. -/
theorem v1_attn_out_at (t : Fin cfg1.N) (ht : t.val % 8 = 7) (r : Fin 1024) (q : Fin 256) :
    (dat1 (F := Ideal) V c).arrAt 4 cfg1.N (ix2 (rowOf t r) q) = target x adj W a1 a2 (rowOf t r) q := by
  have hinv : Seen (scoreR x adj W a1 a2 (rowOf t r)) (hR x W) (v1_colsLt (1024 * (t.val % 8 + 1)))
      ((outsAt1 V c t.val t.isLt).2.1 (ix2 r (0 : Fin 1))) ((outsAt1 V c t.val t.isLt).2.2.1 (ix2 r (0 : Fin 1)))
      (fun q : Fin 256 => (outsAt1 V c t.val t.isLt).2.2.2 (ix2 r q)) :=
    v1_inv_all V c x adj W a1 a2 hf1 hf2 hadj hh t.val t.isLt r
  have hJ : v1_colsLt (1024 * (t.val % 8 + 1)) = Finset.univ := by
    rw [ht]
    exact v1_colsLt_all
  rw [hJ] at hinv
  refine (arrAt4_apply V c t ht r q).trans ?_
  rw [outsAt1_last V c t ht, pay3_apply]
  exact congrArg eluE (seen_div Finset.univ_nonempty hinv q)

end Region

/-- The result array after the region is the target function of the arguments, entry by entry, when the region finds
    `f1`, `f2` (transposed), the adjacency and `h` in its four input arrays. -/
theorem attn_out (c : Dev nD) (x : FVec Ideal S8192x512 .f32) (adj : IVec S8192x8192 32) (W : FVec Ideal S512x256 .f32)
    (a1 a2 : FVec Ideal S256x1 .f32)
    (hf1 : ∀ i : Fin 8192, V c main_v2_1 (ix2 i (0 : Fin 1)) = ((f1R x W a1 i : ℝ) : EReal))
    (hf2 : ∀ j : Fin 8192, V c main_v3 (ix2 (0 : Fin 1) j) = ((f2R x W a2 j : ℝ) : EReal))
    (hadj : V c main_arg1 = adj)
    (hh : ∀ (j : Fin 8192) (q : Fin 256), V c main_v2_0 (ix2 j q) = ((hR x W j q : ℝ) : EReal))
    (i : Fin 8192) (q : Fin 256) :
    (dat1 (F := Ideal) V c).arrAt 4 cfg1.N (ix2 i q) = target x adj W a1 a2 i q := by
  -- row `i` is local row `i % 1024` of row block `i / 1024`, whose last point is `8 (i / 1024) + 7`
  have hi := i.isLt
  have h64 : cfg1.N = 64 := N_1
  have htN : 8 * (i.val / 1024) + 7 < cfg1.N := by
    rw [h64]
    omega
  have hrow : rowOf ⟨8 * (i.val / 1024) + 7, htN⟩ ⟨i.val % 1024, Nat.mod_lt _ (by norm_num)⟩ = i := by
    apply Fin.ext
    simp only [rowOf]
    omega
  have h := v1_attn_out_at V c x adj W a1 a2 hf1 hf2 hadj hh ⟨8 * (i.val / 1024) + 7, htN⟩ (by show (8 * (i.val / 1024) + 7) % 8 = 7; omega)
    ⟨i.val % 1024, Nat.mod_lt _ (by norm_num)⟩ q
  rw [hrow] at h
  exact h

end Cert.KernelIdeal.Hand

end
-- ==== Proof.KI.KernelValue.lean ====
/-
  The kernel program's result array, entry by entry, is the target function of its arguments.

  The attention region is entered with `f1`, `f2` (transposed by the host), the adjacency and `h` in its four input
  arrays; the first, second and fourth are what the projection region left (`f1 = h a1`, `f2 = h a2`, `h = x W` of the
  launch contents, the region having found `a1`, `a2` transposed by the host), the adjacency is as launched. So the
  result is the attention region's value at those.
-/
import proofs.«410119_j22316650070323_3_alg».proof.Proof.Gen.KernelIdeal.Launch
import proofs.«410119_j22316650070323_3_alg».proof.Proof.Gen.KernelIdeal.Skeleton
import proofs.«410119_j22316650070323_3_alg».proof.Proof.Gen.KernelIdeal.Points
import proofs.«410119_j22316650070323_3_alg».proof.Proof.KI.Run
import proofs.«410119_j22316650070323_3_alg».proof.Proof.KI.Value0
import proofs.«410119_j22316650070323_3_alg».proof.Proof.KI.Value1
import proofs.«410119_j22316650070323_3_alg».proof.Proof.Spec
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gat Idealize.ShloMosaic.ValueIdx

variable (m : (ℓ : Loc nD τ sig) → Buf (Elt Ideal) ℓ) (ρ : Dev nD → PrngReg)

/-- For real-valued arguments, the final result array at row `i`, column `q` is the exponential linear unit of row
    `i`'s softmax-weighted average of column `q` of `h`. -/
theorem kernel_out (c : Dev nD)
    (hx : IsReal ((m ((c.tc : Thread nD τ).loc main_arg0)) : FVec Ideal S8192x512 .f32)) (hW : IsReal ((m ((c.tc : Thread nD τ).loc main_arg2)) : FVec Ideal S512x256 .f32))
    (h1 : IsReal ((m ((c.tc : Thread nD τ).loc main_arg3)) : FVec Ideal S256x1 .f32)) (h2 : IsReal ((m ((c.tc : Thread nD τ).loc main_arg4)) : FVec Ideal S256x1 .f32))
    (i : Fin 8192) (q : Fin 256) :
    (dat1 (F := Ideal) (B3 m ρ) c).arrAt 4 cfg1.N (ix2 i q)
      = target (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i q := by
  refine attn_out (B3 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (fun i => ?_) (fun j => ?_) (B3_arg1 m ρ c) (fun j q => ?_) i q
  · rw [B3_v2_1]
    exact proj_f1 (B1 m ρ) c _ _ _ (B1_arg0 m ρ c) (B1_arg2 m ρ c) (B1_v0 m ρ c) hx hW h1 i
  · rw [B3_v3, transpose_ix2_apply]
    exact proj_f2 (B1 m ρ) c _ _ _ (B1_arg0 m ρ c) (B1_arg2 m ρ c) (B1_v1 m ρ c) hx hW h2 j
  · rw [B3_v2_0]
    exact proj_h (B1 m ρ) c _ _ (B1_arg0 m ρ c) (B1_arg2 m ρ c) hx hW j q

end Cert.KernelIdeal.Hand

end
-- ==== Proof.RefOut.lean ====
/-
  The reference's result as one pure function of its five arguments: three matrix products (`h = x W`,
  `f1 = h a1`, `f2 = h a2`), the additive score, the leaky rectifier as a select on `e ≥ 0`, the mask select
  against the adjacency entries, the row softmax (row maximum, subtraction, exponential, row sum, quotient), the
  product with `h`, and the exponential linear unit as two selects around `exp - 1`.
-/
import proofs.«410119_j22316650070323_3_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The reference's result as one function of its five arguments: the operations of @main composed, each call
    replaced by its body. -/
def refOut (x : FVec F S8192x512 .f32) (adj : IVec S8192x8192 32) (W : FVec F S512x256 .f32)
    (a1 a2 : FVec F S256x1 .f32) : FVec F S8192x256 .f32 :=
  let h : FVec F S8192x256 .f32 := Host.dotGeneral dot_S8192x512_S512x256_S8192x256_1_0_0_1_n_n none x W
  let f1 : FVec F S8192x1 .f32 := Host.dotGeneral dot_S8192x256_S256x1_S8192x1_1_0_0_1_n_n none h a1
  let f2 : FVec F S8192x1 .f32 := Host.dotGeneral dot_S8192x256_S256x1_S8192x1_1_0_0_1_n_n none h a2
  let f2t : FVec F S1x8192 .f32 := transpose S1x8192 [1, 0] f2 transposes_S8192x1_S1x8192_1_0
  let e : FVec F S8192x8192 .f32 :=
    addf (broadcastInDim S8192x8192 ![0, 1] bcast_S8192x1_S8192x8192_0_1 f1)
      (broadcastInDim S8192x8192 ![0, 1] bcast_S1x8192_S8192x8192_0_1 f2t)
  let lrelu : FVec F S8192x8192 .f32 :=
    select (cmpf .oge e (broadcastInDim S8192x8192 ![] bcast_S_S8192x8192 (constant S_ .f32 0x00000000#32))) e
      (mulf (broadcastInDim S8192x8192 ![] bcast_S_S8192x8192 (constant S_ .f32 0x3E4CCCCD#32)) e)
  let s : FVec F S8192x8192 .f32 :=
    select (cmpi .sgt adj (broadcastInDim S8192x8192 ![] bcast_S_S8192x8192 (constantI S_ 32 0#32))) lrelu
      (broadcastInDim S8192x8192 ![] bcast_S_S8192x8192 (id (constant S_ .f32 0xD9FFCB9E#32)))
  let mx : FVec F S8192 .f32 :=
    maximumf (broadcastInDim S8192 ![] bcast_S_S8192 (constant S_ .f32 0xFF800000#32))
      (Host.reduce FloatOps.maximumf s (constant S_ .f32 0xFF800000#32) reducesTo_S8192x8192_S8192_d1 h_S_)
  let u : FVec F S8192x8192 .f32 :=
    Host.exp (subf s (broadcastInDim S8192x8192 ![0, 1] bcast_S8192x1_S8192x8192_0_1
      (broadcastInDim S8192x1 ![0] bcast_S8192_S8192x1_0 mx)))
  let den : FVec F S8192 .f32 := Host.reduceAdd u (constant S_ .f32 0x00000000#32) reducesTo_S8192x8192_S8192_d1 h_S_
  let att : FVec F S8192x8192 .f32 :=
    Host.divf u (broadcastInDim S8192x8192 ![0, 1] bcast_S8192x1_S8192x8192_0_1
      (broadcastInDim S8192x1 ![0] bcast_S8192_S8192x1_0 den))
  let hp : FVec F S8192x256 .f32 := Host.dotGeneral dot_S8192x8192_S8192x256_S8192x256_1_0_0_1_n_n none att h
  let pos : IVec S8192x256 1 := cmpf .ogt hp (broadcastInDim S8192x256 ![] bcast_S_S8192x256 (constant S_ .f32 0x00000000#32))
  let safe : FVec F S8192x256 .f32 :=
    select pos (broadcastInDim S8192x256 ![] bcast_S_S8192x256 (id (constant S_ .f32 0x00000000#32))) hp
  select pos hp
    (mulf (broadcastInDim S8192x256 ![] bcast_S_S8192x256 (constant S_ .f32 0x3F800000#32)) (Host.expm1 safe))

end Cert.ReferenceIdeal.Hand

end
-- ==== Proof.RefRun.lean ====
/-
  The reference program's run, read back as one pure term of its arguments.

  The reference is a straight line of host operations once its calls are inlined: three matrix products
  (`h = x W`, `f1 = h a1`, `f2 = h a2`), the additive score `f1 i + f2 j` by two broadcasts, the leaky rectifier as
  a select on `e ≥ 0`, the mask select against the adjacency entries, the row softmax (row maximum, subtraction,
  exponential, row sum, quotient), the product with `h`, and the exponential linear unit as two selects around
  `exp - 1`. `refOut` is that composition; `run` says every weakly fair execution ends with the result buffer
  holding it and the argument arrays unchanged.
-/
import proofs.«410119_j22316650070323_3_alg».proof.Proof.Gen.ReferenceIdeal
import proofs.«410119_j22316650070323_3_alg».proof.Proof.RefOut
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, each call's body listed at its call site over that call's buffers:
    the score select of `_where`, the three lines of `_where_0` (the mask value converted, broadcast, the select), and
    the fifteen of `elu` (two comparisons with zero, `_where_1`'s three lines, `exp - 1`, the product with one,
    `_where_2`'s select). -/
abbrev ops : List (HloOp τ sig (Elt F)) :=
  [ binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_v0 main_arg3 main_v1 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    binary main_v0 main_arg4 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    unary main_cst main_v7 (broadcastInDim S8192x8192 ![] bcast_S_S8192x8192 : (⟨S_, .f32⟩ : BufTy).Contents (Elt F) → (⟨S8192x8192, .f32⟩ : BufTy).Contents (Elt F)),
    binary main_v6 main_v7 main_v8 (cmpf .oge : (⟨S8192x8192, .f32⟩ : BufTy).Contents (Elt F) → (⟨S8192x8192, .f32⟩ : BufTy).Contents (Elt F) → (⟨S8192x8192, .i1⟩ : BufTy).Contents (Elt F)),
    nullary main_cst_0 (constant S_ .f32 0x3E4CCCCD#32),
    unary main_cst_0 main_v9 (broadcastInDim S8192x8192 ![] bcast_S_S8192x8192 : (⟨S_, .f32⟩ : BufTy).Contents (Elt F) → (⟨S8192x8192, .f32⟩ : BufTy).Contents (Elt F)),
    binary main_v9 main_v6 main_v10 (mulf : (⟨S8192x8192, .f32⟩ : BufTy).Contents (Elt F) → (⟨S8192x8192, .f32⟩ : BufTy).Contents (Elt F) → (⟨S8192x8192, .f32⟩ : BufTy).Contents (Elt F)),
    TRef.ternary (.of main_v8) (.of main_v6) (.of main_v10) main_call0.v0 select,
    nullary main_c (constantI S_ 32 0#32),
    unary main_c main_v12 (broadcastInDim S8192x8192 ![] bcast_S_S8192x8192 : (⟨S_, .i32⟩ : BufTy).Contents (Elt F) → (⟨S8192x8192, .i32⟩ : BufTy).Contents (Elt F)),
    binary main_arg1 main_v12 main_v13 (cmpi .sgt : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0xD9FFCB9E#32),
    TRef.unary (.of main_cst_1) main_call1.v0 id,
    TRef.unary main_call1.v0 main_call1.v1 (broadcastInDim S8192x8192 ![] bcast_S_S8192x8192),
    TRef.ternary (.of main_v13) (.of main_v11) main_call1.v1 main_call1.v2 select,
    nullary main_cst_2 (constant S_ .f32 0xFF800000#32),
    binary main_v14 main_cst_2 main_v15 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0xFF800000#32),
    unary main_cst_3 main_v16 (broadcastInDim S8192 ![] bcast_S_S8192 : (⟨S_, .f32⟩ : BufTy).Contents (Elt F) → (⟨S8192, .f32⟩ : BufTy).Contents (Elt F)),
    binary main_v16 main_v15 main_v17 (maximumf : (⟨S8192, .f32⟩ : BufTy).Contents (Elt F) → (⟨S8192, .f32⟩ : BufTy).Contents (Elt F) → (⟨S8192, .f32⟩ : BufTy).Contents (Elt F)),
    unary main_v17 main_v18 (broadcastInDim S8192x1 ![0] bcast_S8192_S8192x1_0 : (⟨S8192, .f32⟩ : BufTy).Contents (Elt F) → (⟨S8192x1, .f32⟩ : BufTy).Contents (Elt F)),
    unary main_v18 main_v19 (broadcastInDim S8192x8192 ![0, 1] bcast_S8192x1_S8192x8192_0_1 : (⟨S8192x1, .f32⟩ : BufTy).Contents (Elt F) → (⟨S8192x8192, .f32⟩ : BufTy).Contents (Elt F)),
    binary main_v14 main_v19 main_v20 (subf : (⟨S8192x8192, .f32⟩ : BufTy).Contents (Elt F) → (⟨S8192x8192, .f32⟩ : BufTy).Contents (Elt F) → (⟨S8192x8192, .f32⟩ : BufTy).Contents (Elt F)),
    unary main_v20 main_v21 (Host.exp : (⟨S8192x8192, .f32⟩ : BufTy).Contents (Elt F) → (⟨S8192x8192, .f32⟩ : BufTy).Contents (Elt F)),
    nullary main_cst_4 (constant S_ .f32 0x00000000#32),
    binary main_v21 main_cst_4 main_v22 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v22 main_v23 (broadcastInDim S8192x1 ![0] bcast_S8192_S8192x1_0 : (⟨S8192, .f32⟩ : BufTy).Contents (Elt F) → (⟨S8192x1, .f32⟩ : BufTy).Contents (Elt F)),
    unary main_v23 main_v24 (broadcastInDim S8192x8192 ![0, 1] bcast_S8192x1_S8192x8192_0_1 : (⟨S8192x1, .f32⟩ : BufTy).Contents (Elt F) → (⟨S8192x8192, .f32⟩ : BufTy).Contents (Elt F)),
    binary main_v21 main_v24 main_v25 (Host.divf : (⟨S8192x8192, .f32⟩ : BufTy).Contents (Elt F) → (⟨S8192x8192, .f32⟩ : BufTy).Contents (Elt F) → (⟨S8192x8192, .f32⟩ : BufTy).Contents (Elt F)),
    binary main_v25 main_v0 main_v26 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call2.cst (constant S_ .f32 0x00000000#32),
    TRef.unary main_call2.cst main_call2.v0 (broadcastInDim S8192x256 ![] bcast_S_S8192x256),
    TRef.binary (.of main_v26) main_call2.v0 main_call2.v1 (cmpf .ogt),
    TRef.nullary main_call2.cst_0 (constant S_ .f32 0x00000000#32),
    TRef.unary main_call2.cst_0 main_call2.v2 (broadcastInDim S8192x256 ![] bcast_S_S8192x256),
    TRef.binary (.of main_v26) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x256 ![] bcast_S_S8192x256),
    TRef.ternary main_call2.v3 main_call2.call0.v1 (.of main_v26) main_call2.call0.v2 select,
    TRef.unary main_call2.call0.v2 main_call2.v5 Host.expm1,
    TRef.nullary main_call2.cst_2 (constant S_ .f32 0x3F800000#32),
    TRef.unary main_call2.cst_2 main_call2.v6 (broadcastInDim S8192x256 ![] bcast_S_S8192x256),
    TRef.binary main_call2.v6 main_call2.v5 main_call2.v7 mulf,
    TRef.ternary main_call2.v1 (.of main_v26) main_call2.v7 main_call2.call1.v0 select ]

-- fifty-one binds re-associated: the rewrite under the chain recurses once per statement
set_option maxRecDepth 2048 in
/-- @main is that straight line: the callees' definitions unfolded at their calls, both sides are one chain of
    steps once sequencing is reassociated (associativity of bind, and a returned unit bound is dropped). -/
theorem main_eq (c : Dev nD) : main (F := F) c = seq ops := by
  simp only [main, fn_where.body, fn_where_0.body, fn_where_1.body, fn_where_2.body, fn_elu.body, seq, bind_assoc, pure_bind]

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., unary_bufs_sub .., ternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

attribute [local irreducible] Host.reduce Host.reduceAdd in
/-- What the result buffer holds after the line, from any contents: each operation's result at its own buffer is its
    function of its operands' contents, and any other buffer keeps what it held; composed, that is `refOut` of the
    argument buffers' contents. The two row reductions are kept folded: the equation never looks inside them. -/
theorem out_eq (V : Valuation τ sig (Elt F)) :
    after ops V (main_v27 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  rfl

/-- On every device, from any memory with zero counters: every weakly fair execution of the reference terminates with
    its result at `refOut` of the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v27).trans (out_eq _),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.Hand

end
-- ==== Proof.RefValue.lean ====
/-
  The reference's result, entry by entry, is the target function of the arguments.

  The composed term is read at an index stage by stage, outermost last: each matrix product at (n, j) is a finite sum
  of products; a broadcast or a transpose reads one entry of its operand; the leaky rectifier at a real score is the
  larger of the score and its slope multiple; the mask keeps it where the adjacency entry is positive; the row
  maximum from ⊥ of real scores is their real maximum; the shifted exponentials, their row sum from 0 and the
  quotient are the normalised softmax weights; their product with h is the weighted average; and the two selects
  around exp - 1 are the exponential linear unit.
-/
import proofs.«410119_j22316650070323_3_alg».proof.Proof.RefOut
import proofs.«410119_j22316650070323_3_alg».proof.Proof.Spec
import proofs.«410119_j22316650070323_3_alg».proof.Proof.Softmax
import proofs.«410119_j22316650070323_3_alg».proof.Proof.Consts
import proofs.«410119_j22316650070323_3_alg».proof.Proof.LibDot
import Idealize.ShloMosaic.PureOps.Ideal.Laws
import Idealize.ShloMosaic.Lib.ValueIdx
import Idealize.ShloMosaic.Lib.ValueLayout

noncomputable section

namespace Cert.ReferenceIdeal.Hand

open Cert.ReferenceIdeal Cert.ReferenceIdeal.Gen Idealize.ShloMosaic Idealize.ShloMosaic.ValueIdx Cert.Gat
open scoped BigOperators

namespace RefValue

/-! ## The three projections -/

/-- The first product at row i, column c is the real sum hR, read on the extended reals. -/
theorem h_apply (x : FVec Ideal S8192x512 .f32) (W : FVec Ideal S512x256 .f32) (hx : IsReal x) (hW : IsReal W)
    (i : Fin 8192) (c : Fin 256) :
    Host.dotGeneral (F := Ideal) dot_S8192x512_S512x256_S8192x256_1_0_0_1_n_n none x W (ix2 i c)
      = ((hR x W i c : ℝ) : EReal) := by
  rw [Cert.LibDot.dot_rows_apply _ rfl rfl rfl rfl rfl rfl]
  unfold hR
  rw [Cert.Gat.coe_sum]
  refine Finset.sum_congr rfl fun k _ => ?_
  rw [EReal.coe_mul, ← hx, ← hW]

theorem f_apply (h : FVec Ideal S8192x256 .f32) (a : FVec Ideal S256x1 .f32) (H : Fin 8192 → Fin 256 → ℝ)
    (hh : ∀ i c, h (ix2 i c) = ((H i c : ℝ) : EReal)) (ha : IsReal a) (i : Fin 8192) (z : Fin 1) :
    Host.dotGeneral (F := Ideal) dot_S8192x256_S256x1_S8192x1_1_0_0_1_n_n none h a (ix2 i z)
      = ((∑ c : Fin 256, H i c * (a (ix2 c (0 : Fin 1))).toReal : ℝ) : EReal) := by
  obtain rfl : z = 0 := Subsingleton.elim _ _
  rw [Cert.LibDot.dot_rows_apply _ rfl rfl rfl rfl rfl rfl, Cert.Gat.coe_sum]
  refine Finset.sum_congr rfl fun k _ => ?_
  rw [EReal.coe_mul, ← ha, hh]

/-! ## Broadcasts, the transpose and the additive score -/

/-- A scalar broadcast to every index reads the scalar. -/
theorem bcast0_apply {α : Type} {t : Shape} (hb : S_.BroadcastsInDim t (![] : Fin 0 → Fin t.rank)) (v : S_.Idx → α) (j : t.Idx) :
    broadcastInDim t ![] hb v j = v ix0 :=
  broadcastInDim_apply _ hb v j ix0 fun a => a.elim0

/-- A column vector broadcast along the rows reads, at (i, j), its entry i. -/
theorem bcast_col_apply {α : Type} (v : S8192x1.Idx → α) (i j : Fin 8192) :
    broadcastInDim S8192x8192 ![0, 1] bcast_S8192x1_S8192x8192_0_1 v (ix2 i j) = v (ix2 i (0 : Fin 1)) :=
  broadcastInDim_apply _ _ v _ _ fun a => match a with | ⟨0, _⟩ => rfl | ⟨1, _⟩ => rfl

/-- A row vector broadcast along the columns reads, at (i, j), its entry j. -/
theorem bcast_row_apply {α : Type} (v : S1x8192.Idx → α) (i j : Fin 8192) :
    broadcastInDim S8192x8192 ![0, 1] bcast_S1x8192_S8192x8192_0_1 v (ix2 i j) = v (ix2 (0 : Fin 1) j) :=
  broadcastInDim_apply _ _ v _ _ fun a => match a with | ⟨0, _⟩ => rfl | ⟨1, _⟩ => rfl

/-- A vector made a column reads, at (i, 0), its entry i. -/
theorem bcast_vec_apply {α : Type} (v : S8192.Idx → α) (i : Fin 8192) (z : Fin 1) :
    broadcastInDim S8192x1 ![0] bcast_S8192_S8192x1_0 v (ix2 i z) = v (ix1 i) :=
  broadcastInDim_apply _ _ v _ _ fun a => match a with | ⟨0, _⟩ => rfl

/-- The additive score: f1 at row i plus f2 at row j. -/
theorem e_apply (f1 f2 : FVec Ideal S8192x1 .f32) (i j : Fin 8192) :
    addf (broadcastInDim S8192x8192 ![0, 1] bcast_S8192x1_S8192x8192_0_1 f1)
      (broadcastInDim S8192x8192 ![0, 1] bcast_S1x8192_S8192x8192_0_1
        (transpose S1x8192 [1, 0] f2 transposes_S8192x1_S1x8192_1_0)) (ix2 i j)
      = f1 (ix2 i (0 : Fin 1)) + f2 (ix2 j (0 : Fin 1)) := by
  rw [addf_apply, bcast_col_apply, bcast_row_apply, transpose_ix2_apply]

/-! ## The leaky rectifier and the mask -/

/-- The leaky rectifier at a real score: the larger of r and slope * r. -/
theorem lrelu_apply (e : FVec Ideal S8192x8192 .f32) (i j : Fin 8192) (r : ℝ) (he : e (ix2 i j) = ((r : ℝ) : EReal)) :
    select (cmpf .oge e (broadcastInDim S8192x8192 ![] bcast_S_S8192x8192 (constant (F := Ideal) S_ .f32 0x00000000#32))) e
      (mulf (broadcastInDim S8192x8192 ![] bcast_S_S8192x8192 (constant (F := Ideal) S_ .f32 0x3E4CCCCD#32)) e) (ix2 i j)
      = ((max r (slope.toReal * r) : ℝ) : EReal) := by
  obtain ⟨a, ha, h0, h1⟩ := slope_real
  rw [select_apply, cmpf_apply, mulf_apply, bcast0_apply, bcast0_apply, constant_apply, constant_apply, he,
    Ideal.ofBits_zero_f32, Ideal.cmpf_def]
  have hs : Ideal.ofBits .f32 0x3E4CCCCD#32 = ((a : ℝ) : EReal) := ha
  have hsr : slope.toReal = a := by rw [ha, EReal.toReal_coe]
  rw [hs, hsr, max_mul_slope h0 h1, ← EReal.coe_mul]
  unfold Ideal.cmp
  by_cases hr : 0 ≤ r
  · rw [if_pos hr]
    have : decide ((0 : EReal) ≤ ((r : ℝ) : EReal)) = true := decide_eq_true (by exact_mod_cast hr)
    simp only [this]
    exact select_one _ _
  · rw [if_neg hr]
    have : decide ((0 : EReal) ≤ ((r : ℝ) : EReal)) = false := decide_eq_false (by exact_mod_cast hr)
    simp only [this]
    exact select_zero _ _

/-- The mask: the rectified score where the adjacency entry is positive, the large negative constant elsewhere. -/
theorem mask_apply (adj : IVec S8192x8192 32) (l : FVec Ideal S8192x8192 .f32) (i j : Fin 8192) :
    select (cmpi .sgt adj (broadcastInDim S8192x8192 ![] bcast_S_S8192x8192 (constantI S_ 32 0#32))) l
      (broadcastInDim S8192x8192 ![] bcast_S_S8192x8192 (id (constant (F := Ideal) S_ .f32 0xD9FFCB9E#32))) (ix2 i j)
      = if edge (adj (ix2 i j)) then l (ix2 i j) else negBig := by
  rw [select_apply, bcast0_apply]
  show Scalar.select (IntOp.cmpi .sgt (adj (ix2 i j)) 0#32) (l (ix2 i j)) negBig = _
  by_cases h : edge (adj (ix2 i j))
  · rw [if_pos h]
    unfold edge at h
    rw [h]; exact select_one _ _
  · rw [if_neg h]
    unfold edge at h
    rw [eq_zero_of_ne_one h]; exact select_zero _ _

/-! ## The row maximum and the row sum -/

/-- The reduced index i of a row reduction with column k put back is (i, k). -/
theorem lift_row {m n : Nat} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

theorem reduces_row : S8192x8192.Reduces [1] S8192 := by decide

/-- The row maximum: from ⊥, the maximum over a row of real scores is the real maximum of the row. -/
theorem rowmax_apply (s : FVec Ideal S8192x8192 .f32) (i : Fin 8192) (S : Fin 8192 → ℝ)
    (hs : ∀ j, s (ix2 i j) = ((S j : ℝ) : EReal)) :
    maximumf (broadcastInDim S8192 ![] bcast_S_S8192 (constant (F := Ideal) S_ .f32 0xFF800000#32))
      (Host.reduce FloatOps.maximumf s (constant (F := Ideal) S_ .f32 0xFF800000#32) reducesTo_S8192x8192_S8192_d1 h_S_) (ix1 i)
      = ((Finset.univ.sup' Finset.univ_nonempty S : ℝ) : EReal) := by
  rw [maximumf_apply, bcast0_apply, constant_apply, ofBits_ninf, max_bot_left,
    Host.reduce_eq_fold_single FloatOps.maximumf s _ reducesTo_S8192x8192_S8192_d1 reduces_row h_S_, constant_apply,
    ofBits_ninf]
  have hf : (s ∘ reduces_row.lift (ix1 i)) = fun k : Fin 8192 => ((S k : ℝ) : EReal) :=
    funext fun k => (congrArg s (lift_row reduces_row i k)).trans (hs _)
  show Finset.fold max ⊥ (s ∘ reduces_row.lift (ix1 i)) (Finset.univ : Finset (Fin 8192)) = _
  rw [hf]
  show (Finset.univ : Finset (Fin 8192)).sup (fun k => ((S k : ℝ) : EReal)) = _
  refine le_antisymm (Finset.sup_le fun j _ => EReal.coe_le_coe_iff.2 (Finset.le_sup' S (Finset.mem_univ j))) ?_
  obtain ⟨j, -, hj⟩ := Finset.exists_mem_eq_sup' Finset.univ_nonempty S
  rw [hj]
  exact Finset.le_sup (f := fun k => ((S k : ℝ) : EReal)) (Finset.mem_univ j)

/-- The row sum from 0: 0 plus the sum over the row. -/
theorem rowsum_apply (u : FVec Ideal S8192x8192 .f32) (i : Fin 8192) :
    Host.reduceAdd u (constant (F := Ideal) S_ .f32 0x00000000#32) reducesTo_S8192x8192_S8192_d1 h_S_ (ix1 i)
      = 0 + ∑ j : Fin 8192, u (ix2 i j) := by
  show Ideal.hostReduceAdd reducesTo_S8192x8192_S8192_d1 u (constant (F := Ideal) S_ .f32 0x00000000#32 _) (ix1 i) = _
  rw [Ideal.hostReduceAdd_single reducesTo_S8192x8192_S8192_d1 reduces_row, constant_apply, Ideal.ofBits_zero_f32]
  congr 1
  exact Finset.sum_congr rfl fun k _ => congrArg u (lift_row reduces_row i k)

/-! ## The softmax weights and their product with h -/

/-- The host's quotient and exponential read entry by entry. -/
theorem host_divf_apply {s : Shape} (u v : FVec Ideal s .f32) (k : s.Idx) :
    Host.divf u v k = Ideal.div (u k) (v k) := rfl
theorem host_exp_apply {s : Shape} (u : FVec Ideal s .f32) (k : s.Idx) : Host.exp u k = Ideal.exp (u k) := rfl

/-- The shifted exponential at (i, j): exp of the score minus row i's maximum. -/
theorem u_apply (s : FVec Ideal S8192x8192 .f32) (mx : FVec Ideal S8192 .f32) (i j : Fin 8192) :
    Host.exp (subf s (broadcastInDim S8192x8192 ![0, 1] bcast_S8192x1_S8192x8192_0_1
      (broadcastInDim S8192x1 ![0] bcast_S8192_S8192x1_0 mx))) (ix2 i j) = Ideal.exp (s (ix2 i j) - mx (ix1 i)) := by
  rw [host_exp_apply, subf_apply, bcast_col_apply, bcast_vec_apply]

/-- Against the row maximum of real scores the shifted exponential at (i, j) is exp (S j - M), M the real maximum. -/
theorem u_real (s : FVec Ideal S8192x8192 .f32) (i : Fin 8192) (S : Fin 8192 → ℝ)
    (hs : ∀ j, s (ix2 i j) = ((S j : ℝ) : EReal)) (j : Fin 8192) :
    Host.exp (subf s (broadcastInDim S8192x8192 ![0, 1] bcast_S8192x1_S8192x8192_0_1
      (broadcastInDim S8192x1 ![0] bcast_S8192_S8192x1_0
        (maximumf (broadcastInDim S8192 ![] bcast_S_S8192 (constant (F := Ideal) S_ .f32 0xFF800000#32))
          (Host.reduce FloatOps.maximumf s (constant (F := Ideal) S_ .f32 0xFF800000#32) reducesTo_S8192x8192_S8192_d1 h_S_))))) (ix2 i j)
      = Ideal.exp (((S j : ℝ) : EReal) - ((Finset.univ.sup' Finset.univ_nonempty S : ℝ) : EReal)) := by
  rw [u_apply, rowmax_apply s i S hs, hs]

/-- The normalised weight at (i, j): the weight over 0 plus the sum of row i's weights. -/
theorem att_apply (u : FVec Ideal S8192x8192 .f32) (i : Fin 8192) (E : Fin 8192 → EReal)
    (hu : ∀ j, u (ix2 i j) = E j) (j : Fin 8192) :
    Host.divf u (broadcastInDim S8192x8192 ![0, 1] bcast_S8192x1_S8192x8192_0_1
      (broadcastInDim S8192x1 ![0] bcast_S8192_S8192x1_0
        (Host.reduceAdd u (constant (F := Ideal) S_ .f32 0x00000000#32) reducesTo_S8192x8192_S8192_d1 h_S_))) (ix2 i j)
      = Ideal.div (E j) (0 + ∑ j' : Fin 8192, E j') := by
  rw [host_divf_apply, bcast_col_apply, bcast_vec_apply, rowsum_apply, hu, Finset.sum_congr rfl fun j' _ => hu j']

/-- The masked score at (i, j) from the two projections at rows i and j. -/
theorem score_apply (adj : IVec S8192x8192 32) (f1 f2 : FVec Ideal S8192x1 .f32) (i j : Fin 8192) (r1 r2 : ℝ)
    (h1 : f1 (ix2 i (0 : Fin 1)) = ((r1 : ℝ) : EReal)) (h2 : f2 (ix2 j (0 : Fin 1)) = ((r2 : ℝ) : EReal)) :
    select (cmpi .sgt adj (broadcastInDim S8192x8192 ![] bcast_S_S8192x8192 (constantI S_ 32 0#32)))
      (select (cmpf .oge
          (addf (broadcastInDim S8192x8192 ![0, 1] bcast_S8192x1_S8192x8192_0_1 f1)
            (broadcastInDim S8192x8192 ![0, 1] bcast_S1x8192_S8192x8192_0_1
              (transpose S1x8192 [1, 0] f2 transposes_S8192x1_S1x8192_1_0)))
          (broadcastInDim S8192x8192 ![] bcast_S_S8192x8192 (constant (F := Ideal) S_ .f32 0x00000000#32)))
        (addf (broadcastInDim S8192x8192 ![0, 1] bcast_S8192x1_S8192x8192_0_1 f1)
          (broadcastInDim S8192x8192 ![0, 1] bcast_S1x8192_S8192x8192_0_1
            (transpose S1x8192 [1, 0] f2 transposes_S8192x1_S1x8192_1_0)))
        (mulf (broadcastInDim S8192x8192 ![] bcast_S_S8192x8192 (constant (F := Ideal) S_ .f32 0x3E4CCCCD#32))
          (addf (broadcastInDim S8192x8192 ![0, 1] bcast_S8192x1_S8192x8192_0_1 f1)
            (broadcastInDim S8192x8192 ![0, 1] bcast_S1x8192_S8192x8192_0_1
              (transpose S1x8192 [1, 0] f2 transposes_S8192x1_S1x8192_1_0)))))
      (broadcastInDim S8192x8192 ![] bcast_S_S8192x8192 (id (constant (F := Ideal) S_ .f32 0xD9FFCB9E#32))) (ix2 i j)
      = (((if edge (adj (ix2 i j)) then max (r1 + r2) (slope.toReal * (r1 + r2)) else negBig.toReal : ℝ)) : EReal) := by
  rw [mask_apply, lrelu_apply _ i j (r1 + r2) (by rw [e_apply, h1, h2, EReal.coe_add])]
  by_cases h : edge (adj (ix2 i j))
  · rw [if_pos h, if_pos h]
  · rw [if_neg h, if_neg h]; exact negBig_real

/-- Normalised softmax weights of row i applied to column c of h give the weighted average. -/
theorem hp_apply (att : FVec Ideal S8192x8192 .f32) (h : FVec Ideal S8192x256 .f32) (i : Fin 8192) (c : Fin 256)
    (S H : Fin 8192 → ℝ)
    (hatt : ∀ j, att (ix2 i j)
      = Ideal.div (Ideal.exp (((S j : ℝ) : EReal) - ((Finset.univ.sup' Finset.univ_nonempty S : ℝ) : EReal)))
          (0 + ∑ j' : Fin 8192, Ideal.exp (((S j' : ℝ) : EReal) - ((Finset.univ.sup' Finset.univ_nonempty S : ℝ) : EReal))))
    (hh : ∀ j, h (ix2 j c) = ((H j : ℝ) : EReal)) :
    Host.dotGeneral (F := Ideal) dot_S8192x8192_S8192x256_S8192x256_1_0_0_1_n_n none att h (ix2 i c)
      = ((wavg S H Finset.univ Finset.univ_nonempty : ℝ) : EReal) := by
  rw [Cert.LibDot.dot_rows_apply _ rfl rfl rfl rfl rfl rfl, ← direct_wavg S H Finset.univ Finset.univ_nonempty]
  refine Finset.sum_congr rfl fun j _ => ?_
  rw [hatt, hh]

/-! ## The exponential linear unit -/

/-- The exponential linear unit as the program spells it, at a real value. -/
theorem elu_apply (hp : FVec Ideal S8192x256 .f32) (i : Fin 8192) (c : Fin 256) (r : ℝ)
    (hr : hp (ix2 i c) = ((r : ℝ) : EReal)) :
    select (cmpf .ogt hp (broadcastInDim S8192x256 ![] bcast_S_S8192x256 (constant (F := Ideal) S_ .f32 0x00000000#32))) hp
      (mulf (broadcastInDim S8192x256 ![] bcast_S_S8192x256 (constant (F := Ideal) S_ .f32 0x3F800000#32))
        (Host.expm1 (select (cmpf .ogt hp (broadcastInDim S8192x256 ![] bcast_S_S8192x256 (constant (F := Ideal) S_ .f32 0x00000000#32)))
          (broadcastInDim S8192x256 ![] bcast_S_S8192x256 (id (constant (F := Ideal) S_ .f32 0x00000000#32))) hp))) (ix2 i c)
      = eluE ((r : ℝ) : EReal) := by
  have e1 : ∀ a b : EReal, Scalar.select (BitVec.ofBool true) a b = a := fun a b => select_one a b
  have e0 : ∀ a b : EReal, Scalar.select (BitVec.ofBool false) a b = b := fun a b => select_zero a b
  rw [select_apply, cmpf_apply, mulf_apply, bcast0_apply, bcast0_apply, constant_apply, constant_apply, hr,
    Ideal.ofBits_zero_f32, ofBits_one, one_mul, Ideal.cmpf_def]
  show Scalar.select _ _ (Ideal.exp (select _ _ hp (ix2 i c)) - 1) = _
  rw [select_apply, cmpf_apply, bcast0_apply, bcast0_apply, hr, Ideal.cmpf_def, constant_apply, Ideal.ofBits_zero_f32]
  unfold Ideal.cmp eluE
  by_cases h0 : (0 : EReal) < ((r : ℝ) : EReal)
  · rw [if_pos h0]
    simp only [decide_eq_true h0]
    exact e1 _ _
  · rw [if_neg h0]
    simp only [decide_eq_false h0]
    rw [e0, e0]

end RefValue

open RefValue

/-- For real-valued arguments the reference's result at row `i`, column `c` is the exponential linear unit of row
    `i`'s softmax-weighted average of column `c` of `h`. -/
theorem refOut_eq (x : FVec Ideal S8192x512 .f32) (adj : IVec S8192x8192 32) (W : FVec Ideal S512x256 .f32)
    (a1 a2 : FVec Ideal S256x1 .f32) (hx : IsReal x) (hW : IsReal W) (h1 : IsReal a1) (h2 : IsReal a2)
    (i : Fin 8192) (c : Fin 256) :
    refOut (F := Ideal) x adj W a1 a2 (ix2 i c) = target x adj W a1 a2 i c := by
  have hh := h_apply x W hx hW
  unfold refOut target hpR
  exact elu_apply _ i c _ (hp_apply _ _ i c _ _
    (att_apply _ i _ (u_real _ i _
      fun j => score_apply adj _ _ i j _ _ (f_apply _ a1 (hR x W) hh h1 i 0) (f_apply _ a2 (hR x W) hh h2 j 0)))
    (fun j => hh j c))

end Cert.ReferenceIdeal.Hand

end
-- ==== Proof.lean ====
/-
  The five claims.

  Both kernel programs (the word-level one and its idealization are the same text at two float instances) run to the
  end from any memory, fault nowhere and leave their arguments as launched: @main is two stretches of host operations
  around two pipelined kernel regions, and each region's body meets the pipeline's obligation at every grid point.
  The reference is a straight line of host operations. No operation was rewritten by the idealization, so there is
  nothing to preserve. For the equivalence: under the precondition the float arguments hold real numbers; the kernel
  program's result is, entry by entry, the exponential linear unit of a softmax-weighted average computed one block
  of 1024 columns at a time with running maximum, denominator and numerators, and the reference's result is the same
  average computed with each weight normalised first; the two agree on the reals.
-/
import proofs.«410119_j22316650070323_3_alg».proof.Defs
import proofs.«410119_j22316650070323_3_alg».proof.Proof.Gen.Kernel
import proofs.«410119_j22316650070323_3_alg».proof.Proof.Gen.KernelIdeal
import proofs.«410119_j22316650070323_3_alg».proof.Proof.Gen.ReferenceIdeal
import proofs.«410119_j22316650070323_3_alg».proof.Proof.Gen.Pre_finite_inputs
import proofs.«410119_j22316650070323_3_alg».proof.Proof.K.Run
import proofs.«410119_j22316650070323_3_alg».proof.Proof.KI.Run
import proofs.«410119_j22316650070323_3_alg».proof.Proof.KI.KernelValue
import proofs.«410119_j22316650070323_3_alg».proof.Proof.RefRun
import proofs.«410119_j22316650070323_3_alg».proof.Proof.RefValue
import proofs.«410119_j22316650070323_3_alg».proof.Proof.Consts
import Idealize.ShloMosaic.Adequacy
import Idealize.ShloMosaic.Init

noncomputable section

namespace Cert.Proof

open Idealize.ShloMosaic Idealize.SL.Sem Idealize.ShloMosaic.ValueIdx

/-- The word-level kernel program runs and keeps its arguments. -/
theorem frame_k : Cert.frame_Kernel := fun m ρ _ =>
  (θ_run (Cert.Kernel.defs (F := Bits)) _ _).mono (fun _ h c => (h c).2) (Cert.Kernel.Hand.run_main (F := Bits) m ρ)

/-- So does its idealization. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- And the reference. -/
theorem frame_ri : Cert.frame_ReferenceIdeal := fun m ρ _ =>
  (θ_run (Cert.ReferenceIdeal.defs (F := Ideal)) _ _).mono (fun _ h c => (h c).2) (Cert.ReferenceIdeal.Hand.run (F := Ideal) m ρ)

/-- The idealization rewrote no operation. -/
theorem preserves : Cert.preserves_Kernel_KernelIdeal := trivial

/-- From memories agreeing on the arguments both idealized programs end with the same result: each entry is the target
    function of the (real-valued) arguments. -/
theorem algebraic : Cert.algebraic_KernelIdeal_ReferenceIdeal := by
  intro m ρ m' ρ' hpre hagree
  refine ⟨fun c => (Cert.KernelIdeal.Hand.dat1 (F := Ideal) (Cert.KernelIdeal.Hand.B3 m ρ) c).arrAt 4 Cert.KernelIdeal.cfg1.N,
    Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.Hand.run (F := Ideal) m' ρ')
  obtain ⟨hx, hW, h1, h2⟩ := Cert.Gat.real_of_pre _ _ _ _ _ (hpre c)
  rw [(hagree c).1, (hagree c).2.1, (hagree c).2.2.1, (hagree c).2.2.2.1, (hagree c).2.2.2.2]
  funext j
  obtain ⟨i, q, rfl⟩ : ∃ (i : Fin 8192) (q : Fin 256), j = ix2 i q := ⟨j 0, j 1, eq_ix2 j⟩
  exact (Cert.ReferenceIdeal.Hand.refOut_eq _ _ _ _ _ hx hW h1 h2 i q).trans
    (Cert.KernelIdeal.Hand.kernel_out m ρ c hx hW h1 h2 i q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
